-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x192x256x256 : Shape := ⟨4, ![2, 192, 256, 256]⟩
abbrev S64 : Shape := ⟨1, ![64]⟩
abbrev S_ : Shape := ⟨0, ![]⟩

class Facts : Prop where
  bcast_S_S2x192x256x256 : S_.BroadcastsInDim S2x192x256x256 (![] : Fin 0 → Fin S2x192x256x256.rank)
  reducesTo_S2x192x256x256_S_d0_1_2_3 : S2x192x256x256.ReducesTo [0, 1, 2, 3] S_
  h_S_ : 0 < S_.numel
  bcast_S_S64 : S_.BroadcastsInDim S64 (![] : Fin 0 → Fin S64.rank)
  reducesTo_S64_S_d0 : S64.ReducesTo [0] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S2x192x256x256 .f32) (main_arg1 : IVec S2x192x256x256 32) (main_arg2 : FVec F S64 .f32) : IVec S_ 1 :=
  let main_v0 : FVec F S2x192x256x256 .f32 := Host.absf main_arg0
  let main_cst : FVec F S_ .f32 := constant S_ .f32 0x7F800000#32
  let main_v1 : FVec F S2x192x256x256 .f32 := broadcastInDim S2x192x256x256 ![] bcast_S_S2x192x256x256 main_cst
  let main_v2 : IVec S2x192x256x256 1 := cmpf .olt main_v0 main_v1
  let main_c : IVec S_ 1 := constantI S_ 1 1#1
  let main_v3 : IVec S_ 1 := (fun x v => Host.reduce IntOp.andi x v reducesTo_S2x192x256x256_S_d0_1_2_3 h_S_) main_v2 main_c
  let main_v4 : FVec F S64 .f32 := Host.absf main_arg2
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_c_2 : IVec S_ 32 := constantI S_ 32 0#32
  let main_v9 : IVec S2x192x256x256 32 := broadcastInDim S2x192x256x256 ![] bcast_S_S2x192x256x256 main_c_2
  let main_v10 : IVec S2x192x256x256 1 := cmpi .sge main_arg1 main_v9
  let main_c_3 : IVec S_ 1 := constantI S_ 1 1#1
  let main_v11 : IVec S_ 1 := (fun x v => Host.reduce IntOp.andi x v reducesTo_S2x192x256x256_S_d0_1_2_3 h_S_) main_v10 main_c_3
  let main_v12 : IVec S_ 1 := andi main_v8 main_v11
  let main_c_4 : IVec S_ 32 := constantI S_ 32 64#32
  let main_v13 : IVec S2x192x256x256 32 := broadcastInDim S2x192x256x256 ![] bcast_S_S2x192x256x256 main_c_4
  let main_v14 : IVec S2x192x256x256 1 := cmpi .slt main_arg1 main_v13
  let main_c_5 : IVec S_ 1 := constantI S_ 1 1#1
  let main_v15 : IVec S_ 1 := (fun x v => Host.reduce IntOp.andi x v reducesTo_S2x192x256x256_S_d0_1_2_3 h_S_) main_v14 main_c_5
  fn_part1 (F := F) main_v12 main_v15
-- ==== Kernel.lean ====
abbrev S2x192x256x256 : Shape := ⟨4, ![2, 192, 256, 256]⟩
abbrev S64 : Shape := ⟨1, ![64]⟩
abbrev S196608x128 : Shape := ⟨2, ![196608, 128]⟩
abbrev S2x1x64 : Shape := ⟨3, ![2, 1, 64]⟩
abbrev S2048x128 : Shape := ⟨2, ![2048, 128]⟩
abbrev S1x1x64 : Shape := ⟨3, ![1, 1, 64]⟩
abbrev S1x64 : Shape := ⟨2, ![1, 64]⟩
abbrev S128 : Shape := ⟨1, ![128]⟩
abbrev S1x128 : Shape := ⟨2, ![1, 128]⟩
abbrev S1 : Shape := ⟨1, ![1]⟩
abbrev S1x1 : Shape := ⟨2, ![1, 1]⟩
abbrev S2x64 : Shape := ⟨2, ![2, 64]⟩
abbrev S_ : Shape := ⟨0, ![]⟩
abbrev S4096x128 : Shape := ⟨2, ![4096, 128]⟩
abbrev S4096x128x1 : Shape := ⟨3, ![4096, 128, 1]⟩

abbrev nBuf : Space → Nat
  | .hbm => 28
  | .vmem => 17
  | .smem => 0
  | _ => 0

abbrev bufTy : (tb : Table) → Fin (tcTables nBuf tb) → BufTy
  | .hbm, ⟨0, _⟩ => ⟨S2x192x256x256, .f32⟩
  | .hbm, ⟨1, _⟩ => ⟨S2x192x256x256, .i32⟩
  | .hbm, ⟨2, _⟩ => ⟨S64, .f32⟩
  | .hbm, ⟨3, _⟩ => ⟨S196608x128, .f32⟩
  | .hbm, ⟨4, _⟩ => ⟨S196608x128, .i32⟩
  | .hbm, ⟨5, _⟩ => ⟨S2x1x64, .f32⟩
  | .hbm, ⟨6, _⟩ => ⟨S2x1x64, .f32⟩
  | .hbm, ⟨7, _⟩ => ⟨S2x64, .f32⟩
  | .hbm, ⟨8, _⟩ => ⟨S_, .f32⟩
  | .hbm, ⟨9, _⟩ => ⟨S64, .f32⟩
  | .hbm, ⟨10, _⟩ => ⟨S2x64, .f32⟩
  | .hbm, ⟨11, _⟩ => ⟨S_, .f32⟩
  | .hbm, ⟨12, _⟩ => ⟨S64, .f32⟩
  | .hbm, ⟨13, _⟩ => ⟨S_, .f32⟩
  | .hbm, ⟨14, _⟩ => ⟨S64, .f32⟩
  | .hbm, ⟨15, _⟩ => ⟨S64, .f32⟩
  | .hbm, ⟨16, _⟩ => ⟨S64, .f32⟩
  | .hbm, ⟨17, _⟩ => ⟨S64, .f32⟩
  | .hbm, ⟨18, _⟩ => ⟨S_, .i32⟩
  | .hbm, ⟨19, _⟩ => ⟨S1, .i32⟩
  | .hbm, ⟨20, _⟩ => ⟨S_, .f32⟩
  | .hbm, ⟨21, _⟩ => ⟨S64, .f32⟩
  | .hbm, ⟨22, _⟩ => ⟨S_, .i32⟩
  | .hbm, ⟨23, _⟩ => ⟨S_, .f32⟩
  | .hbm, ⟨24, _⟩ => ⟨S128, .f32⟩
  | .hbm, ⟨25, _⟩ => ⟨S1x128, .f32⟩
  | .hbm, ⟨26, _⟩ => ⟨S196608x128, .f32⟩
  | .hbm, ⟨27, _⟩ => ⟨S2x192x256x256, .f32⟩
  | .local _ .vmem, ⟨0, _⟩ => ⟨S2048x128, .f32⟩
  | .local _ .vmem, ⟨1, _⟩ => ⟨S2048x128, .f32⟩
  | .local _ .vmem, ⟨2, _⟩ => ⟨S2048x128, .i32⟩
  | .local _ .vmem, ⟨3, _⟩ => ⟨S2048x128, .i32⟩
  | .local _ .vmem, ⟨4, _⟩ => ⟨S1x1x64, .f32⟩
  | .local _ .vmem, ⟨5, _⟩ => ⟨S1x1x64, .f32⟩
  | .local _ .vmem, ⟨6, _⟩ => ⟨S1x1x64, .f32⟩
  | .local _ .vmem, ⟨7, _⟩ => ⟨S1x1x64, .f32⟩
  | .local _ .vmem, ⟨8, _⟩ => ⟨S1x64, .f32⟩
  | .local _ .vmem, ⟨9, _⟩ => ⟨S1x64, .f32⟩
  | .local _ .vmem, ⟨10, _⟩ => ⟨S1x128, .f32⟩
  | .local _ .vmem, ⟨11, _⟩ => ⟨S4096x128, .f32⟩
  | .local _ .vmem, ⟨12, _⟩ => ⟨S4096x128, .f32⟩
  | .local _ .vmem, ⟨13, _⟩ => ⟨S4096x128, .i32⟩
  | .local _ .vmem, ⟨14, _⟩ => ⟨S4096x128, .i32⟩
  | .local _ .vmem, ⟨15, _⟩ => ⟨S4096x128, .f32⟩
  | .local _ .vmem, ⟨16, _⟩ => ⟨S4096x128, .f32⟩
  | _, _ => ⟨S2x192x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_c_3 : Ref sig .tc := ⟨.hbm, 22, rfl⟩
abbrev main_call0_v0 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc1_sem0_0 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨2, ![2, 48], ![false, false]⟩

@[reducible] def k0_t1_loop : Scf.Loop 32 :=
  let c1_i32 : BitVec 32 := 1#32
  let c63_i32 : BitVec 32 := 63#32
  let v10 : BitVec 32 := Scalar.addi c1_i32 c63_i32
  let c1_i32_8 : BitVec 32 := 1#32
  ⟨c1_i32, v10, c1_i32_8⟩
def k0_cond2 (i : grid0.Coords) : BitVec 1 :=
  let arg1 : BitVec 32 := BitVec.ofNat 32 (i 1).val
  let c47_i32 : BitVec 32 := 47#32
  let v18 : BitVec 1 := Scalar.cmpi .eq arg1 c47_i32
  let v19 : BitVec 32 := Scalar.extui v18
  let c0_i32_14 : BitVec 32 := 0#32
  let v20 : BitVec 1 := Scalar.cmpi .ne v19 c0_i32_14
  v20

def cc0_transform_0 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg0 c48_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c48_i32 : BitVec 32 := 48#32
  let v0 : BitVec 32 := Scalar.muli arg0 c48_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![48], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S1x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  shapeCasts_S2x192x256x256_S196608x128 : S2x192x256x256.ShapeCasts S196608x128
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  iota_S1x64_d1_w32 : S1x64.Iotas .tc 32 [1]
  reduces_S2048x128_S128 : S2048x128.Reduces [0] S128
  shapeCasts_S128_S1x128 : S128.ShapeCasts S1x128
  reduces_S1x128_S1 : S1x128.Reduces [1] S1
  shapeCasts_S1_S1x1 : S1.ShapeCasts S1x1
  natLt_1_32 : 1 < 32
  broadcasts_S1x1_S1x64 : S1x1.Broadcasts S1x64
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  shapeCasts_S2x1x64_S2x64 : S2x1x64.ShapeCasts S2x64
  reducesTo_S2x64_S64_d0 : S2x64.ReducesTo [0] S64
  h_S_ : 0 < S_.numel
  bcast_S_S64 : S_.BroadcastsInDim S64 (![] : Fin 0 → Fin S64.rank)
  bcast_S_S1 : S_.BroadcastsInDim S1 (![] : Fin 0 → Fin S1.rank)
  pads_S64_S128_0640 : S64.Pads (![0] : Fin 1 → Nat) ![64] ![0] S128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4096x128 : S1x128.Broadcasts S4096x128
  shapeCasts_S4096x128_S4096x128x1 : S4096x128.ShapeCasts S4096x128x1
  shapeCasts_S4096x128x1_S4096x128 : S4096x128x1.ShapeCasts S4096x128
  shapeCasts_S196608x128_S2x192x256x256 : S196608x128.ShapeCasts S2x192x256x256
  scatter_S64_S1_S__n_0_0_0_wf : ScatterDims.WF S64 S1 S_ [] [0] [0] 0
  hrank0 : 0 < grid0.rank
  k0_t1_ok : k0_t1_loop.OK
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S196608x128.size a
  hwx0_0 : ∀ i : grid0.Coords, EltTy.bits .f32 = 32 ∨ (Rect.block (s := S196608x128) S2048x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S196608x128.size a
  hwx0_1 : ∀ i : grid0.Coords, EltTy.bits .i32 = 32 ∨ (Rect.block (s := S196608x128) S2048x128.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x64.size a ≤ S2x1x64.size a
  hwx0_2 : ∀ i : grid0.Coords, EltTy.bits .f32 = 32 ∨ (Rect.block (s := S2x1x64) S1x1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x64.size a ≤ S2x1x64.size a
  hwx0_3 : ∀ i : grid0.Coords, EltTy.bits .f32 = 32 ∨ (Rect.block (s := S2x1x64) S1x1x64.size (cc0_transform_3 i) (hinb0_3 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x128.size a ≤ S1x128.size a
  hwx1_0 : ∀ i : grid1.Coords, EltTy.bits .f32 = 32 ∨ (Rect.block (s := S1x128) S1x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S196608x128.size a
  hwx1_1 : ∀ i : grid1.Coords, EltTy.bits .f32 = 32 ∨ (Rect.block (s := S196608x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S196608x128.size a
  hwx1_2 : ∀ i : grid1.Coords, EltTy.bits .i32 = 32 ∨ (Rect.block (s := S196608x128) S4096x128.size (cc1_transform_2 i) (hinb1_2 i)).WholeWords (EltTy.packing .i32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S196608x128.size a
  hwx1_3 : ∀ i : grid1.Coords, EltTy.bits .f32 = 32 ∨ (Rect.block (s := S196608x128) S4096x128.size (cc1_transform_3 i) (hinb1_3 i)).WholeWords (EltTy.packing .f32)

variable [Facts₀]

def scatter_S64_S1_S__n_0_0_0 : ScatterDims S64 S1 S_ where
  updateWindowDims := []
  insertedWindowDims := [0]
  scatterDimsToOperandDims := [0]
  indexVectorDim := 0
  wf := scatter_S64_S1_S__n_0_0_0_wf

abbrev win0_0 : Pipeline.Window sig grid0 :=
  Pipeline.Window.ofSpec (Memref.whole main_v0) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x1x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x1x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun i => !(k0_cond2 i == 1#1) | ⟨_ + 4, h⟩ => absurd h (Nat.not_lt.2 (Nat.le_add_left _ _))

abbrev win1_0 : Pipeline.Window sig grid1 :=
  Pipeline.Window.ofSpec (Memref.whole main_v14) S1x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v0) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v15) S4096x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S2x192x256x256 : Shape := ⟨4, ![2, 192, 256, 256]⟩
abbrev S64 : Shape := ⟨1, ![64]⟩
abbrev S25165824 : Shape := ⟨1, ![25165824]⟩
abbrev S_ : Shape := ⟨0, ![]⟩
abbrev S25165824x1 : Shape := ⟨2, ![25165824, 1]⟩

abbrev nBuf : Space → Nat
  | .hbm => 38
  | .vmem => 0
  | .smem => 0
  | _ => 0

abbrev bufTy : (tb : Table) → Fin (tcTables nBuf tb) → BufTy
  | .hbm, ⟨0, _⟩ => ⟨S2x192x256x256, .f32⟩
  | .hbm, ⟨1, _⟩ => ⟨S2x192x256x256, .i32⟩
  | .hbm, ⟨2, _⟩ => ⟨S64, .f32⟩
  | .hbm, ⟨3, _⟩ => ⟨S25165824, .f32⟩
  | .hbm, ⟨4, _⟩ => ⟨S25165824, .i32⟩
  | .hbm, ⟨5, _⟩ => ⟨S_, .f32⟩
  | .hbm, ⟨6, _⟩ => ⟨S64, .f32⟩
  | .hbm, ⟨7, _⟩ => ⟨S25165824x1, .i32⟩
  | .hbm, ⟨8, _⟩ => ⟨S64, .f32⟩
  | .hbm, ⟨9, _⟩ => ⟨S_, .f32⟩
  | .hbm, ⟨10, _⟩ => ⟨S25165824, .f32⟩
  | .hbm, ⟨11, _⟩ => ⟨S_, .f32⟩
  | .hbm, ⟨12, _⟩ => ⟨S64, .f32⟩
  | .hbm, ⟨13, _⟩ => ⟨S25165824x1, .i32⟩
  | .hbm, ⟨14, _⟩ => ⟨S64, .f32⟩
  | .hbm, ⟨15, _⟩ => ⟨S_, .f32⟩
  | .hbm, ⟨16, _⟩ => ⟨S64, .f32⟩
  | .hbm, ⟨17, _⟩ => ⟨S64, .f32⟩
  | .hbm, ⟨18, _⟩ => ⟨S64, .f32⟩
  | .hbm, ⟨19, _⟩ => ⟨S64, .f32⟩
  | .hbm, ⟨20, _⟩ => ⟨S_, .i32⟩
  | .hbm, ⟨21, _⟩ => ⟨S25165824, .i32⟩
  | .hbm, ⟨22, _⟩ => ⟨S25165824, .i1⟩
  | .hbm, ⟨23, _⟩ => ⟨S_, .i32⟩
  | .hbm, ⟨24, _⟩ => ⟨S25165824, .i32⟩
  | .hbm, ⟨25, _⟩ => ⟨S25165824, .i1⟩
  | .hbm, ⟨26, _⟩ => ⟨S_, .i32⟩
  | .hbm, ⟨27, _⟩ => ⟨S25165824, .i32⟩
  | .hbm, ⟨28, _⟩ => ⟨S25165824, .i32⟩
  | .hbm, ⟨29, _⟩ => ⟨S25165824, .i32⟩
  | .hbm, ⟨30, _⟩ => ⟨S25165824x1, .i32⟩
  | .hbm, ⟨31, _⟩ => ⟨S25165824, .f32⟩
  | .hbm, ⟨32, _⟩ => ⟨S_, .f32⟩
  | .hbm, ⟨33, _⟩ => ⟨S_, .f32⟩
  | .hbm, ⟨34, _⟩ => ⟨S25165824, .f32⟩
  | .hbm, ⟨35, _⟩ => ⟨S25165824, .f32⟩
  | .hbm, ⟨36, _⟩ => ⟨S25165824, .f32⟩
  | .hbm, ⟨37, _⟩ => ⟨S2x192x256x256, .f32⟩
  | _, _ => ⟨S2x192x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_v13 : Ref sig .tc := ⟨.hbm, 21, rfl⟩
abbrev main_v14 : Ref sig .tc := ⟨.hbm, 22, rfl⟩
abbrev main_c_3 : Ref sig .tc := ⟨.hbm, 23, rfl⟩
abbrev main_v15 : Ref sig .tc := ⟨.hbm, 24, rfl⟩
abbrev main_v16 : Ref sig .tc := ⟨.hbm, 25, rfl⟩
abbrev main_c_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  shapeCasts_S2x192x256x256_S25165824 : S2x192x256x256.ShapeCasts S25165824
  bcast_S_S64 : S_.BroadcastsInDim S64 (![] : Fin 0 → Fin S64.rank)
  bcast_S25165824_S25165824x1_0 : S25165824.BroadcastsInDim S25165824x1 (![0] : Fin 1 → Fin S25165824x1.rank)
  bcast_S_S25165824 : S_.BroadcastsInDim S25165824 (![] : Fin 0 → Fin S25165824.rank)
  shapeCasts_S25165824_S2x192x256x256 : S25165824.ShapeCasts S2x192x256x256
  scatter_S64_S25165824x1_S25165824_n_0_0_1_wf : ScatterDims.WF S64 S25165824x1 S25165824 [] [0] [0] 1
  gather_S64_S25165824x1_S25165824_n_0_n_n_0_1_1_wf : GatherDims.WF S64 S25165824x1 S25165824 [] [0] [] [0] [] 1 ![1]

variable [Facts₀]

def scatter_S64_S25165824x1_S25165824_n_0_0_1 : ScatterDims S64 S25165824x1 S25165824 where
  updateWindowDims := []
  insertedWindowDims := [0]
  scatterDimsToOperandDims := [0]
  indexVectorDim := 1
  wf := scatter_S64_S25165824x1_S25165824_n_0_0_1_wf
def gather_S64_S25165824x1_S25165824_n_0_n_n_0_1_1 : GatherDims S64 S25165824x1 S25165824 where
  offsetDims := []
  collapsedSliceDims := [0]
  operandBatchingDims := []
  startIndicesBatchingDims := []
  startIndexMap := [0]
  indexVectorDim := 1
  sliceSizes := ![1]
  wf := gather_S64_S25165824x1_S25165824_n_0_n_n_0_1_1_wf

class Facts : Prop extends Facts₀ where

variable [Facts]
-- ==== Proof.KernelHand.StepDef.lean ====
import proofs.«416137_j84267258347944_3_alg».proof.Proof.Gen.Kernel.Skeleton
import Idealize.ShloMosaic.Lib.Exec

/-! What one grid point of the reduction does to the pair of accumulators (per-label sums, per-label
    counts): the fold of the label loop over the point's block, from the pair the point starts from. -/

noncomputable section

namespace Cert.Kernel.Hand

open Idealize.ShloMosaic Cert.Kernel Cert.Kernel.Gen

variable {F : FTy → Type} [FloatOps F]

/-- The label loop's yield: trip `k` adds, at lane `k + 1`, the block's sum (count) of the entries
    whose label is `k + 1`. -/
def loopG (x : Vec F S2048x128 .f32) (l : Vec F S2048x128 .i32) (k : Fin k0_t1_loop.trips)
    (acc : Vec F S1x64 .f32 × Vec F S1x64 .f32) : Vec F S1x64 .f32 × Vec F S1x64 .f32 :=
  (k0_pay5 x l k acc.1, k0_pay6 l k acc.2)

/-- The accumulator pair after a point whose blocks are `x` (values) and `l` (labels), started from `s`. -/
def step (x : Vec F S2048x128 .f32) (l : Vec F S2048x128 .i32)
    (s : Vec F S1x64 .f32 × Vec F S1x64 .f32) : Vec F S1x64 .f32 × Vec F S1x64 .f32 :=
  (k0_pay7 (Scf.fold (loopG x l) s).1, k0_pay8 (Scf.fold (loopG x l) s).2)

/-- The pair a core's first point resets the accumulators to. -/
def zero2 : Vec F S1x64 .f32 × Vec F S1x64 .f32 := (k0_pay1, k0_pay2)

end Cert.Kernel.Hand

end
-- ==== Proof.KernelHand.R0Body.lean ====
import proofs.«416137_j84267258347944_3_alg».proof.Proof.Gen.Kernel.Launch
import proofs.«416137_j84267258347944_3_alg».proof.Proof.Gen.Kernel.Skeleton
import proofs.«416137_j84267258347944_3_alg».proof.Proof.Gen.Kernel.Points
import proofs.«416137_j84267258347944_3_alg».proof.Proof.KernelHand.StepDef
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

/-! The reduction kernel's body, run once per control case: a core's first point resets the two
    accumulators before adding its block in, a middle point adds its block in, a core's last point
    also copies the accumulators into the two output blocks. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-- The first conditional: the point is a core's first. -/
abbrev cond0_0 (i : grid0.Coords) : Prop :=
  (Scalar.cmpi .ne (Scalar.extui (Scalar.cmpi .eq (BitVec.ofNat 32 (i 1).val) 0#32)) 0#32) = 1#1
/-- The second conditional: the point is a core's last. -/
abbrev cond0_1 (i : grid0.Coords) : Prop := k0_cond2 i = 1#1

theorem hcond0_0 : ∀ t : Fin cfg0.N, cond0_0 (grid0.coords t) ↔ t.val % 48 = 0 :=
  (by decide +kernel : ∀ t : Fin grid0.N, cond0_0 (grid0.coords t) ↔ t.val % 48 = 0)
theorem hcond0_1 : ∀ t : Fin cfg0.N, cond0_1 (grid0.coords t) ↔ t.val % 48 = 47 :=
  (by decide +kernel : ∀ t : Fin grid0.N, cond0_1 (grid0.coords t) ↔ t.val % 48 = 47)

/-- The zero offsets of a whole-block load or store, as a constant function. -/
private theorem hz2 : (![0, 0] : Fin S1x64.rank → Nat) = fun _ => 0 := funext fun a => by fin_cases a <;> rfl
private theorem hzB : (![0, 0] : Fin S2048x128.rank → Nat) = fun _ => 0 := funext fun a => by fin_cases a <;> rfl
private theorem hz3 : (![0, 0, 0] : Fin S1x1x64.rank → Nat) = fun _ => 0 := funext fun a => by fin_cases a <;> rfl

/-- What a store through the whole-shape rectangle at zero offsets, made last, leaves: its payload,
    whatever the earlier stores and the prior contents were. -/
private theorem read_last_store {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e),
    List.mem_cons.mpr (Or.inl rfl), View.mem_set_unit_zero h inb y⟩), View.canon_cons_unit_zero h]

set_option maxHeartbeats 1000000 in
/-- A middle point, over the two accumulators' contents named apart. -/
theorem run_mid_split (c : Dev nD) (i : grid0.Coords)
    (arg2 : Memref sig .tc .vmem S2048x128 .f32) (harg2 : arg2.IsWhole) (arg3 : Memref sig .tc .vmem S2048x128 .i32) (harg3 : arg3.IsWhole)
    (arg4 : Memref sig .tc .vmem S1x1x64 .f32) (harg4 : arg4.IsWhole) (arg5 : Memref sig .tc .vmem S1x1x64 .f32) (harg5 : arg5.IsWhole)
    (arg6 : Memref sig .tc .vmem S1x64 .f32) (harg6 : arg6.IsWhole) (arg7 : Memref sig .tc .vmem S1x64 .f32) (harg7 : arg7.IsWhole)
    (hc0 : ¬cond0_0 i) (hc1 : ¬cond0_1 i)
    (x : Vec F S2048x128 .f32) (l : Vec F S2048x128 .i32) (y4 y5 : Vec F S1x1x64 .f32) (s1 s2 : Vec F S1x64 .f32)
    (E : Set ℕ) (K : PUnit → sProp 𝕄) :
    iprop(owns (c : Thread nD τ) arg2 fullShare x ∗ owns (c : Thread nD τ) arg3 fullShare l
        ∗ owns (c : Thread nD τ) arg4 fullShare y4 ∗ owns (c : Thread nD τ) arg5 fullShare y5
        ∗ owns (c : Thread nD τ) arg6 fullShare s1 ∗ owns (c : Thread nD τ) arg7 fullShare s2
        ∗ (iprop(owns (c : Thread nD τ) arg2 fullShare x ∗ owns (c : Thread nD τ) arg3 fullShare l
            ∗ owns (c : Thread nD τ) arg4 fullShare y4 ∗ owns (c : Thread nD τ) arg5 fullShare y5
            ∗ owns (c : Thread nD τ) arg6 fullShare (step x l (s1, s2)).1 ∗ owns (c : Thread nD τ) arg7 fullShare (step x l (s1, s2)).2) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr; · ipureintro; exact hf5
    iexact H5
  isplitl [H6]
  · iexists _; isplitr
    pick_goal 2; · iexact H6
    ipureintro
    sl_unfold_run_names
    rw [read_last_store _ _ hz2]
    simp only [View.readAt_eq_ld, harg2.read_unread, harg3.read_unread, harg6.read_unread, harg7.read_unread,
      View.ld_unit_zero (S := S2048x128) hzB, View.ld_unit_zero (S := S1x64) hz2, View.readCov_unit_zero (S := S1x64) _ hz2]
    rfl
  iexists _; isplitr
  pick_goal 2; · iexact H7
  ipureintro
  sl_unfold_run_names
  rw [read_last_store _ _ hz2]
  simp only [View.readAt_eq_ld, harg2.read_unread, harg3.read_unread, harg6.read_unread, harg7.read_unread,
    View.ld_unit_zero (S := S2048x128) hzB, View.ld_unit_zero (S := S1x64) hz2, View.readCov_unit_zero (S := S1x64) _ hz2]
  rfl

set_option maxHeartbeats 1000000 in
/-- A core's last point, over the two accumulators' contents named apart. -/
theorem run_last_split (c : Dev nD) (i : grid0.Coords)
    (arg2 : Memref sig .tc .vmem S2048x128 .f32) (harg2 : arg2.IsWhole) (arg3 : Memref sig .tc .vmem S2048x128 .i32) (harg3 : arg3.IsWhole)
    (arg4 : Memref sig .tc .vmem S1x1x64 .f32) (harg4 : arg4.IsWhole) (arg5 : Memref sig .tc .vmem S1x1x64 .f32) (harg5 : arg5.IsWhole)
    (arg6 : Memref sig .tc .vmem S1x64 .f32) (harg6 : arg6.IsWhole) (arg7 : Memref sig .tc .vmem S1x64 .f32) (harg7 : arg7.IsWhole)
    (hc0 : ¬cond0_0 i) (hc1 : cond0_1 i)
    (x : Vec F S2048x128 .f32) (l : Vec F S2048x128 .i32) (s1 s2 : Vec F S1x64 .f32)
    (E : Set ℕ) (K : PUnit → sProp 𝕄) :
    iprop(owns (c : Thread nD τ) arg2 fullShare x ∗ owns (c : Thread nD τ) arg3 fullShare l
        ∗ (∃ d, owns (c : Thread nD τ) arg4 fullShare d) ∗ (∃ d, owns (c : Thread nD τ) arg5 fullShare d)
        ∗ owns (c : Thread nD τ) arg6 fullShare s1 ∗ owns (c : Thread nD τ) arg7 fullShare s2
        ∗ (iprop(owns (c : Thread nD τ) arg2 fullShare x ∗ owns (c : Thread nD τ) arg3 fullShare l
            ∗ owns (c : Thread nD τ) arg4 fullShare (k0_pay9 (step x l (s1, s2)).1) ∗ owns (c : Thread nD τ) arg5 fullShare (k0_pay10 (step x l (s1, s2)).2)
            ∗ owns (c : Thread nD τ) arg6 fullShare (step x l (s1, s2)).1 ∗ owns (c : Thread nD τ) arg7 fullShare (step x l (s1, s2)).2) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    pick_goal 2; · iexact H4
    ipureintro
    sl_unfold_run_names
    rw [read_last_store _ _ hz3]
    simp only [View.readAt_eq_ld, harg2.read_unread, harg3.read_unread, harg6.read_unread, harg7.read_unread,
      View.ld_unit_zero (S := S2048x128) hzB, View.ld_unit_zero (S := S1x64) hz2, View.readCov_unit_zero (S := S1x64) _ hz2]
    rfl
  isplitl [H5]
  · iexists _; isplitr
    pick_goal 2; · iexact H5
    ipureintro
    sl_unfold_run_names
    rw [read_last_store _ _ hz3]
    simp only [View.readAt_eq_ld, harg2.read_unread, harg3.read_unread, harg6.read_unread, harg7.read_unread,
      View.ld_unit_zero (S := S2048x128) hzB, View.ld_unit_zero (S := S1x64) hz2, View.readCov_unit_zero (S := S1x64) _ hz2]
    rfl
  isplitl [H6]
  · iexists _; isplitr
    pick_goal 2; · iexact H6
    ipureintro
    sl_unfold_run_names
    rw [read_last_store _ _ hz2]
    simp only [View.readAt_eq_ld, harg2.read_unread, harg3.read_unread, harg6.read_unread, harg7.read_unread,
      View.ld_unit_zero (S := S2048x128) hzB, View.ld_unit_zero (S := S1x64) hz2, View.readCov_unit_zero (S := S1x64) _ hz2]
    rfl
  iexists _; isplitr
  pick_goal 2; · iexact H7
  ipureintro
  sl_unfold_run_names
  rw [read_last_store _ _ hz2]
  simp only [View.readAt_eq_ld, harg2.read_unread, harg3.read_unread, harg6.read_unread, harg7.read_unread,
    View.ld_unit_zero (S := S2048x128) hzB, View.ld_unit_zero (S := S1x64) hz2, View.readCov_unit_zero (S := S1x64) _ hz2]
  rfl

set_option maxHeartbeats 1000000 in
/-- A core's first point: the accumulators, whatever they held, end at the block added to zero; the
    output blocks are handed back as found. -/
theorem run_first (c : Dev nD) (i : grid0.Coords)
    (arg2 : Memref sig .tc .vmem S2048x128 .f32) (harg2 : arg2.IsWhole) (arg3 : Memref sig .tc .vmem S2048x128 .i32) (harg3 : arg3.IsWhole)
    (arg4 : Memref sig .tc .vmem S1x1x64 .f32) (harg4 : arg4.IsWhole) (arg5 : Memref sig .tc .vmem S1x1x64 .f32) (harg5 : arg5.IsWhole)
    (arg6 : Memref sig .tc .vmem S1x64 .f32) (harg6 : arg6.IsWhole) (arg7 : Memref sig .tc .vmem S1x64 .f32) (harg7 : arg7.IsWhole)
    (hc0 : cond0_0 i) (hc1 : ¬cond0_1 i)
    (x : Vec F S2048x128 .f32) (l : Vec F S2048x128 .i32) (y4 y5 : Vec F S1x1x64 .f32) (E : Set ℕ) (K : PUnit → sProp 𝕄) :
    iprop(owns (c : Thread nD τ) arg2 fullShare x ∗ owns (c : Thread nD τ) arg3 fullShare l
        ∗ owns (c : Thread nD τ) arg4 fullShare y4 ∗ owns (c : Thread nD τ) arg5 fullShare y5
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare l
            ∗ owns (c : Thread nD τ) arg4 fullShare y4 ∗ owns (c : Thread nD τ) arg5 fullShare y5
            ∗ owns (c : Thread nD τ) arg6 fullShare (step x l zero2).1 ∗ owns (c : Thread nD τ) arg7 fullShare (step x l zero2).2) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr; · ipureintro; exact hf5
    iexact H5
  isplitl [H6]
  · iexists _; isplitr
    pick_goal 2; · iexact H6
    ipureintro
    sl_unfold_run_names
    rw [read_last_store _ _ hz2]
    simp only [View.readAt_eq_ld, harg2.read_unread, harg3.read_unread,
      View.ld_unit_zero (S := S2048x128) hzB, View.ld_unit_zero (S := S1x64) hz2, View.readCov_unit_zero (S := S1x64) _ hz2]
    rfl
  iexists _; isplitr
  pick_goal 2; · iexact H7
  ipureintro
  sl_unfold_run_names
  rw [read_last_store _ _ hz2]
  simp only [View.readAt_eq_ld, harg2.read_unread, harg3.read_unread,
    View.ld_unit_zero (S := S2048x128) hzB, View.ld_unit_zero (S := S1x64) hz2, View.readCov_unit_zero (S := S1x64) _ hz2]
  rfl

/-- A middle point: the accumulators end at the block added to what they held. -/
theorem run_mid (c : Dev nD) (i : grid0.Coords)
    (arg2 : Memref sig .tc .vmem S2048x128 .f32) (harg2 : arg2.IsWhole) (arg3 : Memref sig .tc .vmem S2048x128 .i32) (harg3 : arg3.IsWhole)
    (arg4 : Memref sig .tc .vmem S1x1x64 .f32) (harg4 : arg4.IsWhole) (arg5 : Memref sig .tc .vmem S1x1x64 .f32) (harg5 : arg5.IsWhole)
    (arg6 : Memref sig .tc .vmem S1x64 .f32) (harg6 : arg6.IsWhole) (arg7 : Memref sig .tc .vmem S1x64 .f32) (harg7 : arg7.IsWhole)
    (hc0 : ¬cond0_0 i) (hc1 : ¬cond0_1 i)
    (x : Vec F S2048x128 .f32) (l : Vec F S2048x128 .i32) (y4 y5 : Vec F S1x1x64 .f32) (s : Vec F S1x64 .f32 × Vec F S1x64 .f32)
    (E : Set ℕ) (K : PUnit → sProp 𝕄) :
    iprop(owns (c : Thread nD τ) arg2 fullShare x ∗ owns (c : Thread nD τ) arg3 fullShare l
        ∗ owns (c : Thread nD τ) arg4 fullShare y4 ∗ owns (c : Thread nD τ) arg5 fullShare y5
        ∗ owns (c : Thread nD τ) arg6 fullShare s.1 ∗ owns (c : Thread nD τ) arg7 fullShare s.2
        ∗ (iprop(owns (c : Thread nD τ) arg2 fullShare x ∗ owns (c : Thread nD τ) arg3 fullShare l
            ∗ owns (c : Thread nD τ) arg4 fullShare y4 ∗ owns (c : Thread nD τ) arg5 fullShare y5
            ∗ owns (c : Thread nD τ) arg6 fullShare (step x l s).1 ∗ owns (c : Thread nD τ) arg7 fullShare (step x l s).2) -∗ K ⟨⟩))
      ⊢ wp frame (wpE (defs₀ (F := F)) Variants.none c none) E (cc0__reduce_kernel i arg2 harg2 arg3 harg3 arg4 harg4 arg5 harg5 arg6 harg6 arg7 harg7) K := by
  obtain ⟨s1, s2⟩ := s
  exact run_mid_split c i arg2 harg2 arg3 harg3 arg4 harg4 arg5 harg5 arg6 harg6 arg7 harg7 hc0 hc1 x l y4 y5 s1 s2 E K

/-- A core's last point: as a middle point, and the output blocks end at the accumulators' new contents. -/
theorem run_last (c : Dev nD) (i : grid0.Coords)
    (arg2 : Memref sig .tc .vmem S2048x128 .f32) (harg2 : arg2.IsWhole) (arg3 : Memref sig .tc .vmem S2048x128 .i32) (harg3 : arg3.IsWhole)
    (arg4 : Memref sig .tc .vmem S1x1x64 .f32) (harg4 : arg4.IsWhole) (arg5 : Memref sig .tc .vmem S1x1x64 .f32) (harg5 : arg5.IsWhole)
    (arg6 : Memref sig .tc .vmem S1x64 .f32) (harg6 : arg6.IsWhole) (arg7 : Memref sig .tc .vmem S1x64 .f32) (harg7 : arg7.IsWhole)
    (hc0 : ¬cond0_0 i) (hc1 : cond0_1 i)
    (x : Vec F S2048x128 .f32) (l : Vec F S2048x128 .i32) (s : Vec F S1x64 .f32 × Vec F S1x64 .f32)
    (E : Set ℕ) (K : PUnit → sProp 𝕄) :
    iprop(owns (c : Thread nD τ) arg2 fullShare x ∗ owns (c : Thread nD τ) arg3 fullShare l
        ∗ (∃ d, owns (c : Thread nD τ) arg4 fullShare d) ∗ (∃ d, owns (c : Thread nD τ) arg5 fullShare d)
        ∗ owns (c : Thread nD τ) arg6 fullShare s.1 ∗ owns (c : Thread nD τ) arg7 fullShare s.2
        ∗ (iprop(owns (c : Thread nD τ) arg2 fullShare x ∗ owns (c : Thread nD τ) arg3 fullShare l
            ∗ owns (c : Thread nD τ) arg4 fullShare (k0_pay9 (step x l s).1) ∗ owns (c : Thread nD τ) arg5 fullShare (k0_pay10 (step x l s).2)
            ∗ owns (c : Thread nD τ) arg6 fullShare (step x l s).1 ∗ owns (c : Thread nD τ) arg7 fullShare (step x l s).2) -∗ K ⟨⟩))
      ⊢ wp frame (wpE (defs₀ (F := F)) Variants.none c none) E (cc0__reduce_kernel i arg2 harg2 arg3 harg3 arg4 harg4 arg5 harg5 arg6 harg6 arg7 harg7) K := by
  obtain ⟨s1, s2⟩ := s
  exact run_last_split c i arg2 harg2 arg3 harg3 arg4 harg4 arg5 harg5 arg6 harg6 arg7 harg7 hc0 hc1 x l s1 s2 E K

end Cert.Kernel.Hand

end
-- ==== Proof.KernelHand.R0Dat.lean ====
import proofs.«416137_j84267258347944_3_alg».proof.Proof.Gen.Kernel.Launch
import proofs.«416137_j84267258347944_3_alg».proof.Proof.Gen.Kernel.Skeleton
import proofs.«416137_j84267258347944_3_alg».proof.Proof.Gen.Kernel.Points
import proofs.«416137_j84267258347944_3_alg».proof.Proof.KernelHand.StepDef
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«416137_j84267258347944_3_alg».proof.Proof.KernelHand.R0Body

/-! The reduction pipeline's proof data: what the two accumulators hold after each grid point (a core's
    first point starts them from zero, every other point from what the point before left), what the two
    output blocks hold after a core's last point, and the body obligation at every point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator pair after the point at position `n`. -/
def scAt (c : Dev nD) : (n : ℕ) → n < cfg0.N → Vec F S1x64 .f32 × Vec F S1x64 .f32
  | 0, hn => step (iblk0 V c 0 ⟨0, hn⟩) (iblk0 V c 1 ⟨0, hn⟩) zero2
  | n + 1, hn =>
    if (n + 1) % 48 = 0 then step (iblk0 V c 0 ⟨n + 1, hn⟩) (iblk0 V c 1 ⟨n + 1, hn⟩) zero2
    else step (iblk0 V c 0 ⟨n + 1, hn⟩) (iblk0 V c 1 ⟨n + 1, hn⟩) (scAt c n (Nat.lt_of_succ_lt hn))

/-- At a core's first point the pair starts from zero. -/
theorem scAt_first (c : Dev nD) (t : Fin cfg0.N) (h : t.val % 48 = 0) :
    scAt V c t.val t.isLt = step (iblk0 V c 0 t) (iblk0 V c 1 t) zero2 := by
  obtain ⟨n, hn⟩ := t
  cases n with
  | zero => rfl
  | succ n => exact if_pos h
/-- At every other point it starts from what the point before left. -/
theorem scAt_next (c : Dev nD) (t : Fin cfg0.N) (h : ¬t.val % 48 = 0) :
    scAt V c t.val t.isLt = step (iblk0 V c 0 t) (iblk0 V c 1 t) (scAt V c (t.val - 1) (Nat.lt_of_le_of_lt (Nat.sub_le _ _) t.isLt)) := by
  obtain ⟨n, hn⟩ := t
  cases n with
  | zero => exact absurd (Nat.zero_mod _) h
  | succ n => exact if_neg h

/-- Ten factors, the last outside the bracket of the first nine: the same as all ten in one row. -/
private theorem sep_reassoc (A B C1 C2 C3 C4 C5 C6 C7 G : sProp 𝕄) :
    iprop((A ∗ B ∗ C1 ∗ C2 ∗ C3 ∗ C4 ∗ C5 ∗ C6 ∗ C7) ∗ G) = iprop(A ∗ B ∗ C1 ∗ C2 ∗ C3 ∗ C4 ∗ C5 ∗ C6 ∗ C7 ∗ G) := by
  have h₁ : iprop((A ∗ B ∗ C1 ∗ C2 ∗ C3 ∗ C4 ∗ C5 ∗ C6 ∗ C7) ∗ G) ⊢ iprop(A ∗ B ∗ C1 ∗ C2 ∗ C3 ∗ C4 ∗ C5 ∗ C6 ∗ C7 ∗ G) := by
    iintro ⟨⟨H0, H1, H2, H3, H4, H5, H6, H7, H8⟩, Hg⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hg
  have h₂ : iprop(A ∗ B ∗ C1 ∗ C2 ∗ C3 ∗ C4 ∗ C5 ∗ C6 ∗ C7 ∗ G) ⊢ iprop((A ∗ B ∗ C1 ∗ C2 ∗ C3 ∗ C4 ∗ C5 ∗ C6 ∗ C7) ∗ G) := by
    iintro ⟨H0, H1, H2, H3, H4, H5, H6, H7, H8, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact Hg
  exact equiv_iff.mp ⟨h₁, h₂⟩

/-- The rest of the region's invariant: the scoped buffers that are neither staged by this pipeline nor one of the
    two accumulators (the second pipeline's staging buffers), each whole at some contents, and the generator register
    at some state. -/
def restS (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ r, prngReg c r))

/-- The region's invariant as the launch hands it over: the two accumulators at some contents, and the rest. -/
theorem PhiA0_eq (c : Dev nD) :
    (Pipeline.ΦA spec0 c : sProp 𝕄)
      = iprop((∃ d, owns (c : Thread nD τ) (Memref.whole cc0_scratch0 : Memref sig .tc .vmem S1x64 .f32) fullShare d)
          ∗ (∃ d, owns (c : Thread nD τ) (Memref.whole cc0_scratch1 : Memref sig .tc .vmem S1x64 .f32) fullShare d)
          ∗ restS (F := F) c) := by
  unfold Pipeline.ΦA restS; rw [scopedRest0_eq]; simp only [owns_whole]
  exact sep_reassoc _ _ _ _ _ _ _ _ _ _

/-- The region invariant before position `n`: before the first point every scoped buffer the pipeline does not stage at
    anything; afterwards the two accumulators at what the point before left. -/
def PhiS (c : Dev nD) : (n : ℕ) → n ≤ cfg0.N → sProp 𝕄
  | 0, _ => Pipeline.ΦA spec0 c
  | n + 1, hn => iprop(owns (c : Thread nD τ) (Memref.whole cc0_scratch0 : Memref sig .tc .vmem S1x64 .f32) fullShare (scAt V c n hn).1
      ∗ owns (c : Thread nD τ) (Memref.whole cc0_scratch1 : Memref sig .tc .vmem S1x64 .f32) fullShare (scAt V c n hn).2
      ∗ restS (F := F) c)

theorem PhiS_zero (c : Dev nD) (n : ℕ) (h : n ≤ cfg0.N) (hz : n = 0) : PhiS V c n h = Pipeline.ΦA spec0 c := by
  subst hz; rfl

/-- After the point at position `n`: the accumulators at that point's pair. -/
theorem PhiS_succ (c : Dev nD) (n : ℕ) (hn : n < cfg0.N) :
    PhiS V c (n + 1) hn = iprop(owns (c : Thread nD τ) (Memref.whole cc0_scratch0 : Memref sig .tc .vmem S1x64 .f32) fullShare (scAt V c n hn).1
      ∗ owns (c : Thread nD τ) (Memref.whole cc0_scratch1 : Memref sig .tc .vmem S1x64 .f32) fullShare (scAt V c n hn).2
      ∗ restS (F := F) c) := rfl

/-- Before a point that is not the first: the accumulators at what the point before left. -/
theorem PhiS_pos (c : Dev nD) (n : ℕ) (h : n ≤ cfg0.N) (hz : n ≠ 0) :
    PhiS V c n h = iprop(owns (c : Thread nD τ) (Memref.whole cc0_scratch0 : Memref sig .tc .vmem S1x64 .f32) fullShare (scAt V c (n - 1) (by omega)).1
      ∗ owns (c : Thread nD τ) (Memref.whole cc0_scratch1 : Memref sig .tc .vmem S1x64 .f32) fullShare (scAt V c (n - 1) (by omega)).2
      ∗ restS (F := F) c) := by
  cases n with
  | zero => exact absurd rfl hz
  | succ n => rfl

/-- The proof data of the reduction pipeline on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay9 (scAt V c t.val t.isLt).1
    | ⟨3, _⟩ => k0_pay10 (scAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_2 (c : Dev nD) (t : Fin cfg0.N) : (dat0 V c).after 2 t = k0_pay9 (scAt V c t.val t.isLt).1 := by dsimp only [dat0]
theorem after0_3 (c : Dev nD) (t : Fin cfg0.N) : (dat0 V c).after 3 t = k0_pay10 (scAt V c t.val t.isLt).2 := by dsimp only [dat0]

/-- Whatever the invariant says of the accumulators before a point, each is whole at some contents. -/
theorem PhiS_some (c : Dev nD) (n : ℕ) (h : n ≤ cfg0.N) :
    PhiS V c n h ⊢ iprop((∃ d, owns (c : Thread nD τ) (Memref.whole cc0_scratch0 : Memref sig .tc .vmem S1x64 .f32) fullShare d)
      ∗ (∃ d, owns (c : Thread nD τ) (Memref.whole cc0_scratch1 : Memref sig .tc .vmem S1x64 .f32) fullShare d)
      ∗ restS (F := F) c) := by
  cases n with
  | zero => rw [PhiS_zero V c 0 h rfl, PhiA0_eq]
  | succ n =>
    rw [PhiS_succ]
    iintro ⟨HS0, HS1, Hr⟩
    isplitl [HS0]; · iexists _; iexact HS0
    isplitl [HS1]; · iexists _; iexact HS1
    iexact Hr

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

/-- Each input's current staging buffer holds its block at every point, fetched there or not: unfetched, the block
    index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! Where the windows are idle: the inputs never; the two outputs wherever the point is not a core's last, and there
    the pipeline does not write them back. -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel
theorem noFlush0_2 (t : Fin cfg0.N) (h : ¬t.val % 48 = 47) : (cfg0.win 2).flush t = false := by
  cases hf : (cfg0.win 2).flush t with
  | false => rfl
  | true => exact absurd ((flush0_2 t).mp hf) h
theorem noFlush0_3 (t : Fin cfg0.N) (h : ¬t.val % 48 = 47) : (cfg0.win 3).flush t = false := by
  cases hf : (cfg0.win 3).flush t with
  | false => rfl
  | true => exact absurd ((flush0_3 t).mp hf) h

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks. At a core's first point the accumulators, at whatever
    the invariant has them, are reset and end at the block added to zero; at any other point they are found at what the
    point before left and end at the block added to that. The output buffers are handed back as found, except at a core's
    last point, where they end at the accumulators' new contents. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 96 := lt_of_lt_of_eq t.isLt (show cfg0.N = 96 from N_0)
  rw [PhiS_castSucc V c t]
  by_cases h0 : t.val % 48 = 0
  · have h1 : ¬t.val % 48 = 47 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t h1),
      Dat.leavesExact_idle (dat0 V c) 3 t (idleAt0_3 t hc1) (noFlush0_3 t h1)]
    rw [scAt_first V c t h0]
    refine BIBase.Entails.trans (sep_mono_left (PhiS_some V c _ _)) ?_
    iintro ⟨⟨HS0, HS1, Hr⟩, Ho, ⟨%d0, H0⟩, ⟨%d1, H1⟩, ⟨%d2, H2⟩, ⟨%d3, H3⟩⟩
    iapply (run_first c (grid0.coords t) _ _ _ _ _ _ _ _ _ _ _ _ hc0 hc1 (iblk0 V c 0 t) (iblk0 V c 1 t)
      ((dat0 V c).before 2 t d2) ((dat0 V c).before 3 t d3) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    isplitl [H2]; · iexists _; iexact H2
    iexists _; iexact H3
  · have hz : t.val ≠ 0 := fun e => h0 (by rw [e])
    have hc0 : ¬cond0_0 (grid0.coords t) := fun h => h0 ((hcond0_0 t).mp h)
    rw [PhiS_pos V c _ _ hz]
    by_cases h1 : t.val % 48 = 47
    · have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2]
      rw [show (dat0 V c).leavesExact 3 t = owns (c : Thread nD τ) (st0_3 t) fullShare ((dat0 V c).after 3 t) from by
        unfold Dat.leavesExact; rw [liveAt0_3 t hc1], after0_3]
      rw [scAt_next V c t h0]
      iintro ⟨⟨HS0, HS1, Hr⟩, Ho, ⟨%d0, H0⟩, ⟨%d1, H1⟩, ⟨%d2, H2⟩, ⟨%d3, H3⟩⟩
      iapply (run_last c (grid0.coords t) _ _ _ _ _ _ _ _ _ _ _ _ hc0 hc1 (iblk0 V c 0 t) (iblk0 V c 1 t)
        (scAt V c (t.val - 1) (Nat.lt_of_le_of_lt (Nat.sub_le _ _) t.isLt)) Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 2 t (idleAt0_2 t hc1) (noFlush0_2 t h1),
        Dat.leavesExact_idle (dat0 V c) 3 t (idleAt0_3 t hc1) (noFlush0_3 t h1)]
      rw [scAt_next V c t h0]
      iintro ⟨⟨HS0, HS1, Hr⟩, Ho, ⟨%d0, H0⟩, ⟨%d1, H1⟩, ⟨%d2, H2⟩, ⟨%d3, H3⟩⟩
      iapply (run_mid c (grid0.coords t) _ _ _ _ _ _ _ _ _ _ _ _ hc0 hc1 (iblk0 V c 0 t) (iblk0 V c 1 t)
        ((dat0 V c).before 2 t d2) ((dat0 V c).before 3 t d3)
        (scAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the scoped buffers back at contents nobody names. -/
theorem hout0 (c : Dev nD) : (dat0 V c).Φ (Fin.last cfg0.N) ⊢ Pipeline.ΦA spec0 c := by
  have hN : cfg0.N = 96 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨HS0, HS1, Hr⟩
  isplitl [HS0]; · iexists _; iexact HS0
  isplitl [HS1]; · iexists _; iexact HS1
  iexact Hr

end

end Cert.Kernel.Hand

end
-- ==== Proof.KernelHand.R1.lean ====
import proofs.«416137_j84267258347944_3_alg».proof.Proof.Gen.Kernel.Launch
import proofs.«416137_j84267258347944_3_alg».proof.Proof.Gen.Kernel.Skeleton
import proofs.«416137_j84267258347944_3_alg».proof.Proof.Gen.Kernel.Points
import proofs.«416137_j84267258347944_3_alg».proof.Proof.KernelHand.StepDef
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! The apply kernel: every point subtracts, entry by entry, the table's lane named by the entry's label
    from the block of values; the table block is the same at every point. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The offsets of a rectangle that starts at the origin of a rank-2 shape. -/
private theorem origin2 : (![0, 0] : Fin 2 → Nat) = fun _ => 0 := funext fun a => by fin_cases a <;> rfl

/-- The body on whole staging buffers: the output block ends at the values less the gathered table lanes. -/
theorem sound_kernel1 (c : Dev nD) (E : Set ℕ) (i : grid1.Coords)
    (arg1 : Memref sig .tc .vmem S1x128 .f32) (harg1 : arg1.IsWhole) (arg2 : Memref sig .tc .vmem S4096x128 .f32) (harg2 : arg2.IsWhole)
    (arg3 : Memref sig .tc .vmem S4096x128 .i32) (harg3 : arg3.IsWhole) (arg4 : Memref sig .tc .vmem S4096x128 .f32) (harg4 : arg4.IsWhole)
    (d : Vec F S1x128 .f32) (x : Vec F S4096x128 .f32) (l : Vec F S4096x128 .i32) (K : PUnit → sProp 𝕄) :
    iprop(owns (c : Thread nD τ) arg1 fullShare d ∗ owns (c : Thread nD τ) arg2 fullShare x ∗ owns (c : Thread nD τ) arg3 fullShare l
        ∗ (∃ e, owns (c : Thread nD τ) arg4 fullShare e)
        ∗ (iprop(owns (c : Thread nD τ) arg1 fullShare d ∗ owns (c : Thread nD τ) arg2 fullShare x ∗ owns (c : Thread nD τ) arg3 fullShare l
            ∗ owns (c : Thread nD τ) arg4 fullShare (k1_pay1 x l d)) -∗ K ⟨⟩))
      ⊢ wp frame (wpE (defs₀ (F := F)) Variants.none c none) E (cc1__apply_kernel i arg1 harg1 arg2 harg2 arg3 harg3 arg4 harg4) K := by
  simp only [cc1__apply_kernel_eq_skeleton]; unfold cc1__apply_kernel_skel
  unfold owns
  iintro ⟨⟨%fd, %hd, Hd⟩, ⟨%fx, %hx, Hx⟩, ⟨%fl, %hl, Hl⟩, ⟨%e, %fe, -, He⟩, Hk⟩
  subst hd; subst hx; subst hl
  sl_exec
  sl_step
  iapply Hk
  isplitl [Hd]
  · iexists fd; isplitr; · ipureintro; rfl
    iexact Hd
  isplitl [Hx]
  · iexists fx; isplitr; · ipureintro; rfl
    iexact Hx
  isplitl [Hl]
  · iexists fl; isplitr; · ipureintro; rfl
    iexact Hl
  iexists _; isplitr
  swap; · iexact He
  ipureintro
  -- the one store is through the whole buffer's rectangle, so what is read back is its payload, and each
  -- of the three loads through a whole rectangle read its buffer's contents
  rw [View.read_writes_eq_canon _ _ _ (fun y => ⟨_, List.mem_singleton_self _, View.mem_set_unit_zero origin2 inb_S4096x128_S4096x128_0_0 y⟩),
    View.canon_unit_zero origin2]
  simp only [View.readAt_eq_ld, View.ld_unit_zero (S := S4096x128) origin2, View.ld_unit_zero (S := S1x128) origin2]

/-- The proof data of the apply pipeline on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 1 t) (iblk1 V c 2 t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_3 (c : Dev nD) (t : Fin cfg1.N) :
    (dat1 V c).after 3 t = k1_pay1 (iblk1 V c 1 t) (iblk1 V c 2 t) (iblk1 V c 0 t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-! Each input's current buffer holds the window's block at every point. The body never writes an input, so where
    the window is not fetched (the table, after a core's first point) its block index has not moved and the
    buffer still holds the same block. -/

/-- The table's window: fetched at the first point only, the same block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- The values' window, fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

/-- The labels' window, fetched at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`: the invariant, the core's debts, and the four current buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks, the output's holds anything, so the
    kernel's triple applies; the invariant and the debts are not read. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.KernelHand.Run.lean ====
import proofs.«416137_j84267258347944_3_alg».proof.Proof.Gen.Kernel.Regions
import proofs.«416137_j84267258347944_3_alg».proof.Proof.KernelHand.R0Dat
import proofs.«416137_j84267258347944_3_alg».proof.Proof.KernelHand.R1

/-! The whole run of the program: host operations, the reduction region, host operations, the apply region, a
    last reshape. Between two items every unscoped buffer of the core holds a named valuation: the launch
    contents, then each host stretch's operations applied, then each region's arrays at what its write-backs
    leave. Every weakly fair execution terminates with every unscoped buffer at the last valuation; the
    arguments are read back through it to their launch contents. -/

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two reshapes (the reduction region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the reduction region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the sixteen host operations that turn the per-core sums and counts into the table of differences, -/
abbrev W3 : Dev nD → Valuation τ sig (Elt F) := fun c => StableHlo.after hostOps1 (W2 m ρ c)
/-- its padding to 128 lanes, -/
abbrev W4 : Dev nD → Valuation τ sig (Elt F) := fun c => StableHlo.after hostOps1_1 (W3 m ρ c)
/-- and its reshape to one row (the apply region's entry). -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the apply region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the last reshape (the end). -/
abbrev W7 : Dev nD → Valuation τ sig (Elt F) := fun c => StableHlo.after hostOps2 (W6 m ρ c)

/-! ## The arguments end as launched -/

/-- A buffer no host operation writes and no region stages as an output reaches the end as launched. -/
theorem W7_of_untouched (c : Dev nD) (r : Ref sig .tc) (h0 : r ∉ hostOps0_W) (h1 : r ∉ hostOps1_W) (h11 : r ∉ hostOps1_1_W)
    (h12 : r ∉ hostOps1_2_W) (h2 : r ∉ hostOps2_W) (ha0 : ∀ w, Pipeline.arrRef spec0 w ≠ r) (ha1 : ∀ w, Pipeline.arrRef spec1 w ≠ r) :
    W7 m ρ c (Proc.devRef .tc r) = m ((c : Thread nD τ).loc r) :=
  calc W7 m ρ c (Proc.devRef .tc r)
    _ = W6 m ρ c (Proc.devRef .tc r) := StableHlo.after_of_writes_sub hostOps2 _ hostOps2_writes h2
    _ = W5 m ρ c (Proc.devRef .tc r) := W6_of_ne m ρ c r ha1
    _ = W4 m ρ c (Proc.devRef .tc r) := StableHlo.after_of_writes_sub hostOps1_2 _ hostOps1_2_writes h12
    _ = W3 m ρ c (Proc.devRef .tc r) := StableHlo.after_of_writes_sub hostOps1_1 _ hostOps1_1_writes h11
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V5 m ρ) c
abbrev 𝒱₀ : Variants := Variants.none
abbrev L₀ : GSem nD τ sig → Finset Unit := fun _ => ∅
abbrev lv₀ : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The reduction region: entered from every unscoped buffer at `W1`, left at `W2`. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L₀ lv₀ 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm' (F := F) 0).1
        ∗ Pipeline.scopedRest (Ix := Unit) (Name := ℕ) (U := UR sig nD τ) (Lvl := ℕ) spec0 c) ⊢ (Pipeline.ΦA spec0 c : sProp 𝕄) := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The apply region: entered from every unscoped buffer at `W5`, left at `W6`. -/
def reg1 : Pipeline.RegionSeg (pcfgs (F := F)) adm' (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L₀ lv₀ 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L₀ lv₀) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

set_option backward.isDefEq.respectTransparency.types false in
/-- THE RUN: from any memory with zero counters every weakly fair execution of the program terminates, nothing
    faulting, with every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm' (pdats m ρ) () cellOf_inj emb₁ defs₀ 𝒱₀ L₀ lv₀ m ρ main (segs m ρ)
    (fun c Q => by
      rewrite [main_chain c, Seg.run_eq_chain,
        show (segs m ρ).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

/-- The run with the result read: the result array ends at the last valuation's, the arguments as launched. -/
theorem run_result : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v16 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.Kernel.Hand

end
-- ==== Proof.KernelIdealHand.StepDef.lean ====
import proofs.«416137_j84267258347944_3_alg».proof.Proof.Gen.KernelIdeal.Skeleton
import Idealize.ShloMosaic.Lib.Exec

/-! What one grid point of the reduction does to the pair of accumulators (per-label sums, per-label
    counts): the fold of the label loop over the point's block, from the pair the point starts from. -/

noncomputable section

namespace Cert.KernelIdeal.Hand

open Idealize.ShloMosaic Cert.KernelIdeal Cert.KernelIdeal.Gen

variable {F : FTy → Type} [FloatOps F]

/-- The label loop's yield: trip `k` adds, at lane `k + 1`, the block's sum (count) of the entries
    whose label is `k + 1`. -/
def loopG (x : Vec F S2048x128 .f32) (l : Vec F S2048x128 .i32) (k : Fin k0_t1_loop.trips)
    (acc : Vec F S1x64 .f32 × Vec F S1x64 .f32) : Vec F S1x64 .f32 × Vec F S1x64 .f32 :=
  (k0_pay5 x l k acc.1, k0_pay6 l k acc.2)

/-- The accumulator pair after a point whose blocks are `x` (values) and `l` (labels), started from `s`. -/
def step (x : Vec F S2048x128 .f32) (l : Vec F S2048x128 .i32)
    (s : Vec F S1x64 .f32 × Vec F S1x64 .f32) : Vec F S1x64 .f32 × Vec F S1x64 .f32 :=
  (k0_pay7 (Scf.fold (loopG x l) s).1, k0_pay8 (Scf.fold (loopG x l) s).2)

/-- The pair a core's first point resets the accumulators to. -/
def zero2 : Vec F S1x64 .f32 × Vec F S1x64 .f32 := (k0_pay1, k0_pay2)

end Cert.KernelIdeal.Hand

end
-- ==== Proof.KernelIdealHand.R0Body.lean ====
import proofs.«416137_j84267258347944_3_alg».proof.Proof.Gen.KernelIdeal.Launch
import proofs.«416137_j84267258347944_3_alg».proof.Proof.Gen.KernelIdeal.Skeleton
import proofs.«416137_j84267258347944_3_alg».proof.Proof.Gen.KernelIdeal.Points
import proofs.«416137_j84267258347944_3_alg».proof.Proof.KernelIdealHand.StepDef
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Pipeline.Value
import Idealize.ShloMosaic.Lib.Tactic

/-! The reduction kernel's body, run once per control case: a core's first point resets the two
    accumulators before adding its block in, a middle point adds its block in, a core's last point
    also copies the accumulators into the two output blocks. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The first conditional: the point is a core's first. -/
abbrev cond0_0 (i : grid0.Coords) : Prop :=
  (Scalar.cmpi .ne (Scalar.extui (Scalar.cmpi .eq (BitVec.ofNat 32 (i 1).val) 0#32)) 0#32) = 1#1
/-- The second conditional: the point is a core's last. -/
abbrev cond0_1 (i : grid0.Coords) : Prop := k0_cond2 i = 1#1

theorem hcond0_0 : ∀ t : Fin cfg0.N, cond0_0 (grid0.coords t) ↔ t.val % 48 = 0 :=
  (by decide +kernel : ∀ t : Fin grid0.N, cond0_0 (grid0.coords t) ↔ t.val % 48 = 0)
theorem hcond0_1 : ∀ t : Fin cfg0.N, cond0_1 (grid0.coords t) ↔ t.val % 48 = 47 :=
  (by decide +kernel : ∀ t : Fin grid0.N, cond0_1 (grid0.coords t) ↔ t.val % 48 = 47)

/-- The zero offsets of a whole-block load or store, as a constant function. -/
private theorem hz2 : (![0, 0] : Fin S1x64.rank → Nat) = fun _ => 0 := funext fun a => by fin_cases a <;> rfl
private theorem hzB : (![0, 0] : Fin S2048x128.rank → Nat) = fun _ => 0 := funext fun a => by fin_cases a <;> rfl
private theorem hz3 : (![0, 0, 0] : Fin S1x1x64.rank → Nat) = fun _ => 0 := funext fun a => by fin_cases a <;> rfl

/-- What a store through the whole-shape rectangle at zero offsets, made last, leaves: its payload,
    whatever the earlier stores and the prior contents were. -/
private theorem read_last_store {Val : EltTy → Type} [∀ e, Nonempty (Val e)] {sg : RefSig} {κ : Kind} {sp : Space} {S : Shape} {e : EltTy}
    (v : View sg κ sp S e) (f : v.ty.Contents Val) {off : Fin S.rank → Nat} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ (fun y => ⟨(⟨Rect.unit off S.size inb, w⟩ : View.Piece Val S e),
    List.mem_cons.mpr (Or.inl rfl), View.mem_set_unit_zero h inb y⟩), View.canon_cons_unit_zero h]

set_option maxHeartbeats 1000000 in
/-- A middle point, over the two accumulators' contents named apart. -/
theorem run_mid_split (c : Dev nD) (i : grid0.Coords)
    (arg2 : Memref sig .tc .vmem S2048x128 .f32) (harg2 : arg2.IsWhole) (arg3 : Memref sig .tc .vmem S2048x128 .i32) (harg3 : arg3.IsWhole)
    (arg4 : Memref sig .tc .vmem S1x1x64 .f32) (harg4 : arg4.IsWhole) (arg5 : Memref sig .tc .vmem S1x1x64 .f32) (harg5 : arg5.IsWhole)
    (arg6 : Memref sig .tc .vmem S1x64 .f32) (harg6 : arg6.IsWhole) (arg7 : Memref sig .tc .vmem S1x64 .f32) (harg7 : arg7.IsWhole)
    (hc0 : ¬cond0_0 i) (hc1 : ¬cond0_1 i)
    (x : Vec F S2048x128 .f32) (l : Vec F S2048x128 .i32) (y4 y5 : Vec F S1x1x64 .f32) (s1 s2 : Vec F S1x64 .f32)
    (E : Set ℕ) (K : PUnit → sProp 𝕄) :
    iprop(owns (c : Thread nD τ) arg2 fullShare x ∗ owns (c : Thread nD τ) arg3 fullShare l
        ∗ owns (c : Thread nD τ) arg4 fullShare y4 ∗ owns (c : Thread nD τ) arg5 fullShare y5
        ∗ owns (c : Thread nD τ) arg6 fullShare s1 ∗ owns (c : Thread nD τ) arg7 fullShare s2
        ∗ (iprop(owns (c : Thread nD τ) arg2 fullShare x ∗ owns (c : Thread nD τ) arg3 fullShare l
            ∗ owns (c : Thread nD τ) arg4 fullShare y4 ∗ owns (c : Thread nD τ) arg5 fullShare y5
            ∗ owns (c : Thread nD τ) arg6 fullShare (step x l (s1, s2)).1 ∗ owns (c : Thread nD τ) arg7 fullShare (step x l (s1, s2)).2) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr; · ipureintro; exact hf5
    iexact H5
  isplitl [H6]
  · iexists _; isplitr
    pick_goal 2; · iexact H6
    ipureintro
    sl_unfold_run_names
    rw [read_last_store _ _ hz2]
    simp only [View.readAt_eq_ld, harg2.read_unread, harg3.read_unread, harg6.read_unread, harg7.read_unread,
      View.ld_unit_zero (S := S2048x128) hzB, View.ld_unit_zero (S := S1x64) hz2, View.readCov_unit_zero (S := S1x64) _ hz2]
    rfl
  iexists _; isplitr
  pick_goal 2; · iexact H7
  ipureintro
  sl_unfold_run_names
  rw [read_last_store _ _ hz2]
  simp only [View.readAt_eq_ld, harg2.read_unread, harg3.read_unread, harg6.read_unread, harg7.read_unread,
    View.ld_unit_zero (S := S2048x128) hzB, View.ld_unit_zero (S := S1x64) hz2, View.readCov_unit_zero (S := S1x64) _ hz2]
  rfl

set_option maxHeartbeats 1000000 in
/-- A core's last point, over the two accumulators' contents named apart. -/
theorem run_last_split (c : Dev nD) (i : grid0.Coords)
    (arg2 : Memref sig .tc .vmem S2048x128 .f32) (harg2 : arg2.IsWhole) (arg3 : Memref sig .tc .vmem S2048x128 .i32) (harg3 : arg3.IsWhole)
    (arg4 : Memref sig .tc .vmem S1x1x64 .f32) (harg4 : arg4.IsWhole) (arg5 : Memref sig .tc .vmem S1x1x64 .f32) (harg5 : arg5.IsWhole)
    (arg6 : Memref sig .tc .vmem S1x64 .f32) (harg6 : arg6.IsWhole) (arg7 : Memref sig .tc .vmem S1x64 .f32) (harg7 : arg7.IsWhole)
    (hc0 : ¬cond0_0 i) (hc1 : cond0_1 i)
    (x : Vec F S2048x128 .f32) (l : Vec F S2048x128 .i32) (s1 s2 : Vec F S1x64 .f32)
    (E : Set ℕ) (K : PUnit → sProp 𝕄) :
    iprop(owns (c : Thread nD τ) arg2 fullShare x ∗ owns (c : Thread nD τ) arg3 fullShare l
        ∗ (∃ d, owns (c : Thread nD τ) arg4 fullShare d) ∗ (∃ d, owns (c : Thread nD τ) arg5 fullShare d)
        ∗ owns (c : Thread nD τ) arg6 fullShare s1 ∗ owns (c : Thread nD τ) arg7 fullShare s2
        ∗ (iprop(owns (c : Thread nD τ) arg2 fullShare x ∗ owns (c : Thread nD τ) arg3 fullShare l
            ∗ owns (c : Thread nD τ) arg4 fullShare (k0_pay9 (step x l (s1, s2)).1) ∗ owns (c : Thread nD τ) arg5 fullShare (k0_pay10 (step x l (s1, s2)).2)
            ∗ owns (c : Thread nD τ) arg6 fullShare (step x l (s1, s2)).1 ∗ owns (c : Thread nD τ) arg7 fullShare (step x l (s1, s2)).2) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg2.eq_unread hf2; obtain rfl := harg3.eq_unread hf3
  obtain rfl := harg6.eq_unread hf6; obtain rfl := harg7.eq_unread hf7
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr
    pick_goal 2; · iexact H4
    ipureintro
    sl_unfold_run_names
    rw [read_last_store _ _ hz3]
    simp only [View.readAt_eq_ld, harg2.read_unread, harg3.read_unread, harg6.read_unread, harg7.read_unread,
      View.ld_unit_zero (S := S2048x128) hzB, View.ld_unit_zero (S := S1x64) hz2, View.readCov_unit_zero (S := S1x64) _ hz2]
    rfl
  isplitl [H5]
  · iexists _; isplitr
    pick_goal 2; · iexact H5
    ipureintro
    sl_unfold_run_names
    rw [read_last_store _ _ hz3]
    simp only [View.readAt_eq_ld, harg2.read_unread, harg3.read_unread, harg6.read_unread, harg7.read_unread,
      View.ld_unit_zero (S := S2048x128) hzB, View.ld_unit_zero (S := S1x64) hz2, View.readCov_unit_zero (S := S1x64) _ hz2]
    rfl
  isplitl [H6]
  · iexists _; isplitr
    pick_goal 2; · iexact H6
    ipureintro
    sl_unfold_run_names
    rw [read_last_store _ _ hz2]
    simp only [View.readAt_eq_ld, harg2.read_unread, harg3.read_unread, harg6.read_unread, harg7.read_unread,
      View.ld_unit_zero (S := S2048x128) hzB, View.ld_unit_zero (S := S1x64) hz2, View.readCov_unit_zero (S := S1x64) _ hz2]
    rfl
  iexists _; isplitr
  pick_goal 2; · iexact H7
  ipureintro
  sl_unfold_run_names
  rw [read_last_store _ _ hz2]
  simp only [View.readAt_eq_ld, harg2.read_unread, harg3.read_unread, harg6.read_unread, harg7.read_unread,
    View.ld_unit_zero (S := S2048x128) hzB, View.ld_unit_zero (S := S1x64) hz2, View.readCov_unit_zero (S := S1x64) _ hz2]
  rfl

set_option maxHeartbeats 1000000 in
/-- A core's first point: the accumulators, whatever they held, end at the block added to zero; the
    output blocks are handed back as found. -/
theorem run_first (c : Dev nD) (i : grid0.Coords)
    (arg2 : Memref sig .tc .vmem S2048x128 .f32) (harg2 : arg2.IsWhole) (arg3 : Memref sig .tc .vmem S2048x128 .i32) (harg3 : arg3.IsWhole)
    (arg4 : Memref sig .tc .vmem S1x1x64 .f32) (harg4 : arg4.IsWhole) (arg5 : Memref sig .tc .vmem S1x1x64 .f32) (harg5 : arg5.IsWhole)
    (arg6 : Memref sig .tc .vmem S1x64 .f32) (harg6 : arg6.IsWhole) (arg7 : Memref sig .tc .vmem S1x64 .f32) (harg7 : arg7.IsWhole)
    (hc0 : cond0_0 i) (hc1 : ¬cond0_1 i)
    (x : Vec F S2048x128 .f32) (l : Vec F S2048x128 .i32) (y4 y5 : Vec F S1x1x64 .f32) (E : Set ℕ) (K : PUnit → sProp 𝕄) :
    iprop(owns (c : Thread nD τ) arg2 fullShare x ∗ owns (c : Thread nD τ) arg3 fullShare l
        ∗ owns (c : Thread nD τ) arg4 fullShare y4 ∗ owns (c : Thread nD τ) arg5 fullShare y5
        ∗ (∃ d, owns (c : Thread nD τ) arg6 fullShare d) ∗ (∃ d, owns (c : Thread nD τ) arg7 fullShare d)
        ∗ (iprop(owns (c : Thread nD τ) arg2 fullShare x ∗ owns (c : Thread nD τ) arg3 fullShare l
            ∗ owns (c : Thread nD τ) arg4 fullShare y4 ∗ owns (c : Thread nD τ) arg5 fullShare y5
            ∗ owns (c : Thread nD τ) arg6 fullShare (step x l zero2).1 ∗ owns (c : Thread nD τ) arg7 fullShare (step x l zero2).2) -∗ K ⟨⟩))
      ⊢ wp frame (wpE (defs₀ (F := F)) Variants.none c none) E (cc0__reduce_kernel i arg2 harg2 arg3 harg3 arg4 harg4 arg5 harg5 arg6 harg6 arg7 harg7) K := by
  simp only [cc0__reduce_kernel_eq_skeleton]; unfold cc0__reduce_kernel_skel
  unfold owns
  iintro ⟨⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf2; obtain rfl := harg3.eq_unread hf3
  sl_exec (disch := first | exact hc0 | exact hc1)
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact hf4
    iexact H4
  isplitl [H5]
  · iexists _; isplitr; · ipureintro; exact hf5
    iexact H5
  isplitl [H6]
  · iexists _; isplitr
    pick_goal 2; · iexact H6
    ipureintro
    sl_unfold_run_names
    rw [read_last_store _ _ hz2]
    simp only [View.readAt_eq_ld, harg2.read_unread, harg3.read_unread,
      View.ld_unit_zero (S := S2048x128) hzB, View.ld_unit_zero (S := S1x64) hz2, View.readCov_unit_zero (S := S1x64) _ hz2]
    rfl
  iexists _; isplitr
  pick_goal 2; · iexact H7
  ipureintro
  sl_unfold_run_names
  rw [read_last_store _ _ hz2]
  simp only [View.readAt_eq_ld, harg2.read_unread, harg3.read_unread,
    View.ld_unit_zero (S := S2048x128) hzB, View.ld_unit_zero (S := S1x64) hz2, View.readCov_unit_zero (S := S1x64) _ hz2]
  rfl

/-- A middle point: the accumulators end at the block added to what they held. -/
theorem run_mid (c : Dev nD) (i : grid0.Coords)
    (arg2 : Memref sig .tc .vmem S2048x128 .f32) (harg2 : arg2.IsWhole) (arg3 : Memref sig .tc .vmem S2048x128 .i32) (harg3 : arg3.IsWhole)
    (arg4 : Memref sig .tc .vmem S1x1x64 .f32) (harg4 : arg4.IsWhole) (arg5 : Memref sig .tc .vmem S1x1x64 .f32) (harg5 : arg5.IsWhole)
    (arg6 : Memref sig .tc .vmem S1x64 .f32) (harg6 : arg6.IsWhole) (arg7 : Memref sig .tc .vmem S1x64 .f32) (harg7 : arg7.IsWhole)
    (hc0 : ¬cond0_0 i) (hc1 : ¬cond0_1 i)
    (x : Vec F S2048x128 .f32) (l : Vec F S2048x128 .i32) (y4 y5 : Vec F S1x1x64 .f32) (s : Vec F S1x64 .f32 × Vec F S1x64 .f32)
    (E : Set ℕ) (K : PUnit → sProp 𝕄) :
    iprop(owns (c : Thread nD τ) arg2 fullShare x ∗ owns (c : Thread nD τ) arg3 fullShare l
        ∗ owns (c : Thread nD τ) arg4 fullShare y4 ∗ owns (c : Thread nD τ) arg5 fullShare y5
        ∗ owns (c : Thread nD τ) arg6 fullShare s.1 ∗ owns (c : Thread nD τ) arg7 fullShare s.2
        ∗ (iprop(owns (c : Thread nD τ) arg2 fullShare x ∗ owns (c : Thread nD τ) arg3 fullShare l
            ∗ owns (c : Thread nD τ) arg4 fullShare y4 ∗ owns (c : Thread nD τ) arg5 fullShare y5
            ∗ owns (c : Thread nD τ) arg6 fullShare (step x l s).1 ∗ owns (c : Thread nD τ) arg7 fullShare (step x l s).2) -∗ K ⟨⟩))
      ⊢ wp frame (wpE (defs₀ (F := F)) Variants.none c none) E (cc0__reduce_kernel i arg2 harg2 arg3 harg3 arg4 harg4 arg5 harg5 arg6 harg6 arg7 harg7) K := by
  obtain ⟨s1, s2⟩ := s
  exact run_mid_split c i arg2 harg2 arg3 harg3 arg4 harg4 arg5 harg5 arg6 harg6 arg7 harg7 hc0 hc1 x l y4 y5 s1 s2 E K

/-- A core's last point: as a middle point, and the output blocks end at the accumulators' new contents. -/
theorem run_last (c : Dev nD) (i : grid0.Coords)
    (arg2 : Memref sig .tc .vmem S2048x128 .f32) (harg2 : arg2.IsWhole) (arg3 : Memref sig .tc .vmem S2048x128 .i32) (harg3 : arg3.IsWhole)
    (arg4 : Memref sig .tc .vmem S1x1x64 .f32) (harg4 : arg4.IsWhole) (arg5 : Memref sig .tc .vmem S1x1x64 .f32) (harg5 : arg5.IsWhole)
    (arg6 : Memref sig .tc .vmem S1x64 .f32) (harg6 : arg6.IsWhole) (arg7 : Memref sig .tc .vmem S1x64 .f32) (harg7 : arg7.IsWhole)
    (hc0 : ¬cond0_0 i) (hc1 : cond0_1 i)
    (x : Vec F S2048x128 .f32) (l : Vec F S2048x128 .i32) (s : Vec F S1x64 .f32 × Vec F S1x64 .f32)
    (E : Set ℕ) (K : PUnit → sProp 𝕄) :
    iprop(owns (c : Thread nD τ) arg2 fullShare x ∗ owns (c : Thread nD τ) arg3 fullShare l
        ∗ (∃ d, owns (c : Thread nD τ) arg4 fullShare d) ∗ (∃ d, owns (c : Thread nD τ) arg5 fullShare d)
        ∗ owns (c : Thread nD τ) arg6 fullShare s.1 ∗ owns (c : Thread nD τ) arg7 fullShare s.2
        ∗ (iprop(owns (c : Thread nD τ) arg2 fullShare x ∗ owns (c : Thread nD τ) arg3 fullShare l
            ∗ owns (c : Thread nD τ) arg4 fullShare (k0_pay9 (step x l s).1) ∗ owns (c : Thread nD τ) arg5 fullShare (k0_pay10 (step x l s).2)
            ∗ owns (c : Thread nD τ) arg6 fullShare (step x l s).1 ∗ owns (c : Thread nD τ) arg7 fullShare (step x l s).2) -∗ K ⟨⟩))
      ⊢ wp frame (wpE (defs₀ (F := F)) Variants.none c none) E (cc0__reduce_kernel i arg2 harg2 arg3 harg3 arg4 harg4 arg5 harg5 arg6 harg6 arg7 harg7) K := by
  obtain ⟨s1, s2⟩ := s
  exact run_last_split c i arg2 harg2 arg3 harg3 arg4 harg4 arg5 harg5 arg6 harg6 arg7 harg7 hc0 hc1 x l s1 s2 E K

end Cert.KernelIdeal.Hand

end
-- ==== Proof.KernelIdealHand.R0Dat.lean ====
import proofs.«416137_j84267258347944_3_alg».proof.Proof.Gen.KernelIdeal.Launch
import proofs.«416137_j84267258347944_3_alg».proof.Proof.Gen.KernelIdeal.Skeleton
import proofs.«416137_j84267258347944_3_alg».proof.Proof.Gen.KernelIdeal.Points
import proofs.«416137_j84267258347944_3_alg».proof.Proof.KernelIdealHand.StepDef
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«416137_j84267258347944_3_alg».proof.Proof.KernelIdealHand.R0Body

/-! The reduction pipeline's proof data: what the two accumulators hold after each grid point (a core's
    first point starts them from zero, every other point from what the point before left), what the two
    output blocks hold after a core's last point, and the body obligation at every point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The accumulator pair after the point at position `n`. -/
def scAt (c : Dev nD) : (n : ℕ) → n < cfg0.N → Vec F S1x64 .f32 × Vec F S1x64 .f32
  | 0, hn => step (iblk0 V c 0 ⟨0, hn⟩) (iblk0 V c 1 ⟨0, hn⟩) zero2
  | n + 1, hn =>
    if (n + 1) % 48 = 0 then step (iblk0 V c 0 ⟨n + 1, hn⟩) (iblk0 V c 1 ⟨n + 1, hn⟩) zero2
    else step (iblk0 V c 0 ⟨n + 1, hn⟩) (iblk0 V c 1 ⟨n + 1, hn⟩) (scAt c n (Nat.lt_of_succ_lt hn))

/-- At a core's first point the pair starts from zero. -/
theorem scAt_first (c : Dev nD) (t : Fin cfg0.N) (h : t.val % 48 = 0) :
    scAt V c t.val t.isLt = step (iblk0 V c 0 t) (iblk0 V c 1 t) zero2 := by
  obtain ⟨n, hn⟩ := t
  cases n with
  | zero => rfl
  | succ n => exact if_pos h
/-- At every other point it starts from what the point before left. -/
theorem scAt_next (c : Dev nD) (t : Fin cfg0.N) (h : ¬t.val % 48 = 0) :
    scAt V c t.val t.isLt = step (iblk0 V c 0 t) (iblk0 V c 1 t) (scAt V c (t.val - 1) (Nat.lt_of_le_of_lt (Nat.sub_le _ _) t.isLt)) := by
  obtain ⟨n, hn⟩ := t
  cases n with
  | zero => exact absurd (Nat.zero_mod _) h
  | succ n => exact if_neg h

/-- Ten factors, the last outside the bracket of the first nine: the same as all ten in one row. -/
private theorem sep_reassoc (A B C1 C2 C3 C4 C5 C6 C7 G : sProp 𝕄) :
    iprop((A ∗ B ∗ C1 ∗ C2 ∗ C3 ∗ C4 ∗ C5 ∗ C6 ∗ C7) ∗ G) = iprop(A ∗ B ∗ C1 ∗ C2 ∗ C3 ∗ C4 ∗ C5 ∗ C6 ∗ C7 ∗ G) := by
  have h₁ : iprop((A ∗ B ∗ C1 ∗ C2 ∗ C3 ∗ C4 ∗ C5 ∗ C6 ∗ C7) ∗ G) ⊢ iprop(A ∗ B ∗ C1 ∗ C2 ∗ C3 ∗ C4 ∗ C5 ∗ C6 ∗ C7 ∗ G) := by
    iintro ⟨⟨H0, H1, H2, H3, H4, H5, H6, H7, H8⟩, Hg⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact Hg
  have h₂ : iprop(A ∗ B ∗ C1 ∗ C2 ∗ C3 ∗ C4 ∗ C5 ∗ C6 ∗ C7 ∗ G) ⊢ iprop((A ∗ B ∗ C1 ∗ C2 ∗ C3 ∗ C4 ∗ C5 ∗ C6 ∗ C7) ∗ G) := by
    iintro ⟨H0, H1, H2, H3, H4, H5, H6, H7, H8, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    iexact Hg
  exact equiv_iff.mp ⟨h₁, h₂⟩

/-- The rest of the region's invariant: the scoped buffers that are neither staged by this pipeline nor one of the
    two accumulators (the second pipeline's staging buffers), each whole at some contents, and the generator register
    at some state. -/
def restS (c : Dev nD) : sProp 𝕄 :=
  iprop((∃ f : Buf (Elt F) ((c : Thread nD τ).loc cc1_stg0_0), ((c : Thread nD τ).loc cc1_stg0_0) ↦{fullShare} f)
      ∗ (∃ f : Buf (Elt F) ((c : Thread nD τ).loc cc1_stg1_0), ((c : Thread nD τ).loc cc1_stg1_0) ↦{fullShare} f)
      ∗ (∃ f : Buf (Elt F) ((c : Thread nD τ).loc cc1_stg1_1), ((c : Thread nD τ).loc cc1_stg1_1) ↦{fullShare} f)
      ∗ (∃ f : Buf (Elt F) ((c : Thread nD τ).loc cc1_stg2_0), ((c : Thread nD τ).loc cc1_stg2_0) ↦{fullShare} f)
      ∗ (∃ f : Buf (Elt F) ((c : Thread nD τ).loc cc1_stg2_1), ((c : Thread nD τ).loc cc1_stg2_1) ↦{fullShare} f)
      ∗ (∃ f : Buf (Elt F) ((c : Thread nD τ).loc cc1_stg3_0), ((c : Thread nD τ).loc cc1_stg3_0) ↦{fullShare} f)
      ∗ (∃ f : Buf (Elt F) ((c : Thread nD τ).loc cc1_stg3_1), ((c : Thread nD τ).loc cc1_stg3_1) ↦{fullShare} f)
      ∗ (∃ r, prngReg c r))

/-- The region's invariant as the launch hands it over: the two accumulators at some contents, and the rest. -/
theorem PhiA0_eq (c : Dev nD) :
    (Pipeline.ΦA spec0 c : sProp 𝕄)
      = iprop((∃ d, owns (c : Thread nD τ) (Memref.whole cc0_scratch0 : Memref sig .tc .vmem S1x64 .f32) fullShare d)
          ∗ (∃ d, owns (c : Thread nD τ) (Memref.whole cc0_scratch1 : Memref sig .tc .vmem S1x64 .f32) fullShare d)
          ∗ restS (F := F) c) := by
  unfold Pipeline.ΦA restS; rw [scopedRest0_eq]; simp only [owns_whole]
  exact sep_reassoc _ _ _ _ _ _ _ _ _ _

/-- The region invariant before position `n`: before the first point every scoped buffer the pipeline does not stage at
    anything; afterwards the two accumulators at what the point before left. -/
def PhiS (c : Dev nD) : (n : ℕ) → n ≤ cfg0.N → sProp 𝕄
  | 0, _ => Pipeline.ΦA spec0 c
  | n + 1, hn => iprop(owns (c : Thread nD τ) (Memref.whole cc0_scratch0 : Memref sig .tc .vmem S1x64 .f32) fullShare (scAt V c n hn).1
      ∗ owns (c : Thread nD τ) (Memref.whole cc0_scratch1 : Memref sig .tc .vmem S1x64 .f32) fullShare (scAt V c n hn).2
      ∗ restS (F := F) c)

theorem PhiS_zero (c : Dev nD) (n : ℕ) (h : n ≤ cfg0.N) (hz : n = 0) : PhiS V c n h = Pipeline.ΦA spec0 c := by
  subst hz; rfl

/-- After the point at position `n`: the accumulators at that point's pair. -/
theorem PhiS_succ (c : Dev nD) (n : ℕ) (hn : n < cfg0.N) :
    PhiS V c (n + 1) hn = iprop(owns (c : Thread nD τ) (Memref.whole cc0_scratch0 : Memref sig .tc .vmem S1x64 .f32) fullShare (scAt V c n hn).1
      ∗ owns (c : Thread nD τ) (Memref.whole cc0_scratch1 : Memref sig .tc .vmem S1x64 .f32) fullShare (scAt V c n hn).2
      ∗ restS (F := F) c) := rfl

/-- Before a point that is not the first: the accumulators at what the point before left. -/
theorem PhiS_pos (c : Dev nD) (n : ℕ) (h : n ≤ cfg0.N) (hz : n ≠ 0) :
    PhiS V c n h = iprop(owns (c : Thread nD τ) (Memref.whole cc0_scratch0 : Memref sig .tc .vmem S1x64 .f32) fullShare (scAt V c (n - 1) (by omega)).1
      ∗ owns (c : Thread nD τ) (Memref.whole cc0_scratch1 : Memref sig .tc .vmem S1x64 .f32) fullShare (scAt V c (n - 1) (by omega)).2
      ∗ restS (F := F) c) := by
  cases n with
  | zero => exact absurd rfl hz
  | succ n => rfl

/-- The proof data of the reduction pipeline on core `c`, at the entry contents `V`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay9 (scAt V c t.val t.isLt).1
    | ⟨3, _⟩ => k0_pay10 (scAt V c t.val t.isLt).2
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem after0_2 (c : Dev nD) (t : Fin cfg0.N) : (dat0 V c).after 2 t = k0_pay9 (scAt V c t.val t.isLt).1 := by dsimp only [dat0]
theorem after0_3 (c : Dev nD) (t : Fin cfg0.N) : (dat0 V c).after 3 t = k0_pay10 (scAt V c t.val t.isLt).2 := by dsimp only [dat0]

/-- Whatever the invariant says of the accumulators before a point, each is whole at some contents. -/
theorem PhiS_some (c : Dev nD) (n : ℕ) (h : n ≤ cfg0.N) :
    PhiS V c n h ⊢ iprop((∃ d, owns (c : Thread nD τ) (Memref.whole cc0_scratch0 : Memref sig .tc .vmem S1x64 .f32) fullShare d)
      ∗ (∃ d, owns (c : Thread nD τ) (Memref.whole cc0_scratch1 : Memref sig .tc .vmem S1x64 .f32) fullShare d)
      ∗ restS (F := F) c) := by
  cases n with
  | zero => rw [PhiS_zero V c 0 h rfl, PhiA0_eq]
  | succ n =>
    rw [PhiS_succ]
    iintro ⟨HS0, HS1, Hr⟩
    isplitl [HS0]; · iexists _; iexact HS0
    isplitl [HS1]; · iexists _; iexact HS1
    iexact Hr

/-- The invariant at a point's start, restated at the point's position. -/
theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]

/-- Each input's current staging buffer holds its block at every point, fetched there or not: unfetched, the block
    index has not moved. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl)
    (fun t => by rw [after0_1]; unfold Dat.blockOf iblk0; rw [A_eq0]; try rfl) t d).trans
    (by unfold Dat.fetched Dat.blockOf iblk0; rw [A_eq0]; try rfl)

/-! Where the windows are idle: the inputs never; the two outputs wherever the point is not a core's last, and there
    the pipeline does not write them back. -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem idleAt0_3 : ∀ t : Fin cfg0.N, ¬cond0_1 (grid0.coords t) → cfg0.idle 3 (grid0.coords t) = true := by decide +kernel
theorem liveAt0_2 : ∀ t : Fin cfg0.N, cond0_1 (grid0.coords t) → cfg0.idle 2 (grid0.coords t) = false := by decide +kernel
theorem liveAt0_3 : ∀ t : Fin cfg0.N, cond0_1 (grid0.coords t) → cfg0.idle 3 (grid0.coords t) = false := by decide +kernel
theorem noFlush0_2 (t : Fin cfg0.N) (h : ¬t.val % 48 = 47) : (cfg0.win 2).flush t = false := by
  cases hf : (cfg0.win 2).flush t with
  | false => rfl
  | true => exact absurd ((flush0_2 t).mp hf) h
theorem noFlush0_3 (t : Fin cfg0.N) (h : ¬t.val % 48 = 47) : (cfg0.win 3).flush t = false := by
  cases hf : (cfg0.win 3).flush t with
  | false => rfl
  | true => exact absurd ((flush0_3 t).mp hf) h

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. The inputs' buffers hold their blocks. At a core's first point the accumulators, at whatever
    the invariant has them, are reset and end at the block added to zero; at any other point they are found at what the
    point before left and end at the block added to that. The output buffers are handed back as found, except at a core's
    last point, where they end at the accumulators' new contents. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  rw [show (dat0 V c).leavesExact 0 t = owns (c : Thread nD τ) (st0_0 t) fullShare ((dat0 V c).after 0 t) from by
    unfold Dat.leavesExact; rw [liveAt0_0 t], after0_0]
  rw [show (dat0 V c).leavesExact 1 t = owns (c : Thread nD τ) (st0_1 t) fullShare ((dat0 V c).after 1 t) from by
    unfold Dat.leavesExact; rw [liveAt0_1 t], after0_1]
  have hN : t.val < 96 := lt_of_lt_of_eq t.isLt (show cfg0.N = 96 from N_0)
  rw [PhiS_castSucc V c t]
  by_cases h0 : t.val % 48 = 0
  · have h1 : ¬t.val % 48 = 47 := by omega
    have hc0 : cond0_0 (grid0.coords t) := (hcond0_0 t).mpr h0
    have hc1 : ¬cond0_1 (grid0.coords t) := fun h => h1 ((hcond0_1 t).mp h)
    rw [Dat.leavesExact_idle (dat0 V c) 2 t (idleAt0_2 t hc1) (noFlush0_2 t h1),
      Dat.leavesExact_idle (dat0 V c) 3 t (idleAt0_3 t hc1) (noFlush0_3 t h1)]
    rw [scAt_first V c t h0]
    refine BIBase.Entails.trans (sep_mono_left (PhiS_some V c _ _)) ?_
    iintro ⟨⟨HS0, HS1, Hr⟩, Ho, ⟨%d0, H0⟩, ⟨%d1, H1⟩, ⟨%d2, H2⟩, ⟨%d3, H3⟩⟩
    iapply (run_first c (grid0.coords t) _ _ _ _ _ _ _ _ _ _ _ _ hc0 hc1 (iblk0 V c 0 t) (iblk0 V c 1 t)
      ((dat0 V c).before 2 t d2) ((dat0 V c).before 3 t d3) Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, HS0, HS1⟩
    isplitl [HS0 HS1 Hr]
    · isplitl [HS0]; · iexact HS0
      isplitl [HS1]; · iexact HS1
      iexact Hr
    isplitl [Ho]; · iexact Ho
    isplitl [H0]; · iexact H0
    isplitl [H1]; · iexact H1
    isplitl [H2]; · iexists _; iexact H2
    iexists _; iexact H3
  · have hz : t.val ≠ 0 := fun e => h0 (by rw [e])
    have hc0 : ¬cond0_0 (grid0.coords t) := fun h => h0 ((hcond0_0 t).mp h)
    rw [PhiS_pos V c _ _ hz]
    by_cases h1 : t.val % 48 = 47
    · have hc1 : cond0_1 (grid0.coords t) := (hcond0_1 t).mpr h1
      rw [show (dat0 V c).leavesExact 2 t = owns (c : Thread nD τ) (st0_2 t) fullShare ((dat0 V c).after 2 t) from by
        unfold Dat.leavesExact; rw [liveAt0_2 t hc1], after0_2]
      rw [show (dat0 V c).leavesExact 3 t = owns (c : Thread nD τ) (st0_3 t) fullShare ((dat0 V c).after 3 t) from by
        unfold Dat.leavesExact; rw [liveAt0_3 t hc1], after0_3]
      rw [scAt_next V c t h0]
      iintro ⟨⟨HS0, HS1, Hr⟩, Ho, ⟨%d0, H0⟩, ⟨%d1, H1⟩, ⟨%d2, H2⟩, ⟨%d3, H3⟩⟩
      iapply (run_last c (grid0.coords t) _ _ _ _ _ _ _ _ _ _ _ _ hc0 hc1 (iblk0 V c 0 t) (iblk0 V c 1 t)
        (scAt V c (t.val - 1) (Nat.lt_of_le_of_lt (Nat.sub_le _ _) t.isLt)) Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, H2, H3, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexact H2
      iexact H3
    · have hc1 : ¬cond0_1 (grid0.coords t) := fun h => h1 ((hcond0_1 t).mp h)
      rw [Dat.leavesExact_idle (dat0 V c) 2 t (idleAt0_2 t hc1) (noFlush0_2 t h1),
        Dat.leavesExact_idle (dat0 V c) 3 t (idleAt0_3 t hc1) (noFlush0_3 t h1)]
      rw [scAt_next V c t h0]
      iintro ⟨⟨HS0, HS1, Hr⟩, Ho, ⟨%d0, H0⟩, ⟨%d1, H1⟩, ⟨%d2, H2⟩, ⟨%d3, H3⟩⟩
      iapply (run_mid c (grid0.coords t) _ _ _ _ _ _ _ _ _ _ _ _ hc0 hc1 (iblk0 V c 0 t) (iblk0 V c 1 t)
        ((dat0 V c).before 2 t d2) ((dat0 V c).before 3 t d3)
        (scAt V c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, HS0, HS1⟩
      isplitl [HS0 HS1 Hr]
      · isplitl [HS0]; · iexact HS0
        isplitl [HS1]; · iexact HS1
        iexact Hr
      isplitl [Ho]; · iexact Ho
      isplitl [H0]; · iexact H0
      isplitl [H1]; · iexact H1
      isplitl [H2]; · iexists _; iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]

/-- After the last point the invariant gives the scoped buffers back at contents nobody names. -/
theorem hout0 (c : Dev nD) : (dat0 V c).Φ (Fin.last cfg0.N) ⊢ Pipeline.ΦA spec0 c := by
  have hN : cfg0.N = 96 := N_0
  rw [show (dat0 V c).Φ (Fin.last cfg0.N) = PhiS V c (Fin.last cfg0.N).val (Nat.le_of_lt_succ (Fin.last cfg0.N).isLt) from rfl,
    PhiS_pos V c _ _ (by rw [Fin.val_last]; omega), PhiA0_eq]
  iintro ⟨HS0, HS1, Hr⟩
  isplitl [HS0]; · iexists _; iexact HS0
  isplitl [HS1]; · iexists _; iexact HS1
  iexact Hr

end

end Cert.KernelIdeal.Hand

end
-- ==== Proof.KernelIdealHand.R1.lean ====
import proofs.«416137_j84267258347944_3_alg».proof.Proof.Gen.KernelIdeal.Launch
import proofs.«416137_j84267258347944_3_alg».proof.Proof.Gen.KernelIdeal.Skeleton
import proofs.«416137_j84267258347944_3_alg».proof.Proof.Gen.KernelIdeal.Points
import proofs.«416137_j84267258347944_3_alg».proof.Proof.KernelIdealHand.StepDef
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! The apply kernel: every point subtracts, entry by entry, the table's lane named by the entry's label
    from the block of values; the table block is the same at every point. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The offsets of a rectangle that starts at the origin of a rank-2 shape. -/
private theorem origin2 : (![0, 0] : Fin 2 → Nat) = fun _ => 0 := funext fun a => by fin_cases a <;> rfl

/-- The body on whole staging buffers: the output block ends at the values less the gathered table lanes. -/
theorem sound_kernel1 (c : Dev nD) (E : Set ℕ) (i : grid1.Coords)
    (arg1 : Memref sig .tc .vmem S1x128 .f32) (harg1 : arg1.IsWhole) (arg2 : Memref sig .tc .vmem S4096x128 .f32) (harg2 : arg2.IsWhole)
    (arg3 : Memref sig .tc .vmem S4096x128 .i32) (harg3 : arg3.IsWhole) (arg4 : Memref sig .tc .vmem S4096x128 .f32) (harg4 : arg4.IsWhole)
    (d : Vec F S1x128 .f32) (x : Vec F S4096x128 .f32) (l : Vec F S4096x128 .i32) (K : PUnit → sProp 𝕄) :
    iprop(owns (c : Thread nD τ) arg1 fullShare d ∗ owns (c : Thread nD τ) arg2 fullShare x ∗ owns (c : Thread nD τ) arg3 fullShare l
        ∗ (∃ e, owns (c : Thread nD τ) arg4 fullShare e)
        ∗ (iprop(owns (c : Thread nD τ) arg1 fullShare d ∗ owns (c : Thread nD τ) arg2 fullShare x ∗ owns (c : Thread nD τ) arg3 fullShare l
            ∗ owns (c : Thread nD τ) arg4 fullShare (k1_pay1 x l d)) -∗ K ⟨⟩))
      ⊢ wp frame (wpE (defs₀ (F := F)) Variants.none c none) E (cc1__apply_kernel i arg1 harg1 arg2 harg2 arg3 harg3 arg4 harg4) K := by
  simp only [cc1__apply_kernel_eq_skeleton]; unfold cc1__apply_kernel_skel
  unfold owns
  iintro ⟨⟨%fd, %hd, Hd⟩, ⟨%fx, %hx, Hx⟩, ⟨%fl, %hl, Hl⟩, ⟨%e, %fe, -, He⟩, Hk⟩
  subst hd; subst hx; subst hl
  sl_exec
  sl_step
  iapply Hk
  isplitl [Hd]
  · iexists fd; isplitr; · ipureintro; rfl
    iexact Hd
  isplitl [Hx]
  · iexists fx; isplitr; · ipureintro; rfl
    iexact Hx
  isplitl [Hl]
  · iexists fl; isplitr; · ipureintro; rfl
    iexact Hl
  iexists _; isplitr
  swap; · iexact He
  ipureintro
  -- the one store is through the whole buffer's rectangle, so what is read back is its payload, and each
  -- of the three loads through a whole rectangle read its buffer's contents
  rw [View.read_writes_eq_canon _ _ _ (fun y => ⟨_, List.mem_singleton_self _, View.mem_set_unit_zero origin2 inb_S4096x128_S4096x128_0_0 y⟩),
    View.canon_unit_zero origin2]
  simp only [View.readAt_eq_ld, View.ld_unit_zero (S := S4096x128) origin2, View.ld_unit_zero (S := S1x128) origin2]

/-- The proof data of the apply pipeline on core `c`, at the entry contents `V`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay1 (iblk1 V c 1 t) (iblk1 V c 2 t) (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_3 (c : Dev nD) (t : Fin cfg1.N) :
    (dat1 V c).after 3 t = k1_pay1 (iblk1 V c 1 t) (iblk1 V c 2 t) (iblk1 V c 0 t) := by dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]

/-! Each input's current buffer holds the window's block at every point. The body never writes an input, so where
    the window is not fetched (the table, after a core's first point) its block index has not moved and the
    buffer still holds the same block. -/

/-- The table's window: fetched at the first point only, the same block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hkeep : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hkeep t d]
  unfold Dat.fetched Dat.blockOf iblk1; rw [hA]; try rfl

/-- The values' window, fetched at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hkeep : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hkeep t d]
  unfold Dat.fetched Dat.blockOf iblk1; rw [hA]; try rfl

/-- The labels' window, fetched at every point. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hkeep : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hkeep t d]
  unfold Dat.fetched Dat.blockOf iblk1; rw [hA]; try rfl

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-- What the body is called with at point `t`: the invariant, the core's debts, and the four current buffers. -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- What it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the three inputs' buffers hold their blocks, the output's holds anything, so the
    kernel's triple applies; the invariant and the debts are not read. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ _ _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KernelIdealHand.Run.lean ====
import proofs.«416137_j84267258347944_3_alg».proof.Proof.Gen.KernelIdeal.Regions
import proofs.«416137_j84267258347944_3_alg».proof.Proof.KernelIdealHand.R0Dat
import proofs.«416137_j84267258347944_3_alg».proof.Proof.KernelIdealHand.R1

/-! The whole run of the program: host operations, the reduction region, host operations, the apply region, a
    last reshape. Between two items every unscoped buffer of the core holds a named valuation: the launch
    contents, then each host stretch's operations applied, then each region's arrays at what its write-backs
    leave. Every weakly fair execution terminates with every unscoped buffer at the last valuation; the
    arguments are read back through it to their launch contents. -/

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => (s₀ m ρ).mem ((c : Dev nD), b)
/-- After the two reshapes (the reduction region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the reduction region's exit: its arrays at what the pipeline leaves, every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)
/-- After the sixteen host operations that turn the per-core sums and counts into the table of differences, -/
abbrev W3 : Dev nD → Valuation τ sig (Elt F) := fun c => StableHlo.after hostOps1 (W2 m ρ c)
/-- its padding to 128 lanes, -/
abbrev W4 : Dev nD → Valuation τ sig (Elt F) := fun c => StableHlo.after hostOps1_1 (W3 m ρ c)
/-- and its reshape to one row (the apply region's entry). -/
abbrev W5 : Dev nD → Valuation τ sig (Elt F) := fun c => StableHlo.after hostOps1_2 (W4 m ρ c)
abbrev V5 : (c : Dev nD) → (b : Ref sig .tc) → Buf (Elt F) ((c : Thread nD τ).loc b) := fun c b => W5 m ρ c b
/-- At the apply region's exit. -/
def W6 (c : Dev nD) : Valuation τ sig (Elt F) :=
  Pipeline.withArrays spec1 c (W5 m ρ c) fun w => (dat1 (V5 m ρ) c).arrAt w cfg1.N
theorem W6_arr (c : Dev nD) (w : Fin cfg1.W) :
    W6 m ρ c (Proc.devRef .tc (Pipeline.arrRef spec1 w)) = (dat1 (V5 m ρ) c).arrAt w cfg1.N := by
  unfold W6; exact Pipeline.withArrays_arr spec1 launch1.win.arr_inj c _ _ w
theorem W6_of_ne (c : Dev nD) (b : Ref sig .tc) (hb : ∀ w, Pipeline.arrRef spec1 w ≠ b) :
    W6 m ρ c (Proc.devRef .tc b) = W5 m ρ c (Proc.devRef .tc b) := by
  unfold W6; exact Pipeline.withArrays_of_ne spec1 c _ _ b hb
abbrev V6 : (c : Dev nD) → (b : Ref sig .tc) → Buf (Elt F) ((c : Thread nD τ).loc b) := fun c b => W6 m ρ c b
theorem hF1 (c : Dev nD) (w : Fin cfg1.W) : (dat1 (V5 m ρ) c).arrAt w cfg1.N = V6 m ρ c (Pipeline.arrRef spec1 w) :=
  (W6_arr m ρ c w).symm
theorem hrest1 (c : Dev nD) : ∀ b, b ∉ Finset.univ.image (Pipeline.arrRef spec1) → V6 m ρ c b = V5 m ρ c b :=
  fun b hb => W6_of_ne m ρ c b fun w e => hb (Finset.mem_image.mpr ⟨w, Finset.mem_univ _, e⟩)
/-- After the last reshape (the end). -/
abbrev W7 : Dev nD → Valuation τ sig (Elt F) := fun c => StableHlo.after hostOps2 (W6 m ρ c)

/-! ## The arguments end as launched -/

/-- A buffer no host operation writes and no region stages as an output reaches the end as launched. -/
theorem W7_of_untouched (c : Dev nD) (r : Ref sig .tc) (h0 : r ∉ hostOps0_W) (h1 : r ∉ hostOps1_W) (h11 : r ∉ hostOps1_1_W)
    (h12 : r ∉ hostOps1_2_W) (h2 : r ∉ hostOps2_W) (ha0 : ∀ w, Pipeline.arrRef spec0 w ≠ r) (ha1 : ∀ w, Pipeline.arrRef spec1 w ≠ r) :
    W7 m ρ c (Proc.devRef .tc r) = m ((c : Thread nD τ).loc r) :=
  calc W7 m ρ c (Proc.devRef .tc r)
    _ = W6 m ρ c (Proc.devRef .tc r) := StableHlo.after_of_writes_sub hostOps2 _ hostOps2_writes h2
    _ = W5 m ρ c (Proc.devRef .tc r) := W6_of_ne m ρ c r ha1
    _ = W4 m ρ c (Proc.devRef .tc r) := StableHlo.after_of_writes_sub hostOps1_2 _ hostOps1_2_writes h12
    _ = W3 m ρ c (Proc.devRef .tc r) := StableHlo.after_of_writes_sub hostOps1_1 _ hostOps1_1_writes h11
    _ = W2 m ρ c (Proc.devRef .tc r) := StableHlo.after_of_writes_sub hostOps1 _ hostOps1_writes h1
    _ = W1 m ρ c (Proc.devRef .tc r) := W2_of_ne m ρ c r ha0
    _ = W0 m ρ c (Proc.devRef .tc r) := StableHlo.after_of_writes_sub hostOps0 _ hostOps0_writes h0
    _ = m ((c : Thread nD τ).loc r) := rfl

theorem W7_main_arg0 (c : Dev nD) : W7 m ρ c (Proc.devRef .tc main_arg0) = m ((c : Thread nD τ).loc main_arg0) :=
  W7_of_untouched m ρ c main_arg0 (by decide) (by decide) (by decide) (by decide) (by decide) (by decide) (by decide)
theorem W7_main_arg1 (c : Dev nD) : W7 m ρ c (Proc.devRef .tc main_arg1) = m ((c : Thread nD τ).loc main_arg1) :=
  W7_of_untouched m ρ c main_arg1 (by decide) (by decide) (by decide) (by decide) (by decide) (by decide) (by decide)
theorem W7_main_arg2 (c : Dev nD) : W7 m ρ c (Proc.devRef .tc main_arg2) = m ((c : Thread nD τ).loc main_arg2) :=
  W7_of_untouched m ρ c main_arg2 (by decide) (by decide) (by decide) (by decide) (by decide) (by decide) (by decide)

/-! ## The proof data family and the thread state -/

abbrev adm' : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm' p) c
  | ⟨0, _⟩ => fun c => dat0 (V1 m ρ) c
  | ⟨1, _⟩ => fun c => dat1 (V5 m ρ) c
abbrev 𝒱₀ : Variants := Variants.none
abbrev L₀ : GSem nD τ sig → Finset Unit := fun _ => ∅
abbrev lv₀ : GSem nD τ sig → Unit → ℕ := fun _ _ => 0
/-- What rides beside the buffers through every item: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L₀ lv₀ :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- The reduction region: entered from every unscoped buffer at `W1`, left at `W2`. -/
def reg0 : Pipeline.RegionSeg (pcfgs (F := F)) adm' (pdats m ρ) () defs₀ 𝒱₀ L₀ lv₀ 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L₀ lv₀ 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm' (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h : iprop((∃ r, prngReg c r) ∗ Pipeline.prefHeld (pcfgs (F := F) 0).pre c (fun _ => fullShare) (adm' (F := F) 0).1
        ∗ Pipeline.scopedRest (Ix := Unit) (Name := ℕ) (U := UR sig nD τ) (Lvl := ℕ) spec0 c) ⊢ (Pipeline.ΦA spec0 c : sProp 𝕄) := by
      unfold Pipeline.ΦA
      iintro ⟨Hp, -, Hr⟩
      isplitl [Hr]; · iexact Hr
      iexact Hp
    exact h.trans (hin0 (V1 m ρ) c)
  hout c := by
    rw [Pipeline.ownSems0_none]
    have h : (Pipeline.ΦA spec0 c : sProp 𝕄) ⊢ iprop((∃ r, prngReg c r) ∗ BI.emp
        ∗ Pipeline.scopedRest (Ix := Unit) (Name := ℕ) (U := UR sig nD τ) (Lvl := ℕ) spec0 c) := by
      unfold Pipeline.ΦA
      iintro ⟨Hr, Hp⟩
      isplitl [Hp]; · iexact Hp
      isplitr; · iempintro
      iexact Hr
    exact (hout0 (V1 m ρ) c).trans h
  hexit c := by
    have hjoin := Pipeline.unscopedBufs_of_arrays (p := 0) (pcfgs (F := F)) adm' (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The apply region: entered from every unscoped buffer at `W5`, left at `W6`. -/
def reg1 : Pipeline.RegionSeg (pcfgs (F := F)) adm' (pdats m ρ) () defs₀ 𝒱₀ L₀ lv₀ 1 where
  win := launch1.win.to₀
  block_pos := launch1.block_pos
  stage_whole := launch1.stage_whole
  K := PEmpty
  osem k := k.elim
  ho := Pipeline.OwnSemFacts.none _
  hbody c := (body_obligation1 (V5 m ρ) c).loose
  hwaits := Pipeline.hwaits_of_owed_zero _ _ _ _ L₀ lv₀ 1 fun _ _ => rfl
  pre c := iprop(StableHlo.held (c : Thread nD τ) (Pipeline.ucRefs τ sig) (W5 m ρ c) ∗ R c)
  post c := iprop(StableHlo.held (c : Thread nD τ) (Pipeline.ucRefs τ sig) (W6 m ρ c) ∗ R c)
  X c := iprop(∃ r, prngReg c r)
  Y c := iprop(∃ r, prngReg c r)
  Z c := Pipeline.unscopedRest (Ix := Unit) (Name := ℕ) (U := UR sig nD τ) (Lvl := ℕ) spec1 c (V5 m ρ c)
  hentry c := by
    rw [Pipeline.ownSems0_none]
    have hsplit := Pipeline.arrays_of_unscopedBufs (p := 1) (pcfgs (F := F)) adm' (pdats m ρ) launch1.win launch1.arr_whole c
      ((pdats m ρ 1 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm' (Ix := Unit) (Name := ℕ) (U := UR sig nD τ) (Lvl := ℕ)
      launch1.win launch1.arr_whole c (pdats m ρ) ((pdats m ρ 1 c).share_full fun _ => rfl)
      (V5 m ρ c) (V6 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

abbrev segs : List (Pipeline.Seg (pcfgs (F := F)) adm' (pdats m ρ) () defs₀ 𝒱₀ L₀ lv₀) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .region (reg1 m ρ),
    .host (hseg hostOps2 hostOps2_sub hostOps2_fresh (W6 m ρ)) ]

set_option backward.isDefEq.respectTransparency.types false in
/-- THE RUN: from any memory with zero counters every weakly fair execution of the program terminates, nothing
    faulting, with every unscoped buffer of every core at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm' (pdats m ρ) () cellOf_inj emb₁ defs₀ 𝒱₀ L₀ lv₀ m ρ main (segs m ρ)
    (fun c Q => by
      rewrite [main_chain c, Seg.run_eq_chain,
        show (segs m ρ).map Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c =>
      (show iprop(StableHlo.held (c : Thread nD τ) (Pipeline.ucRefs τ sig) (W7 m ρ c) ∗ R c)
          ⊢ (iprop(Tₙ m ρ c ∗ ∃ W, owes (c : Thread nD τ) (0 : CellTallies nD τ sig Unit) W) : sProp 𝕄) from by
        iintro ⟨Hh, Hp, HO⟩
        isplitl [Hh Hp]
        · isplitl [Hh]; · iexact Hh
          iexact Hp
        iexact HO)⟩)
    (hinit := by
      refine Pipeline.initEach L₀ lv₀ fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

/-- The run with the result read: the result array ends at the last valuation's, the arguments as launched. -/
theorem run_result : θ_run defs (onTc (τ := τ) (main (F := F))) ⟨m, fun _ => 0, ρ⟩ (fun r => ∀ c : Dev nD,
      r.2.mem ((c.tc : Thread nD τ).loc main_v16) = W7 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨h c _ (mem_uc main_v16 (by decide)),
     (h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c)⟩) (run_all m ρ)

end Cert.KernelIdeal.Hand

end
-- ==== Proof.Value.Spec.lean ====
import Idealize.ShloMosaic.PureOps.Ideal
import Idealize.ShloMosaic.Lib.ValueIdx

/-! The function both programs compute, over the extended reals.

    For a label `v` let `S v` be the sum of the entries of the value array whose label is `v` and `C v` their number.
    The table of differences is `D v = S v / max (C v) 1 - intensity v`. The result at an entry is the value there
    less `D` of the entry's label, and the value itself where the label is 0 (the background, left untouched).
    Labels are words in [0, 64). -/

noncomputable section

namespace Cert.Spec

open Idealize.ShloMosaic Idealize.ShloMosaic.ValueIdx
open scoped BigOperators

/-- The arrays' shape, the table's. -/
abbrev T4 : Shape := ⟨4, ![2, 192, 256, 256]⟩
abbrev L64 : Shape := ⟨1, ![64]⟩

/-- The float literals of the two programs, never evaluated: only that the zero word is zero is used. -/
abbrev zeroF : Ideal .f32 := FloatOps.ofBits (F := Ideal) .f32 0x00000000#32
abbrev oneF : Ideal .f32 := FloatOps.ofBits (F := Ideal) .f32 0x3F800000#32

/-- The sum of the entries labelled `v`. -/
def lblSum (x0 : FVec Ideal T4 .f32) (x1 : IVec T4 32) (v : ℕ) : EReal :=
  ∑ j : T4.Idx, if (x1 j).toNat = v then (x0 j : EReal) else 0

/-- Their number, as a sum of ones (the literal one, as both programs add it). -/
def lblCnt (x1 : IVec T4 32) (v : ℕ) : EReal :=
  ∑ j : T4.Idx, if (x1 j).toNat = v then (oneF : EReal) else 0

/-- The table of differences at label `v`. -/
def delta (x0 : FVec Ideal T4 .f32) (x1 : IVec T4 32) (x2 : FVec Ideal L64 .f32) (v : Fin 64) : Ideal .f32 :=
  FloatOps.subf (F := Ideal) (FloatOps.hostDivf (F := Ideal) (φ := .f32) (lblSum x0 x1 v.val) (FloatOps.maximumf (F := Ideal) (φ := .f32) (lblCnt x1 v.val) oneF))
    (x2 (ix1 v))

/-- The word's label, as an index of the table. -/
def lbl (w : BitVec 32) : Fin 64 := ⟨w.toNat % 64, Nat.mod_lt _ (by decide)⟩

/-- THE RESULT at an entry. -/
def G (x0 : FVec Ideal T4 .f32) (x1 : IVec T4 32) (x2 : FVec Ideal L64 .f32) : FVec Ideal T4 .f32 :=
  fun j => FloatOps.subf (F := Ideal) (x0 j) (if (x1 j).toNat = 0 then zeroF else delta x0 x1 x2 (lbl (x1 j)))

end Cert.Spec

end
-- ==== Proof.Value.HostGlue.lean ====
import proofs.«416137_j84267258347944_3_alg».proof.Proof.KernelIdealHand.Run
import proofs.«416137_j84267258347944_3_alg».proof.Proof.Value.Spec
import Idealize.ShloMosaic.PureOps.Ideal.Laws
import Idealize.ShloMosaic.Lib.StableHlo.Run
import Idealize.ShloMosaic.Lib.IdealHost
import Idealize.ShloMosaic.Lib.KernelVsHost

/-! The host operations between and after the regions, read at the boundaries' valuations: the two reshapes of the
    arguments that both regions stage; the table of differences the apply region stages (per label the two cores'
    sums added, divided by the two cores' counts added or one, less the label's intensity; lane 0 set to zero; lanes
    64..127 padding); the last reshape of the apply region's output. -/

noncomputable section

namespace Cert.Value

open Idealize.ShloMosaic Idealize.ShloMosaic.TcCoe Idealize.ShloMosaic.ValueIdx Idealize.SL.Sem
open Cert.KernelIdeal Cert.KernelIdeal.Gen Cert.KernelIdeal.Hand Cert.Spec
open scoped BigOperators

/-! ## The one-index scatter -/

section Scatter
variable {α : Type} {w : Nat}

/-- The one update's window starts at the one scatter index, read signed. -/
private theorem sc_start0 (j : S_.Idx) (idx : IVec S1 w) :
    scatter_S64_S1_S__n_0_0_0.start j idx 0 = (idx (ix1 0)).toInt := by
  unfold ScatterDims.start
  rw [dif_pos (show (0 : Fin 1) ∈ scatter_S64_S1_S__n_0_0_0.scatterDimsToOperandDims from List.mem_singleton.mpr rfl)]
  have hsi : scatter_S64_S1_S__n_0_0_0.siIdx j ⟨List.idxOf (0 : Fin 1) scatter_S64_S1_S__n_0_0_0.scatterDimsToOperandDims,
      List.idxOf_lt_length_iff.2 (List.mem_singleton.mpr rfl)⟩ = ix1 0 := by
    funext b; refine Fin.ext ?_
    match b with
    | ⟨0, _⟩ => rfl
  rw [hsi]

/-- The operand's one axis is inserted: no window coordinate. -/
private theorem sc_window0 (j : S_.Idx) : scatter_S64_S1_S__n_0_0_0.window j 0 = 0 := by
  unfold ScatterDims.window
  rw [dif_neg (show (0 : Fin 1) ∉ scatter_S64_S1_S__n_0_0_0.sKept from fun h => List.not_mem_nil h)]

/-- With the scatter index the zero word the one update lands at entry 0. -/
private theorem sc_resultIdx (j : S_.Idx) (idx : IVec S1 w) (h0 : idx (ix1 0) = 0#w) :
    scatter_S64_S1_S__n_0_0_0.resultIdx? j idx = some (ix1 (0 : Fin 64)) := by
  have hs : scatter_S64_S1_S__n_0_0_0.start j idx 0 + (scatter_S64_S1_S__n_0_0_0.window j 0 : ℤ) = 0 := by
    rw [sc_start0, sc_window0, h0]; simp
  unfold ScatterDims.resultIdx?
  have hall : ∀ a : Fin 1, 0 ≤ scatter_S64_S1_S__n_0_0_0.start j idx a + (scatter_S64_S1_S__n_0_0_0.window j a : ℤ)
      ∧ scatter_S64_S1_S__n_0_0_0.start j idx a + (scatter_S64_S1_S__n_0_0_0.window j a : ℤ) < (S64.size a : ℤ) := by
    intro a
    match a with
    | ⟨0, _⟩ =>
      show 0 ≤ scatter_S64_S1_S__n_0_0_0.start j idx 0 + (scatter_S64_S1_S__n_0_0_0.window j 0 : ℤ)
        ∧ scatter_S64_S1_S__n_0_0_0.start j idx 0 + (scatter_S64_S1_S__n_0_0_0.window j 0 : ℤ) < (64 : ℤ)
      rw [hs]; exact ⟨le_refl _, by norm_num⟩
  rw [dif_pos hall]
  congr 1
  funext a
  refine Fin.ext ?_
  match a with
  | ⟨0, _⟩ =>
    show (scatter_S64_S1_S__n_0_0_0.start j idx 0 + (scatter_S64_S1_S__n_0_0_0.window j 0 : ℤ)).toNat = 0
    rw [hs]; rfl

/-- THE SCATTER of one update at index zero, with the body that returns the update: entry 0 becomes the update, every
    other entry stays. -/
private theorem sc_set_apply (x : S64.Idx → α) (idx : IVec S1 w) (upd : S_.Idx → α) (h0 : idx (ix1 0) = 0#w) (v : Fin 64) :
    Host.scatter scatter_S64_S1_S__n_0_0_0 (fun _ b => b) x idx upd (ix1 v) = if v.val = 0 then upd ix0 else x (ix1 v) := by
  unfold Host.scatter
  have h1 : List.finRange S_.numel = [⟨0, Facts₀.h_S_⟩] := by decide
  rw [h1, List.foldl_cons, List.foldl_nil, sc_resultIdx _ idx h0]
  dsimp only
  by_cases hv : v.val = 0
  · rw [if_pos hv, if_pos (by rw [show v = 0 from Fin.ext hv])]
    exact congrArg upd (eq_ix0 _)
  · rw [if_neg hv, if_neg]
    intro e
    exact hv (congrArg Fin.val (congrFun e 0))

end Scatter

/-! ## The table -/

/-- THE TABLE'S TEXT: what the host operations between the two regions compute from the reduction region's two output
    arrays and the intensities — the two cores' rows added from the zero literal, the quotient by the counts or one, the
    intensity taken off, entry 0 set to the zero literal, padded to 128 lanes, as one row. -/
private def tbl {F : FTy → Type} [FloatOps F] (a2 a3 : FVec F S2x1x64 .f32) (x2 : FVec F S64 .f32) : FVec F S1x128 .f32 :=
  shapeCast S1x128
    (pad S128 ![0] ![64] ![0]
      (Host.scatter scatter_S64_S1_S__n_0_0_0 (fun _ b => b)
        (subf
          (Host.divf
            (Host.reduceAdd (shapeCast S2x64 a2 Facts₀.shapeCasts_S2x1x64_S2x64) (constant S_ .f32 0x00000000#32)
              Facts₀.reducesTo_S2x64_S64_d0 Facts₀.h_S_)
            (maximumf
              (Host.reduceAdd (shapeCast S2x64 a3 Facts₀.shapeCasts_S2x1x64_S2x64) (constant S_ .f32 0x00000000#32)
                Facts₀.reducesTo_S2x64_S64_d0 Facts₀.h_S_)
              (broadcastInDim S64 ![] Facts₀.bcast_S_S64 (constant S_ .f32 0x3F800000#32))))
          x2)
        (broadcastInDim S1 ![] Facts₀.bcast_S_S1 (constantI S_ 32 0#32))
        (constant S_ .f32 0x00000000#32))
      (sitofp .f32 (constantI S_ 32 0#32)) Facts₀.pads_S64_S128_0640 Facts₀.h_S_)
    Facts₀.shapeCasts_S128_S1x128

/-- The host's sum of the two cores' rows at label v: the zero literal plus the two rows' entries. -/
private theorem rsum_apply (a : FVec Ideal S2x1x64 .f32) (v : Fin 64) :
    Host.reduceAdd (shapeCast S2x64 a Facts₀.shapeCasts_S2x1x64_S2x64) (constant (F := Ideal) S_ .f32 0x00000000#32)
        Facts₀.reducesTo_S2x64_S64_d0 Facts₀.h_S_ (ix1 v)
      = (zeroF : EReal) + ∑ c' : Fin 2, (a (ix3 c' (0 : Fin 1) v) : EReal) := by
  have hR : S2x64.Reduces [0] S64 := by decide
  rw [hostReduceAdd_apply, Ideal.hostReduceAdd_single _ hR]
  refine congrArg₂ (· + ·) rfl (Finset.sum_congr rfl fun k _ => ?_)
  refine shapeCast_apply a _ _ (ix3 k (0 : Fin 1) v) ?_
  have e0 : (hR.lift (ix1 v) k (0 : Fin 2)).val = k.val := rfl
  have e1 : (hR.lift (ix1 v) k (1 : Fin 2)).val = v.val := rfl
  rw [Shape.rowMajor_val_three, Shape.rowMajor_val_two, e0, e1]
  show (k.val * 1 + 0) * 64 + v.val = k.val * 64 + v.val
  omega

/-- THE TABLE READ at a lane below 64. -/
private theorem tbl_apply (a2 a3 : FVec Ideal S2x1x64 .f32) (x2 : FVec Ideal S64 .f32) (v : Fin 64) :
    tbl (F := Ideal) a2 a3 x2 (ix2 (0 : Fin 1) (⟨v.val, by have := v.isLt; omega⟩ : Fin 128))
      = if v.val = 0 then zeroF else
          FloatOps.subf (F := Ideal)
            (FloatOps.hostDivf (F := Ideal) (φ := .f32)
              ((zeroF : EReal) + ∑ c' : Fin 2, (a2 (ix3 c' (0 : Fin 1) v) : EReal))
              (FloatOps.maximumf (F := Ideal) (φ := .f32)
                ((zeroF : EReal) + ∑ c' : Fin 2, (a3 (ix3 c' (0 : Fin 1) v) : EReal)) oneF))
            (x2 (ix1 v)) := by
  have hv128 : v.val < 128 := by have := v.isLt; omega
  unfold tbl
  rw [shapeCast_apply _ _ (ix2 (0 : Fin 1) (⟨v.val, hv128⟩ : Fin 128)) (ix1 (⟨v.val, hv128⟩ : Fin 128))
    (by rw [Shape.rowMajor_val_one, Shape.rowMajor_val_two]; show v.val = 0 * 128 + v.val; omega)]
  rw [pad_apply_of_inside ![0] ![64] ![0] _ _ _ _ (ix1 (⟨v.val, hv128⟩ : Fin 128)) (ix1 v)
    (by intro a; match a with | ⟨0, _⟩ => show v.val = 0 + v.val * (0 + 1); omega)]
  rw [sc_set_apply _ _ _ (by rfl) v]
  by_cases hv : v.val = 0
  · rw [if_pos hv, if_pos hv]; rfl
  · rw [if_neg hv, if_neg hv]
    show FloatOps.subf (F := Ideal) (FloatOps.hostDivf (F := Ideal) (φ := .f32)
        (Host.reduceAdd (shapeCast S2x64 a2 Facts₀.shapeCasts_S2x1x64_S2x64) (constant (F := Ideal) S_ .f32 0x00000000#32)
          Facts₀.reducesTo_S2x64_S64_d0 Facts₀.h_S_ (ix1 v))
        (FloatOps.maximumf (F := Ideal) (φ := .f32)
          (Host.reduceAdd (shapeCast S2x64 a3 Facts₀.shapeCasts_S2x1x64_S2x64) (constant (F := Ideal) S_ .f32 0x00000000#32)
            Facts₀.reducesTo_S2x64_S64_d0 Facts₀.h_S_ (ix1 v))
          (broadcastInDim S64 ![] Facts₀.bcast_S_S64 (constant (F := Ideal) S_ .f32 0x3F800000#32) (ix1 v))))
      (x2 (ix1 v)) = _
    rw [rsum_apply, rsum_apply, broadcastInDim_scalar_apply]
    rfl

variable {F : FTy → Type} [FloatOps F]
variable (m : (ℓ : Loc nD τ sig) → Buf (Elt F) ℓ) (ρ : Dev nD → PrngReg)

/-- The reduction region finds the value array reshaped to 196608 rows of 128 lanes, … -/
theorem V1_v0 (c : Dev nD) :
    V1 m ρ c main_v0 = shapeCast S196608x128 (m ((c : Thread nD τ).loc main_arg0)) Facts₀.shapeCasts_S2x192x256x256_S196608x128 := by
  show StableHlo.after hostOps0 (W0 m ρ c) (Proc.devRef .tc main_v0) = _
  after_results
  rfl
/-- … and the labels likewise. -/
theorem V1_v1 (c : Dev nD) :
    V1 m ρ c main_v1 = shapeCast S196608x128 (m ((c : Thread nD τ).loc main_arg1)) Facts₀.shapeCasts_S2x192x256x256_S196608x128 := by
  show StableHlo.after hostOps0 (W0 m ρ c) (Proc.devRef .tc main_v1) = _
  after_results
  rfl
/-- The apply region finds the same two arrays: the reduction region only reads them, no host operation writes them. -/
theorem V5_v0 (c : Dev nD) : V5 m ρ c main_v0 = V1 m ρ c main_v0 :=
  calc V5 m ρ c main_v0
    _ = W4 m ρ c (Proc.devRef .tc main_v0) := StableHlo.after_of_writes_sub hostOps1_2 _ hostOps1_2_writes (by decide)
    _ = W3 m ρ c (Proc.devRef .tc main_v0) := StableHlo.after_of_writes_sub hostOps1_1 _ hostOps1_1_writes (by decide)
    _ = W2 m ρ c (Proc.devRef .tc main_v0) := StableHlo.after_of_writes_sub hostOps1 _ hostOps1_writes (by decide)
    _ = (dat0 (V1 m ρ) c).arrAt 0 cfg0.N := W2_arr m ρ c 0
    _ = (dat0 (V1 m ρ) c).A 0 := (dat0 (V1 m ρ) c).arrAt_in 0 rfl _
    _ = V1 m ρ c main_v0 := A_eq0 (V1 m ρ) c 0
theorem V5_v1 (c : Dev nD) : V5 m ρ c main_v1 = V1 m ρ c main_v1 :=
  calc V5 m ρ c main_v1
    _ = W4 m ρ c (Proc.devRef .tc main_v1) := StableHlo.after_of_writes_sub hostOps1_2 _ hostOps1_2_writes (by decide)
    _ = W3 m ρ c (Proc.devRef .tc main_v1) := StableHlo.after_of_writes_sub hostOps1_1 _ hostOps1_1_writes (by decide)
    _ = W2 m ρ c (Proc.devRef .tc main_v1) := StableHlo.after_of_writes_sub hostOps1 _ hostOps1_writes (by decide)
    _ = (dat0 (V1 m ρ) c).arrAt 1 cfg0.N := W2_arr m ρ c 1
    _ = (dat0 (V1 m ρ) c).A 1 := (dat0 (V1 m ρ) c).arrAt_in 1 rfl _
    _ = V1 m ρ c main_v1 := A_eq0 (V1 m ρ) c 1

/-- The result is the apply region's output array reshaped. -/
theorem W7_v16 (c : Dev nD) :
    W7 m ρ c (Proc.devRef .tc main_v16)
      = shapeCast S2x192x256x256 ((dat1 (V5 m ρ) c).arrAt 3 cfg1.N) Facts₀.shapeCasts_S196608x128_S2x192x256x256 := by
  show StableHlo.after hostOps2 (W6 m ρ c) (Proc.devRef .tc main_v16) = _
  after_results
  rw [show W6 m ρ c (Proc.devRef .tc main_v15) = (dat1 (V5 m ρ) c).arrAt 3 cfg1.N from W6_arr m ρ c 3]
  rfl

/-- The intensities reach the second stretch of host operations as launched. -/
private theorem W2_arg2 (c : Dev nD) : W2 m ρ c (Proc.devRef .tc main_arg2) = m ((c : Thread nD τ).loc main_arg2) :=
  (W2_of_ne m ρ c main_arg2 (by decide)).trans (StableHlo.after_of_writes_sub hostOps0 _ hostOps0_writes (by decide))

/-- The apply region's table is the table's text over the reduction region's two output arrays and the intensities. -/
private theorem V5_v14_eq (c : Dev nD) :
    V5 m ρ c main_v14
      = tbl ((dat0 (V1 m ρ) c).arrAt 2 cfg0.N) ((dat0 (V1 m ρ) c).arrAt 3 cfg0.N) (m ((c : Thread nD τ).loc main_arg2)) := by
  show StableHlo.after hostOps1_2 (StableHlo.after hostOps1_1 (StableHlo.after hostOps1 (W2 m ρ c))) (Proc.devRef .tc main_v14) = _
  after_results
  rw [show W2 m ρ c (Proc.devRef .tc main_v2_0) = (dat0 (V1 m ρ) c).arrAt 2 cfg0.N from W2_arr m ρ c 2,
    show W2 m ρ c (Proc.devRef .tc main_v2_1) = (dat0 (V1 m ρ) c).arrAt 3 cfg0.N from W2_arr m ρ c 3,
    W2_arg2]
  rfl

/-- The reduction region's two output arrays after its run: per core a row of per-label sums, of per-label counts. -/
def sumsArr (m : (ℓ : Loc nD τ sig) → Buf (Elt Ideal) ℓ) (ρ : Dev nD → PrngReg) (c : Dev nD) : FVec Ideal S2x1x64 .f32 :=
  (dat0 (F := Ideal) (V1 m ρ) c).arrAt 2 cfg0.N
def cntsArr (m : (ℓ : Loc nD τ sig) → Buf (Elt Ideal) ℓ) (ρ : Dev nD → PrngReg) (c : Dev nD) : FVec Ideal S2x1x64 .f32 :=
  (dat0 (F := Ideal) (V1 m ρ) c).arrAt 3 cfg0.N

/-- THE TABLE the apply region stages, at a lane below 64, over the extended reals: zero at lane 0; at lane v ≥ 1 the
    two cores' sums added to the zero literal, divided by the two cores' counts added to the zero literal or one, less
    the label's intensity. -/
theorem V5_v14_apply (m : (ℓ : Loc nD τ sig) → Buf (Elt Ideal) ℓ) (ρ : Dev nD → PrngReg) (c : Dev nD) (v : Fin 64) :
    V5 (F := Ideal) m ρ c main_v14 (ix2 (0 : Fin 1) (⟨v.val, by have := v.isLt; omega⟩ : Fin 128))
      = if v.val = 0 then zeroF else
          FloatOps.subf (F := Ideal)
            (FloatOps.hostDivf (F := Ideal) (φ := .f32)
              ((zeroF : EReal) + ∑ c' : Fin 2, (sumsArr m ρ c (ix3 c' (0 : Fin 1) v) : EReal))
              (FloatOps.maximumf (F := Ideal) (φ := .f32)
                ((zeroF : EReal) + ∑ c' : Fin 2, (cntsArr m ρ c (ix3 c' (0 : Fin 1) v) : EReal)) oneF))
            (m ((c : Thread nD τ).loc main_arg2) (ix1 v)) := by
  have e : V5 (F := Ideal) m ρ c main_v14
      = tbl (sumsArr m ρ c) (cntsArr m ρ c) (m ((c : Thread nD τ).loc main_arg2)) := V5_v14_eq m ρ c
  rw [e]
  exact tbl_apply (sumsArr m ρ c) (cntsArr m ρ c) (m ((c : Thread nD τ).loc main_arg2)) v

end Cert.Value

end
-- ==== Proof.Value.PayloadMath.lean ====
import proofs.«416137_j84267258347944_3_alg».proof.Proof.KernelIdealHand.StepDef
import proofs.«416137_j84267258347944_3_alg».proof.Proof.Value.Spec
import Idealize.ShloMosaic.Lib.ValueIdx
import Idealize.ShloMosaic.Lib.ValueLayout
import Idealize.ShloMosaic.Lib.Pipeline.Value
import Idealize.ShloMosaic.Lib.Exec.Context
import Idealize.ShloMosaic.PureOps.Ideal.Laws

/-! The two kernels' arithmetic read at an index.
    The apply kernel's stored value at an entry is the value there less the table's lane named by the entry's
    label (a label in [0, 64) names its own lane). One point of the reduction adds, at every lane v ≥ 1, the
    block's sum (count) of the entries labelled v; lane 0 is left as it was: the label loop runs over 1..63 and
    trip k adds its scalar times the indicator of lane k + 1. -/

noncomputable section

namespace Cert.Value

open Idealize.ShloMosaic Idealize.ShloMosaic.TcCoe Idealize.ShloMosaic.ValueIdx Idealize.SL.Sem
open Cert.KernelIdeal Cert.KernelIdeal.Gen Cert.KernelIdeal.Hand Cert.Spec
open scoped BigOperators

/-! ## The apply kernel -/

/-- A word below 64 is not negative. -/
private theorem slt_zero_of_lt (w : BitVec 32) (h : w.toNat < 64) : IntOp.cmpi .slt w 0#32 = 0#1 := by
  have hm : w.msb = false := by
    rw [BitVec.msb_eq_decide]; simp; omega
  have : w.slt 0#32 = false := by
    rw [BitVec.slt_eq_decide, BitVec.toInt_eq_msb_cond, hm]; simp
  simp [IntOp.cmpi, this]

/-- The gather's index vector at an entry whose label is below 64 is the label: the wrap of a negative index is not
    taken, and the two changes of shape are inverse to each other. -/
private theorem gatherIdx_apply (l : IVec S4096x128 32) (h1 : S4096x128.ShapeCasts S4096x128x1) (h2 : S4096x128x1.ShapeCasts S4096x128)
    (i : S4096x128.Idx) (h : (l i).toNat < 64) :
    shapeCast S4096x128 (shapeCast S4096x128x1 (select (cmpi .slt l (broadcast S4096x128 0#32)) (addi l (broadcast S4096x128 128#32)) l) h1) h2 i = l i := by
  rw [shapeCast_shapeCast]
  show Scalar.select (IntOp.cmpi .slt (l i) 0#32) _ (l i) = l i
  rw [slt_zero_of_lt _ h, select_zero]

/-- A gather along the lanes of a row broadcast over the rows reads the row at the index word's lane. -/
private theorem gather_row_apply {α : Type} (d : S1x128.Idx → α) (hb : S1x128.Broadcasts S4096x128) (idx : IVec S4096x128 32)
    (r : Fin 4096) (q : Fin 128) (n : Nat) (hn : n < 128) (h : (idx (ix2 r q)).toNat = n) :
    dynamicGather (s := S4096x128) 1 (broadcastTo S4096x128 d hb) idx (ix2 r q) = d (ix2 (0 : Fin 1) (⟨n, hn⟩ : Fin 128)) := by
  unfold dynamicGather
  refine broadcastTo_apply d hb _ (ix2 (0 : Fin 1) (⟨n, hn⟩ : Fin 128)) fun ax => ?_
  match ax with
  | ⟨0, _⟩ => rfl
  | ⟨1, _⟩ =>
    show n = (idx (ix2 r q)).toNat % 128
    rw [h]; omega

/-- The apply kernel's stored value at an entry whose label is in range. -/
theorem k1_pay1_apply {F : FTy → Type} [FloatOps F] (x : Vec F S4096x128 .f32) (l : Vec F S4096x128 .i32) (d : Vec F S1x128 .f32)
    (r : Fin 4096) (q : Fin 128) (h : (l (ix2 r q)).toNat < 64) :
    k1_pay1 x l d (ix2 r q) = FloatOps.subf (x (ix2 r q)) (d (ix2 (0 : Fin 1) (⟨(l (ix2 r q)).toNat, by omega⟩ : Fin 128))) := by
  unfold k1_pay1
  simp only [shapeCast_self]
  show FloatOps.subf (x (ix2 r q)) _ = _
  congr 1
  refine gather_row_apply d _ _ r q _ _ ?_
  exact congrArg BitVec.toNat (gatherIdx_apply l _ _ (ix2 r q) h)

/-! ## The reduction kernel: the copies out and the reset -/

/-- The accumulators copied into the output blocks: a change of shape. -/
theorem k0_pay9_apply {F : FTy → Type} [FloatOps F] (v : Vec F S1x64 .f32) (j : Fin 64) :
    k0_pay9 v (ix3 (0 : Fin 1) (0 : Fin 1) j) = v (ix2 (0 : Fin 1) j) := by
  unfold k0_pay9
  exact shapeCast_ab_1ab_apply v _ (0 : Fin 1) (0 : Fin 1) j
theorem k0_pay10_apply {F : FTy → Type} [FloatOps F] (v : Vec F S1x64 .f32) (j : Fin 64) :
    k0_pay10 v (ix3 (0 : Fin 1) (0 : Fin 1) j) = v (ix2 (0 : Fin 1) j) := by
  unfold k0_pay10
  exact shapeCast_ab_1ab_apply v _ (0 : Fin 1) (0 : Fin 1) j

/-- The reset values are zero. -/
theorem zero2_fst_apply (j : Fin 64) : (zero2 (F := Ideal)).1 (ix2 (0 : Fin 1) j) = (0 : EReal) := by
  show (k0_pay1 (F := Ideal)) (ix2 (0 : Fin 1) j) = (0 : EReal)
  unfold k0_pay1
  simp only [shapeCast_self]
  exact Ideal.ofBits_zero_f32
theorem zero2_snd_apply (j : Fin 64) : (zero2 (F := Ideal)).2 (ix2 (0 : Fin 1) j) = (0 : EReal) := by
  show (k0_pay2 (F := Ideal)) (ix2 (0 : Fin 1) j) = (0 : EReal)
  unfold k0_pay2
  simp only [shapeCast_self]
  exact Ideal.ofBits_zero_f32

/-! ## The reduction kernel: the label loop -/

/-- The label loop has 63 trips. -/
private theorem trips_eq : k0_t1_loop.trips = 63 := by decide

/-- Trip `k`'s induction variable is the word `k + 1`. -/
private theorem iv_toNat (k : Fin k0_t1_loop.trips) : (Scf.iv 1#32 1#32 k.val).toNat = k.val + 1 := by
  have hk : k.val < 63 := lt_of_lt_of_eq k.isLt trips_eq
  unfold Scf.iv
  rw [BitVec.mul_one, BitVec.toNat_add, BitVec.toNat_ofNat, BitVec.toNat_ofNat]
  omega

/-- Two words are equal exactly when their values are. -/
private theorem cmpi_eq_toNat (w v : BitVec 32) : IntOp.cmpi .eq w v = if w.toNat = v.toNat then 1#1 else 0#1 := by
  show BitVec.ofBool (w == v) = _
  by_cases h : w = v
  · subst h; simp
  · have hne : w.toNat ≠ v.toNat := fun e => h (BitVec.eq_of_toNat_eq e)
    rw [if_neg hne, beq_eq_false_iff_ne.mpr h]; rfl

/-- Trip `k`'s mask at an entry: is the entry's label `k + 1`? -/
private theorem pay3_apply (l : Vec Ideal S2048x128 .i32) (k : Fin k0_t1_loop.trips) (p : S2048x128.Idx) :
    k0_pay3 (F := Ideal) l k p = if (l p).toNat = k.val + 1 then 1#1 else 0#1 := by
  unfold k0_pay3
  simp only [shapeCast_self]
  show IntOp.cmpi .eq (l p) (Scf.iv 1#32 1#32 k.val) = _
  rw [cmpi_eq_toNat, iv_toNat]

/-- Trip `k`'s lane indicator: one at lane `k + 1`, zero elsewhere. -/
private theorem pay4_apply (k : Fin k0_t1_loop.trips) (j : Fin 64) :
    (k0_pay4 (F := Ideal) k (ix2 (0 : Fin 1) j) : EReal) = if j.val = k.val + 1 then 1 else 0 := by
  unfold k0_pay4
  show FloatOps.sitofp (F := Ideal) .f32 ((IntOp.cmpi .eq (iota .tc S1x64 32 [1] iota_S1x64_d1_w32 (ix2 (0 : Fin 1) j)) (Scf.iv 1#32 1#32 k.val)).setWidth 32) = _
  rw [iota_single_apply, cmpi_eq_toNat, iv_toNat]
  have hj : (BitVec.ofNat 32 ((ix2 (0 : Fin 1) j) (1 : Fin 2)).val).toNat = j.val := by
    show (BitVec.ofNat 32 j.val).toNat = j.val
    rw [BitVec.toNat_ofNat]; have := j.isLt; omega
  rw [hj]
  by_cases e : j.val = k.val + 1
  · rw [if_pos e, if_pos e]
    show (((((1#1 : BitVec 1).setWidth 32).toInt : ℝ)) : EReal) = 1
    norm_num
  · rw [if_neg e, if_neg e]
    show (((((0#1 : BitVec 1).setWidth 32).toInt : ℝ)) : EReal) = 0
    norm_num

/-- The two reductions of a block, over the rows and then over the lanes, and the changes of shape between and after
    them: every lane of the result is the sum over the block. -/
private theorem total_apply (v : FVec Ideal S2048x128 .f32) (h0 : S2048x128.Reduces [0] S128) (c1 : S128.ShapeCasts S1x128)
    (h1 : S1x128.Reduces [1] S1) (c2 : S1.ShapeCasts S1x1) (hb : S1x1.Broadcasts S1x64)
    (hφ : FKind.Formats .f32) (hacc : (0x00000000#32 : BitVec 32) = FKind.add.neutral .f32 hφ) (j : Fin 64) :
    (broadcastTo S1x64 (shapeCast S1x1 (multiReduction .add [1] S1
        (shapeCast S1x128 (multiReduction .add [0] S128 v 0x00000000#32 h0 hφ hacc) c1) 0x00000000#32 h1 hφ hacc) c2) hb (ix2 (0 : Fin 1) j) : EReal)
      = ∑ p : S2048x128.Idx, (v p : EReal) := by
  refine (broadcastTo_apply _ hb (ix2 (0 : Fin 1) j) (ix2 (0 : Fin 1) (0 : Fin 1)) fun ax => ?_).trans ?_
  · match ax with
    | ⟨0, _⟩ => rfl
    | ⟨1, _⟩ => rfl
  refine (shapeCast_a_1a_apply _ c2 (0 : Fin 1) (0 : Fin 1)).trans ?_
  refine (Ideal.multiReduction_add_single _ 0x00000000#32 h1 hφ hacc (ix1 (0 : Fin 1))).trans ?_
  rw [sum_idx2, Finset.sum_comm]
  show ∑ c : Fin 128, _ = ∑ c : Fin 128, ∑ r : Fin 2048, (v (ix2 r c) : EReal)
  refine Finset.sum_congr rfl fun c _ => ?_
  have e1 : h1.lift (ix1 (0 : Fin 1)) c = ix2 (0 : Fin 1) c := by
    funext a; match a with | ⟨0, _⟩ => exact Fin.ext rfl | ⟨1, _⟩ => exact Fin.ext rfl
  rw [e1]
  refine (shapeCast_a_1a_apply _ c1 (0 : Fin 1) c).trans ?_
  refine (Ideal.multiReduction_add_single v 0x00000000#32 h0 hφ hacc (ix1 c)).trans ?_
  show ∑ r : Fin 2048, _ = ∑ r : Fin 2048, (v (ix2 r c) : EReal)
  refine Finset.sum_congr rfl fun r _ => ?_
  have e0 : h0.lift (ix1 c) r = ix2 r c := by
    funext a; match a with | ⟨0, _⟩ => exact Fin.ext rfl | ⟨1, _⟩ => exact Fin.ext rfl
  rw [e0]

/-- An invariant of the trips done so far holds of a counted loop's fold. -/
private theorem foldl_finRange_inv {σ : Type} : ∀ (n : Nat) (g : Fin n → σ → σ) (init : σ) (P : Nat → σ → Prop), P 0 init →
    (∀ (k : Fin n) (acc : σ), P k.val acc → P (k.val + 1) (g k acc)) →
    P n ((List.finRange n).foldl (fun acc k => g k acc) init)
  | 0, g, init, P, h0, _ => by simpa using h0
  | n + 1, g, init, P, h0, hs => by
    rw [List.finRange_succ_last, List.foldl_append, List.foldl_map]
    simp only [List.foldl_cons, List.foldl_nil]
    exact hs (Fin.last n) _ (foldl_finRange_inv n (fun k => g k.castSucc) init P h0 (fun k acc h => hs k.castSucc acc h))

private theorem fold_inv {σ : Type} {n : Nat} (g : Fin n → σ → σ) (init : σ) (P : Nat → σ → Prop) (h0 : P 0 init)
    (hs : ∀ (k : Fin n) (acc : σ), P k.val acc → P (k.val + 1) (g k acc)) : P n (Scf.fold g init) := by
  rw [Scf.fold_eq]; exact foldl_finRange_inv n g init P h0 hs

/-- One trip on the sums: lane `k + 1` gains the block's sum of the entries labelled `k + 1`, the other lanes nothing. -/
private theorem pay5_apply (x : Vec Ideal S2048x128 .f32) (l : Vec Ideal S2048x128 .i32) (k : Fin k0_t1_loop.trips)
    (acc : Vec Ideal S1x64 .f32) (j : Fin 64) :
    (k0_pay5 x l k acc (ix2 (0 : Fin 1) j) : EReal)
      = acc (ix2 (0 : Fin 1) j) + (if j.val = k.val + 1 then ∑ p : S2048x128.Idx, (if (l p).toNat = k.val + 1 then (x p : EReal) else 0) else 0) := by
  unfold k0_pay5
  dsimp only
  refine (addf_apply _ _ _).trans ?_
  refine congrArg (fun t : EReal => (acc (ix2 (0 : Fin 1) j) : EReal) + t) ?_
  refine (mulf_apply _ _ _).trans ?_
  rw [pay4_apply]
  by_cases e : j.val = k.val + 1
  · rw [if_pos e, if_pos e, mul_one]
    refine (total_apply _ _ _ _ _ _ _ _ j).trans ?_
    refine Finset.sum_congr rfl fun p _ => ?_
    refine (select_apply _ _ _ p).trans ?_
    rw [pay3_apply, shapeCast_self]
    by_cases hp : (l p).toNat = k.val + 1
    · rw [if_pos hp, if_pos hp, select_one]
    · rw [if_neg hp, if_neg hp, select_zero]
      exact Ideal.ofBits_zero_f32
  · rw [if_neg e, if_neg e, mul_zero]

/-- One trip on the counts: lane `k + 1` gains a one for every entry labelled `k + 1`, the other lanes nothing. -/
private theorem pay6_apply (l : Vec Ideal S2048x128 .i32) (k : Fin k0_t1_loop.trips)
    (acc : Vec Ideal S1x64 .f32) (j : Fin 64) :
    (k0_pay6 l k acc (ix2 (0 : Fin 1) j) : EReal)
      = acc (ix2 (0 : Fin 1) j) + (if j.val = k.val + 1 then ∑ p : S2048x128.Idx, (if (l p).toNat = k.val + 1 then (oneF : EReal) else 0) else 0) := by
  unfold k0_pay6
  dsimp only
  refine (addf_apply _ _ _).trans ?_
  refine congrArg (fun t : EReal => (acc (ix2 (0 : Fin 1) j) : EReal) + t) ?_
  refine (mulf_apply _ _ _).trans ?_
  rw [pay4_apply]
  by_cases e : j.val = k.val + 1
  · rw [if_pos e, if_pos e, mul_one]
    refine (total_apply _ _ _ _ _ _ _ _ j).trans ?_
    refine Finset.sum_congr rfl fun p _ => ?_
    refine (select_apply _ _ _ p).trans ?_
    rw [pay3_apply]
    by_cases hp : (l p).toNat = k.val + 1
    · rw [if_pos hp, if_pos hp, select_one]
      rfl
    · rw [if_neg hp, if_neg hp, select_zero]
      exact Ideal.ofBits_zero_f32
  · rw [if_neg e, if_neg e, mul_zero]

/-- The loop over the labels 1..63, lane by lane: if every trip `k` adds `T (k + 1)` at lane `k + 1` and nothing elsewhere,
    the loop adds `T j` at every lane `j ≥ 1` and nothing at lane 0. -/
private theorem fold_lane (x : Vec Ideal S2048x128 .f32) (l : Vec Ideal S2048x128 .i32)
    (proj : Vec Ideal S1x64 .f32 × Vec Ideal S1x64 .f32 → Vec Ideal S1x64 .f32) (T : Nat → EReal)
    (hstep : ∀ (k : Fin k0_t1_loop.trips) (acc : Vec Ideal S1x64 .f32 × Vec Ideal S1x64 .f32) (j : Fin 64),
      (proj (loopG x l k acc) (ix2 (0 : Fin 1) j) : EReal)
        = proj acc (ix2 (0 : Fin 1) j) + (if j.val = k.val + 1 then T (k.val + 1) else 0))
    (s : Vec Ideal S1x64 .f32 × Vec Ideal S1x64 .f32) (j : Fin 64) :
    (proj (Scf.fold (loopG x l) s) (ix2 (0 : Fin 1) j) : EReal)
      = proj s (ix2 (0 : Fin 1) j) + (if 1 ≤ j.val then T j.val else 0) := by
  have inv := fold_inv (loopG x l) s
    (fun n acc => ∀ j : Fin 64, (proj acc (ix2 (0 : Fin 1) j) : EReal)
      = proj s (ix2 (0 : Fin 1) j) + (if 1 ≤ j.val ∧ j.val ≤ n then T j.val else 0))
    (fun j => by rw [if_neg (by omega), add_zero])
    (fun k acc ih j => by
      rw [hstep k acc j, ih j, add_assoc]
      congr 1
      by_cases e : j.val = k.val + 1
      · rw [if_pos e, if_neg (by omega), if_pos (by omega), zero_add, e]
      · rw [if_neg e, add_zero]
        by_cases c : 1 ≤ j.val ∧ j.val ≤ k.val
        · rw [if_pos c, if_pos (by omega)]
        · rw [if_neg c, if_neg (by omega)])
  rw [inv j]
  congr 1
  have hj := j.isLt
  have ht := trips_eq
  by_cases c : 1 ≤ j.val
  · rw [if_pos c, if_pos (by omega)]
  · rw [if_neg c, if_neg (by omega)]

/-- One point's effect on the sums, lane by lane. -/
theorem step_fst_apply (x : Vec Ideal S2048x128 .f32) (l : Vec Ideal S2048x128 .i32)
    (s : Vec Ideal S1x64 .f32 × Vec Ideal S1x64 .f32) (j : Fin 64) :
    ((step x l s).1 (ix2 (0 : Fin 1) j) : EReal)
      = s.1 (ix2 (0 : Fin 1) j) + (if 1 ≤ j.val then ∑ p : S2048x128.Idx, (if (l p).toNat = j.val then (x p : EReal) else 0) else 0) := by
  show (k0_pay7 (Scf.fold (loopG x l) s).1 (ix2 (0 : Fin 1) j) : EReal) = _
  unfold k0_pay7
  simp only [shapeCast_self]
  exact fold_lane x l Prod.fst (fun v => ∑ p : S2048x128.Idx, (if (l p).toNat = v then (x p : EReal) else 0))
    (fun k acc j => pay5_apply x l k acc.1 j) s j

/-- One point's effect on the counts, lane by lane. -/
theorem step_snd_apply (x : Vec Ideal S2048x128 .f32) (l : Vec Ideal S2048x128 .i32)
    (s : Vec Ideal S1x64 .f32 × Vec Ideal S1x64 .f32) (j : Fin 64) :
    ((step x l s).2 (ix2 (0 : Fin 1) j) : EReal)
      = s.2 (ix2 (0 : Fin 1) j) + (if 1 ≤ j.val then ∑ p : S2048x128.Idx, (if (l p).toNat = j.val then (oneF : EReal) else 0) else 0) := by
  show (k0_pay8 (Scf.fold (loopG x l) s).2 (ix2 (0 : Fin 1) j) : EReal) = _
  unfold k0_pay8
  simp only [shapeCast_self]
  exact fold_lane x l Prod.snd (fun v => ∑ p : S2048x128.Idx, (if (l p).toNat = v then (oneF : EReal) else 0))
    (fun k acc j => pay6_apply l k acc.2 j) s j

end Cert.Value

end
-- ==== Proof.Value.ApplyValue.lean ====
import proofs.«416137_j84267258347944_3_alg».proof.Proof.KernelIdealHand.R1
import proofs.«416137_j84267258347944_3_alg».proof.Proof.Value.PayloadMath

/-! The apply region's output array after the run: the blocks of 4096 rows tile it, and block t is what point t
    stored, so at every entry the array holds the value there less the table's lane named by the label there. -/

noncomputable section

namespace Cert.Value

open Idealize.ShloMosaic Idealize.ShloMosaic.TcCoe Idealize.ShloMosaic.ValueIdx Idealize.SL.Sem
open Cert.KernelIdeal Cert.KernelIdeal.Gen Cert.KernelIdeal.Hand Cert.Spec
open scoped BigOperators

open Idealize.ShloMosaic.Pipeline (Dat)

/-- The table lane a label names, made total: the label's value modulo the table's 128 lanes. -/
def applyLane (v : BitVec 32) : Fin 128 := ⟨v.toNat % 128, Nat.mod_lt _ (by decide)⟩

/-- A label below 128 names its own lane. -/
theorem applyLane_of_lt (v : BitVec 32) (h : v.toNat < 128) : (⟨v.toNat, h⟩ : Fin 128) = applyLane v :=
  Fin.ext (Nat.mod_eq_of_lt h).symm

section
variable {F : FTy → Type} [FloatOps F]
variable (V : (c : Dev nD) → (b : Ref sig .tc) → Buf (Elt F) ((c : Thread nD τ).loc b)) (c : Dev nD)

/-- The whole output array as one function of the three input arrays: at every entry the value there less
    the table's lane named by the label there. -/
def applyG : S196608x128.Idx → Elt F .f32 := fun i =>
  FloatOps.subf (V c main_v0 i) (V c main_v14 (ix2 (0 : Fin 1) (applyLane (V c main_v1 i))))

/-- The printed block-index maps, decided over the 48 points: the table's block is always block (0, 0), and
    the output's block at point `t` is block (t, 0). -/
theorem apply_blockIndex : ∀ t : Fin cfg1.N,
    win1_0.index t (0 : Fin 2) = 0 ∧ win1_0.index t (1 : Fin 2) = 0
    ∧ win1_3.index t (0 : Fin 2) = t.val ∧ win1_3.index t (1 : Fin 2) = 0 :=
  (by decide +kernel : ∀ t : Fin grid1.N, _)

/-- The values' block at point `t`, entry by entry, is the values' array at the output block's entries. -/
theorem apply_valuesBlock (t : Fin cfg1.N) (j : S4096x128.Idx) :
    iblk1 V c 1 t j = V c main_v0 (((cfg1.win 3).blk t).view.emb j) := by
  -- the two windows have the same block-index map, so the same entries of the array lie under both blocks
  show V c main_v0 (((cfg1.win 1).blk t).view.emb j) = V c main_v0 (((cfg1.win 3).blk t).view.emb j)
  congr 1

/-- The labels' block likewise. -/
theorem apply_labelsBlock (t : Fin cfg1.N) (j : S4096x128.Idx) :
    iblk1 V c 2 t j = V c main_v1 (((cfg1.win 3).blk t).view.emb j) := by
  show V c main_v1 (((cfg1.win 2).blk t).view.emb j) = V c main_v1 (((cfg1.win 3).blk t).view.emb j)
  congr 1

/-- The table's block at every point is the whole table. -/
theorem apply_tableBlock (t : Fin cfg1.N) (p : S1x128.Idx) : iblk1 V c 0 t p = V c main_v14 p := by
  obtain ⟨e00, e01, -, -⟩ := apply_blockIndex t
  show V c main_v14 (((cfg1.win 0).blk t).view.emb p) = V c main_v14 p
  congr 1
  funext a; apply Fin.ext
  match a with
  | ⟨0, _⟩ => show win1_0.index t (0 : Fin 2) * 1 + 1 * (p 0).val = (p 0).val; omega
  | ⟨1, _⟩ => show win1_0.index t (1 : Fin 2) * 128 + 1 * (p 1).val = (p 1).val; omega

/-- What point `t` writes back is block `t` of the whole-array function, when every label is in range. -/
theorem apply_flushed_eq (hl : ∀ j, (V c main_v1 j).toNat < 64) (t : Fin cfg1.N) :
    (dat1 V c).flushed 3 t = ((cfg1.win 3).blk t).view.read (Elt F) (applyG V c) := by
  show (cfg1.win 3).cut (grid1.coords t) ((dat1 V c).after 3 t) = _
  rw [after1_3]
  funext j
  obtain ⟨r, q, rfl⟩ : ∃ (r : Fin 4096) (q : Fin 128), j = ix2 r q := ⟨j 0, j 1, eq_ix2 j⟩
  have hlab : (iblk1 V c 2 t (ix2 r q)).toNat < 64 := by rw [apply_labelsBlock]; exact hl _
  show k1_pay1 (iblk1 V c 1 t) (iblk1 V c 2 t) (iblk1 V c 0 t) (ix2 r q) = applyG V c (((cfg1.win 3).blk t).view.emb (ix2 r q))
  rw [k1_pay1_apply _ _ _ r q hlab, apply_tableBlock, applyLane_of_lt, apply_valuesBlock, apply_labelsBlock]
  rfl

/-- An entry of the array is in point `t`'s block iff each coordinate is in the block's range on its axis. -/
theorem apply_mem_block (t : Fin cfg1.N) (i : S196608x128.Idx) :
    i ∈ ((cfg1.win 3).blk t).view.set ↔ ∀ a : Fin 2, win1_3.index t a * S4096x128.size a ≤ (i a).val ∧ (i a).val < win1_3.index t a * S4096x128.size a + S4096x128.size a := by
  show i ∈ ((View.whole main_v15).slice (win1_3.rect t)).set ↔ _
  rw [View.set_slice_whole, Rect.mem_set_unit]
  exact Iff.rfl

/-- The blocks of 4096 rows tile the array: row `R` lies in the block of point `R / 4096`, and every point
    writes its block back. -/
theorem apply_covered (i : S196608x128.Idx) :
    ∃ t : Fin cfg1.N, (cfg1.win 3).flush t = true ∧ i ∈ ((cfg1.win 3).blk t).view.set := by
  have hi0 : (i 0).val < 196608 := (i 0).isLt
  have hi1 : (i 1).val < 128 := (i 1).isLt
  have hN : cfg1.N = 48 := N_1
  let t : Fin cfg1.N := ⟨(i 0).val / 4096, by omega⟩
  have ht : t.val = (i 0).val / 4096 := rfl
  obtain ⟨-, -, e30, e31⟩ := apply_blockIndex t
  refine ⟨t, flush1_3 t, ?_⟩
  rw [apply_mem_block]
  intro a
  match a with
  | ⟨0, _⟩ => show win1_3.index t (0 : Fin 2) * 4096 ≤ (i 0).val ∧ (i 0).val < win1_3.index t (0 : Fin 2) * 4096 + 4096; omega
  | ⟨1, _⟩ => show win1_3.index t (1 : Fin 2) * 128 ≤ (i 1).val ∧ (i 1).val < win1_3.index t (1 : Fin 2) * 128 + 128; omega

/-- The output array after the run is the whole-array function, when every label is in range. -/
theorem arr1_eq (hl : ∀ j, (V c main_v1 j).toNat < 64) : (dat1 V c).arrAt 3 cfg1.N = applyG V c :=
  (dat1 V c).arrAt_eq_of_cover 3 (applyG V c) (fun t _ => apply_flushed_eq V c hl t) (apply_covered)

end

/-- The output array of the apply region, entry by entry, when every label is in range. -/
theorem arr1_final {F : FTy → Type} [FloatOps F]
    (V : (c : Dev nD) → (b : Ref sig .tc) → Buf (Elt F) ((c : Thread nD τ).loc b)) (c : Dev nD)
    (hl : ∀ j, (V c main_v1 j).toNat < 64) (R : Fin 196608) (q : Fin 128) :
    (dat1 V c).arrAt 3 cfg1.N (ix2 R q)
      = FloatOps.subf (V c main_v0 (ix2 R q)) (V c main_v14 (ix2 (0 : Fin 1) (⟨(V c main_v1 (ix2 R q)).toNat, by have := hl (ix2 R q); omega⟩ : Fin 128))) := by
  rw [arr1_eq V c hl, applyLane_of_lt]
  rfl

end Cert.Value

end
-- ==== Proof.Value.ReduceValue.lean ====
import proofs.«416137_j84267258347944_3_alg».proof.Proof.KernelIdealHand.R0Dat
import proofs.«416137_j84267258347944_3_alg».proof.Proof.Value.PayloadMath

/-! The reduction region's two output arrays after the run. Core c' 's row is written once, after the core's
    last point, with the accumulators; they were reset at the core's first point and every point added its block,
    so lane v ≥ 1 of the row holds the sum (count) over the core's 48 blocks of the entries labelled v, and lane 0
    holds zero. -/

noncomputable section

namespace Cert.Value

open Idealize.ShloMosaic Idealize.ShloMosaic.TcCoe Idealize.ShloMosaic.ValueIdx Idealize.SL.Sem
open Cert.KernelIdeal Cert.KernelIdeal.Gen Cert.KernelIdeal.Hand Cert.Spec
open scoped BigOperators

/-- The sum over core c' 's 48 blocks of 2048 rows of the entries labelled v. -/
def coreSum (X : FVec Ideal S196608x128 .f32) (Lb : IVec S196608x128 32) (c' : Fin 2) (v : ℕ) : EReal :=
  ∑ i : Fin 48, ∑ r : Fin 2048, ∑ q : Fin 128,
    if (Lb (ix2 (⟨(c'.val * 48 + i.val) * 2048 + r.val, by have := c'.isLt; have := i.isLt; have := r.isLt; omega⟩ : Fin 196608) q)).toNat = v
    then (X (ix2 (⟨(c'.val * 48 + i.val) * 2048 + r.val, by have := c'.isLt; have := i.isLt; have := r.isLt; omega⟩ : Fin 196608) q) : EReal) else 0

/-- Their number, as a sum of ones. -/
def coreCnt (Lb : IVec S196608x128 32) (c' : Fin 2) (v : ℕ) : EReal :=
  ∑ i : Fin 48, ∑ r : Fin 2048, ∑ q : Fin 128,
    if (Lb (ix2 (⟨(c'.val * 48 + i.val) * 2048 + r.val, by have := c'.isLt; have := i.isLt; have := r.isLt; omega⟩ : Fin 196608) q)).toNat = v
    then (oneF : EReal) else 0

/-! The lemmas of this module, in a namespace of their own; the two results follow it. -/
namespace Reduce

section
variable (V : (c : Dev nD) → (b : Ref sig .tc) → Buf (Elt Ideal) ((c : Thread nD τ).loc b))

/-- A point's value block and label block, at their literal types. -/
abbrev xblk (c : Dev nD) (t : Fin cfg0.N) : Vec Ideal S2048x128 .f32 := iblk0 (F := Ideal) V c 0 t
abbrev lblk (c : Dev nD) (t : Fin cfg0.N) : Vec Ideal S2048x128 .i32 := iblk0 (F := Ideal) V c 1 t

/-- What the point at position `n` adds at lane `v`: the sum of its block's entries labelled `v` (nothing past the grid). -/
def ptSum (c : Dev nD) (v : ℕ) (n : ℕ) : EReal :=
  if h : n < cfg0.N then ∑ p : S2048x128.Idx, (if (lblk V c ⟨n, h⟩ p).toNat = v then (xblk V c ⟨n, h⟩ p : EReal) else 0) else 0

/-- Their number, as a sum of ones. -/
def ptCnt (c : Dev nD) (v : ℕ) (n : ℕ) : EReal :=
  if h : n < cfg0.N then ∑ p : S2048x128.Idx, (if (lblk V c ⟨n, h⟩ p).toNat = v then (oneF : EReal) else 0) else 0

/-- The accumulators at equal positions and equal lanes. -/
theorem sc1_congr (c : Dev nD) {n n' : ℕ} (h : n < cfg0.N) (h' : n' < cfg0.N) (e : n = n') {a a' : Fin 64} (ea : a.val = a'.val) :
    (scAt V c n h).1 (ix2 (0 : Fin 1) a) = (scAt V c n' h').1 (ix2 (0 : Fin 1) a') := by
  subst e; obtain rfl : a = a' := Fin.ext ea; rfl
theorem sc2_congr (c : Dev nD) {n n' : ℕ} (h : n < cfg0.N) (h' : n' < cfg0.N) (e : n = n') {a a' : Fin 64} (ea : a.val = a'.val) :
    (scAt V c n h).2 (ix2 (0 : Fin 1) a) = (scAt V c n' h').2 (ix2 (0 : Fin 1) a') := by
  subst e; obtain rfl : a = a' := Fin.ext ea; rfl

/-- After the point at offset `i` of the run of 48 points starting at `q * 48`, lane `j ≥ 1` of the first accumulator
    holds the sum of what the run's points so far added there, and lane 0 holds zero. -/
theorem acc_fst (c : Dev nD) (q : ℕ) (j : Fin 64) : ∀ (i : ℕ) (hi : i < 48) (h : q * 48 + i < cfg0.N),
    ((scAt V c (q * 48 + i) h).1 (ix2 (0 : Fin 1) j) : EReal)
      = if 1 ≤ j.val then ∑ s ∈ Finset.range (i + 1), ptSum V c j.val (q * 48 + s) else 0
  | 0, _, h => by
    have h0 : (⟨q * 48 + 0, h⟩ : Fin cfg0.N).val % 48 = 0 := by show (q * 48 + 0) % 48 = 0; omega
    rw [scAt_first V c ⟨q * 48 + 0, h⟩ h0]
    refine (step_fst_apply (xblk V c ⟨q * 48 + 0, h⟩) (lblk V c ⟨q * 48 + 0, h⟩) (zero2 (F := Ideal)) j).trans ?_
    have e : ptSum V c j.val (q * 48 + 0) = _ := dif_pos h
    rw [zero2_fst_apply, zero_add, Finset.sum_range_one, e]
  | i + 1, hi, h => by
    have hne : ¬(⟨q * 48 + (i + 1), h⟩ : Fin cfg0.N).val % 48 = 0 := by show ¬(q * 48 + (i + 1)) % 48 = 0; omega
    rw [scAt_next V c ⟨q * 48 + (i + 1), h⟩ hne]
    refine (step_fst_apply (xblk V c ⟨q * 48 + (i + 1), h⟩) (lblk V c ⟨q * 48 + (i + 1), h⟩) _ j).trans ?_
    have e : ptSum V c j.val (q * 48 + (i + 1)) = _ := dif_pos h
    have ec := sc1_congr V c (n := q * 48 + (i + 1) - 1) (n' := q * 48 + i) (Nat.lt_of_le_of_lt (Nat.sub_le _ _) h)
      (Nat.lt_of_succ_lt h) (by omega) (a := j) (a' := j) rfl
    rw [ec, acc_fst c q j i (Nat.lt_of_succ_lt hi) (Nat.lt_of_succ_lt h)]
    by_cases hj : 1 ≤ j.val
    · rw [if_pos hj, if_pos hj, if_pos hj, Finset.sum_range_succ _ (i + 1), e]
    · rw [if_neg hj, if_neg hj, if_neg hj, add_zero]

/-- The same of the second accumulator and the counts. -/
theorem acc_snd (c : Dev nD) (q : ℕ) (j : Fin 64) : ∀ (i : ℕ) (hi : i < 48) (h : q * 48 + i < cfg0.N),
    ((scAt V c (q * 48 + i) h).2 (ix2 (0 : Fin 1) j) : EReal)
      = if 1 ≤ j.val then ∑ s ∈ Finset.range (i + 1), ptCnt V c j.val (q * 48 + s) else 0
  | 0, _, h => by
    have h0 : (⟨q * 48 + 0, h⟩ : Fin cfg0.N).val % 48 = 0 := by show (q * 48 + 0) % 48 = 0; omega
    rw [scAt_first V c ⟨q * 48 + 0, h⟩ h0]
    refine (step_snd_apply (xblk V c ⟨q * 48 + 0, h⟩) (lblk V c ⟨q * 48 + 0, h⟩) (zero2 (F := Ideal)) j).trans ?_
    have e : ptCnt V c j.val (q * 48 + 0) = _ := dif_pos h
    rw [zero2_snd_apply, zero_add, Finset.sum_range_one, e]
  | i + 1, hi, h => by
    have hne : ¬(⟨q * 48 + (i + 1), h⟩ : Fin cfg0.N).val % 48 = 0 := by show ¬(q * 48 + (i + 1)) % 48 = 0; omega
    rw [scAt_next V c ⟨q * 48 + (i + 1), h⟩ hne]
    refine (step_snd_apply (xblk V c ⟨q * 48 + (i + 1), h⟩) (lblk V c ⟨q * 48 + (i + 1), h⟩) _ j).trans ?_
    have e : ptCnt V c j.val (q * 48 + (i + 1)) = _ := dif_pos h
    have ec := sc2_congr V c (n := q * 48 + (i + 1) - 1) (n' := q * 48 + i) (Nat.lt_of_le_of_lt (Nat.sub_le _ _) h)
      (Nat.lt_of_succ_lt h) (by omega) (a := j) (a' := j) rfl
    rw [ec, acc_snd c q j i (Nat.lt_of_succ_lt hi) (Nat.lt_of_succ_lt h)]
    by_cases hj : 1 ≤ j.val
    · rw [if_pos hj, if_pos hj, if_pos hj, Finset.sum_range_succ _ (i + 1), e]
    · rw [if_neg hj, if_neg hj, if_neg hj, add_zero]

end

section
variable (V : (c : Dev nD) → (b : Ref sig .tc) → Buf (Elt Ideal) ((c : Thread nD τ).loc b))

/-! ## A block entry is an array entry -/

/-- The printed index maps, decided over the grid: the inputs' block index is the point's position; the outputs'
    is the core's. -/
theorem idx_in0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem idx_in1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem idx_out2 : ∀ t : Fin cfg0.N, win0_2.index t (0 : Fin 3) = t.val / 48 ∧ win0_2.index t (1 : Fin 3) = 0 ∧ win0_2.index t (2 : Fin 3) = 0 :=
  (by decide +kernel : ∀ t : Fin grid0.N, win0_2.index t (0 : Fin 3) = t.val / 48 ∧ win0_2.index t (1 : Fin 3) = 0 ∧ win0_2.index t (2 : Fin 3) = 0)
theorem idx_out3 : ∀ t : Fin cfg0.N, win0_3.index t (0 : Fin 3) = t.val / 48 ∧ win0_3.index t (1 : Fin 3) = 0 ∧ win0_3.index t (2 : Fin 3) = 0 :=
  (by decide +kernel : ∀ t : Fin grid0.N, win0_3.index t (0 : Fin 3) = t.val / 48 ∧ win0_3.index t (1 : Fin 3) = 0 ∧ win0_3.index t (2 : Fin 3) = 0)

/-- Entry (r, q) of the value block at point `t` is entry (t * 2048 + r, q) of the value array. -/
theorem xblk_apply (c : Dev nD) (t : Fin cfg0.N) (r : Fin 2048) (q : Fin 128) (R : Fin 196608) (hR : R.val = t.val * 2048 + r.val) :
    xblk V c t (ix2 r q) = (V c main_v0 : S196608x128.Idx → Ideal .f32) (ix2 R q) := by
  obtain ⟨e0, e1⟩ := idx_in0 t
  unfold xblk iblk0
  rw [View.read_apply]
  show V c main_v0 (((cfg0.win 0).blk t).view.emb (ix2 r q)) = V c main_v0 (ix2 R q)
  congr 1
  funext a
  apply Fin.ext
  match a with
  | ⟨0, _⟩ => show win0_0.index t (0 : Fin 2) * 2048 + 1 * r.val = R.val; rw [e0, hR]; omega
  | ⟨1, _⟩ => show win0_0.index t (1 : Fin 2) * 128 + 1 * q.val = q.val; rw [e1]; omega

/-- The same of the label block. -/
theorem lblk_apply (c : Dev nD) (t : Fin cfg0.N) (r : Fin 2048) (q : Fin 128) (R : Fin 196608) (hR : R.val = t.val * 2048 + r.val) :
    lblk V c t (ix2 r q) = (V c main_v1 : IVec S196608x128 32) (ix2 R q) := by
  obtain ⟨e0, e1⟩ := idx_in1 t
  unfold lblk iblk0
  rw [View.read_apply]
  show V c main_v1 (((cfg0.win 1).blk t).view.emb (ix2 r q)) = V c main_v1 (ix2 R q)
  congr 1
  funext a
  apply Fin.ext
  match a with
  | ⟨0, _⟩ => show win0_1.index t (0 : Fin 2) * 2048 + 1 * r.val = R.val; rw [e0, hR]; omega
  | ⟨1, _⟩ => show win0_1.index t (1 : Fin 2) * 128 + 1 * q.val = q.val; rw [e1]; omega

/-- A core's 48 points add, together, the core's sum. -/
theorem run_sum (c : Dev nD) (c' : Fin 2) (v : ℕ) :
    ∑ s ∈ Finset.range 48, ptSum V c v (c'.val * 48 + s) = coreSum (V c main_v0) (V c main_v1) c' v := by
  have hN : cfg0.N = 96 := N_0
  have hc : c'.val < 2 := c'.isLt
  rw [Finset.sum_range]
  unfold coreSum
  refine Finset.sum_congr rfl fun i _ => ?_
  have hi : i.val < 48 := i.isLt
  have ht : c'.val * 48 + i.val < cfg0.N := by omega
  refine (dif_pos ht : ptSum V c v (c'.val * 48 + i.val) = _).trans ?_
  rw [sum_idx2]
  refine Finset.sum_congr rfl fun r _ => Finset.sum_congr rfl fun q _ => ?_
  have hr : r.val < 2048 := r.isLt
  rw [xblk_apply V c ⟨c'.val * 48 + i.val, ht⟩ r q ⟨(c'.val * 48 + i.val) * 2048 + r.val, by omega⟩ rfl,
    lblk_apply V c ⟨c'.val * 48 + i.val, ht⟩ r q ⟨(c'.val * 48 + i.val) * 2048 + r.val, by omega⟩ rfl]

theorem run_cnt (c : Dev nD) (c' : Fin 2) (v : ℕ) :
    ∑ s ∈ Finset.range 48, ptCnt V c v (c'.val * 48 + s) = coreCnt (V c main_v1) c' v := by
  have hN : cfg0.N = 96 := N_0
  have hc : c'.val < 2 := c'.isLt
  rw [Finset.sum_range]
  unfold coreCnt
  refine Finset.sum_congr rfl fun i _ => ?_
  have hi : i.val < 48 := i.isLt
  have ht : c'.val * 48 + i.val < cfg0.N := by omega
  refine (dif_pos ht : ptCnt V c v (c'.val * 48 + i.val) = _).trans ?_
  rw [sum_idx2]
  refine Finset.sum_congr rfl fun r _ => Finset.sum_congr rfl fun q _ => ?_
  have hr : r.val < 2048 := r.isLt
  rw [lblk_apply V c ⟨c'.val * 48 + i.val, ht⟩ r q ⟨(c'.val * 48 + i.val) * 2048 + r.val, by omega⟩ rfl]

/-! ## The two output arrays after the run -/

/-- The accumulators copied out, read at any index of the block: its last coordinate names the lane. -/
theorem pay9_at (v : Vec Ideal S1x64 .f32) (y : S1x1x64.Idx) :
    k0_pay9 v y = v (ix2 (0 : Fin 1) (⟨(y 2).val, (y 2).isLt⟩ : Fin 64)) := by
  have hy : y = ix3 (0 : Fin 1) (0 : Fin 1) (⟨(y 2).val, (y 2).isLt⟩ : Fin 64) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  exact (congrArg (k0_pay9 v) hy).trans (k0_pay9_apply v _)
theorem pay10_at (v : Vec Ideal S1x64 .f32) (y : S1x1x64.Idx) :
    k0_pay10 v y = v (ix2 (0 : Fin 1) (⟨(y 2).val, (y 2).isLt⟩ : Fin 64)) := by
  have hy : y = ix3 (0 : Fin 1) (0 : Fin 1) (⟨(y 2).val, (y 2).isLt⟩ : Fin 64) := by
    funext a
    match a with
    | ⟨0, _⟩ => exact Fin.ext (by have h : (y 0).val < 1 := (y 0).isLt; show (y 0).val = 0; omega)
    | ⟨1, _⟩ => exact Fin.ext (by have h : (y 1).val < 1 := (y 1).isLt; show (y 1).val = 0; omega)
    | ⟨2, _⟩ => rfl
  exact (congrArg (k0_pay10 v) hy).trans (k0_pay10_apply v _)

/-- What the first output array ends holding: row c' is the first accumulator after core c' 's last point. -/
def sumsG (c : Dev nD) : S2x1x64.Idx → Ideal .f32 := fun i =>
  (scAt V c ((i 0).val * 48 + 47) (by have h : (i 0).val < 2 := (i 0).isLt; rw [show cfg0.N = 96 from N_0]; omega)).1
    (ix2 (0 : Fin 1) (⟨(i 2).val, (i 2).isLt⟩ : Fin 64))
/-- The second: the second accumulator there. -/
def cntsG (c : Dev nD) : S2x1x64.Idx → Ideal .f32 := fun i =>
  (scAt V c ((i 0).val * 48 + 47) (by have h : (i 0).val < 2 := (i 0).isLt; rw [show cfg0.N = 96 from N_0]; omega)).2
    (ix2 (0 : Fin 1) (⟨(i 2).val, (i 2).isLt⟩ : Fin 64))

/-- What a core's last point writes back is its block of that. -/
theorem flushed2_eq (c : Dev nD) (t : Fin cfg0.N) (hf : (cfg0.win 2).flush t = true) :
    (dat0 V c).flushed 2 t = ((cfg0.win 2).blk t).view.read (Elt Ideal) (sumsG V c) := by
  have h47 : t.val % 48 = 47 := (flush0_2 t).mp hf
  obtain ⟨e0, e1, e2⟩ := idx_out2 t
  show (cfg0.win 2).cut (grid0.coords t) ((dat0 V c).after 2 t) = _
  rw [after0_2]
  funext y
  rw [View.read_apply]
  show k0_pay9 (scAt V c t.val t.isLt).1 y = sumsG V c (((cfg0.win 2).blk t).view.emb y)
  refine (pay9_at _ y).trans ?_
  have a0 : ((((cfg0.win 2).blk t).view.emb y) 0).val = t.val / 48 := by
    show win0_2.index t (0 : Fin 3) * 1 + 1 * (y 0).val = t.val / 48
    have h : (y 0).val < 1 := (y 0).isLt
    rw [e0]; omega
  have a2 : ((((cfg0.win 2).blk t).view.emb y) 2).val = (y 2).val := by
    show win0_2.index t (2 : Fin 3) * 64 + 1 * (y 2).val = (y 2).val
    rw [e2]; omega
  unfold sumsG
  exact sc1_congr V c _ _ (by rw [a0]; omega) a2.symm

theorem flushed3_eq (c : Dev nD) (t : Fin cfg0.N) (hf : (cfg0.win 3).flush t = true) :
    (dat0 V c).flushed 3 t = ((cfg0.win 3).blk t).view.read (Elt Ideal) (cntsG V c) := by
  have h47 : t.val % 48 = 47 := (flush0_3 t).mp hf
  obtain ⟨e0, e1, e2⟩ := idx_out3 t
  show (cfg0.win 3).cut (grid0.coords t) ((dat0 V c).after 3 t) = _
  rw [after0_3]
  funext y
  rw [View.read_apply]
  show k0_pay10 (scAt V c t.val t.isLt).2 y = cntsG V c (((cfg0.win 3).blk t).view.emb y)
  refine (pay10_at _ y).trans ?_
  have a0 : ((((cfg0.win 3).blk t).view.emb y) 0).val = t.val / 48 := by
    show win0_3.index t (0 : Fin 3) * 1 + 1 * (y 0).val = t.val / 48
    have h : (y 0).val < 1 := (y 0).isLt
    rw [e0]; omega
  have a2 : ((((cfg0.win 3).blk t).view.emb y) 2).val = (y 2).val := by
    show win0_3.index t (2 : Fin 3) * 64 + 1 * (y 2).val = (y 2).val
    rw [e2]; omega
  unfold cntsG
  exact sc2_congr V c _ _ (by rw [a0]; omega) a2.symm

/-- Row c' of the output array lies in the block core c' 's last point writes back. -/
theorem mem_blk2 (c' : Fin 2) (j : Fin 64) (t : Fin cfg0.N) (ht : t.val = c'.val * 48 + 47) :
    ix3 c' (0 : Fin 1) j ∈ ((cfg0.win 2).blk t).view.set := by
  obtain ⟨e0, e1, e2⟩ := idx_out2 t
  have hc : c'.val < 2 := c'.isLt
  have hj : j.val < 64 := j.isLt
  show ix3 c' (0 : Fin 1) j ∈ ((View.whole main_v2_0).slice (win0_2.rect t)).set
  rw [View.set_slice_whole, Rect.mem_set_unit]
  intro a
  match a with
  | ⟨0, _⟩ => show win0_2.index t (0 : Fin 3) * 1 ≤ c'.val ∧ c'.val < win0_2.index t (0 : Fin 3) * 1 + 1; rw [e0, ht]; omega
  | ⟨1, _⟩ => show win0_2.index t (1 : Fin 3) * 1 ≤ 0 ∧ 0 < win0_2.index t (1 : Fin 3) * 1 + 1; rw [e1]; omega
  | ⟨2, _⟩ => show win0_2.index t (2 : Fin 3) * 64 ≤ j.val ∧ j.val < win0_2.index t (2 : Fin 3) * 64 + 64; rw [e2]; omega
theorem mem_blk3 (c' : Fin 2) (j : Fin 64) (t : Fin cfg0.N) (ht : t.val = c'.val * 48 + 47) :
    ix3 c' (0 : Fin 1) j ∈ ((cfg0.win 3).blk t).view.set := by
  obtain ⟨e0, e1, e2⟩ := idx_out3 t
  have hc : c'.val < 2 := c'.isLt
  have hj : j.val < 64 := j.isLt
  show ix3 c' (0 : Fin 1) j ∈ ((View.whole main_v2_1).slice (win0_3.rect t)).set
  rw [View.set_slice_whole, Rect.mem_set_unit]
  intro a
  match a with
  | ⟨0, _⟩ => show win0_3.index t (0 : Fin 3) * 1 ≤ c'.val ∧ c'.val < win0_3.index t (0 : Fin 3) * 1 + 1; rw [e0, ht]; omega
  | ⟨1, _⟩ => show win0_3.index t (1 : Fin 3) * 1 ≤ 0 ∧ 0 < win0_3.index t (1 : Fin 3) * 1 + 1; rw [e1]; omega
  | ⟨2, _⟩ => show win0_3.index t (2 : Fin 3) * 64 ≤ j.val ∧ j.val < win0_3.index t (2 : Fin 3) * 64 + 64; rw [e2]; omega

end

end Reduce

open Reduce

theorem sums_final (V : (c : Dev nD) → (b : Ref sig .tc) → Buf (Elt Ideal) ((c : Thread nD τ).loc b)) (c : Dev nD) (c' : Fin 2) (j : Fin 64) :
    ((dat0 (F := Ideal) V c).arrAt 2 cfg0.N (ix3 c' (0 : Fin 1) j) : EReal)
      = if 1 ≤ j.val then coreSum (V c main_v0) (V c main_v1) c' j.val else 0 := by
  have hN : cfg0.N = 96 := N_0
  have hc : c'.val < 2 := c'.isLt
  have ht : c'.val * 48 + 47 < cfg0.N := by omega
  have hf : (cfg0.win 2).flush ⟨c'.val * 48 + 47, ht⟩ = true :=
    (flush0_2 ⟨c'.val * 48 + 47, ht⟩).mpr (by show (c'.val * 48 + 47) % 48 = 47; omega)
  refine ((dat0 (F := Ideal) V c).arrAt_apply_of_mem 2 (sumsG V c) (fun t hf => flushed2_eq V c t hf) cfg0.N
    ⟨c'.val * 48 + 47, ht⟩ (ix3 c' (0 : Fin 1) j) ht hf (mem_blk2 c' j _ rfl)).trans ?_
  show ((scAt V c (c'.val * 48 + 47) _).1 (ix2 (0 : Fin 1) (⟨j.val, _⟩ : Fin 64)) : EReal) = _
  rw [acc_fst V c c'.val ⟨j.val, j.isLt⟩ 47 (by omega) ht, run_sum V c c' j.val]

theorem cnts_final (V : (c : Dev nD) → (b : Ref sig .tc) → Buf (Elt Ideal) ((c : Thread nD τ).loc b)) (c : Dev nD) (c' : Fin 2) (j : Fin 64) :
    ((dat0 (F := Ideal) V c).arrAt 3 cfg0.N (ix3 c' (0 : Fin 1) j) : EReal)
      = if 1 ≤ j.val then coreCnt (V c main_v1) c' j.val else 0 := by
  have hN : cfg0.N = 96 := N_0
  have hc : c'.val < 2 := c'.isLt
  have ht : c'.val * 48 + 47 < cfg0.N := by omega
  have hf : (cfg0.win 3).flush ⟨c'.val * 48 + 47, ht⟩ = true :=
    (flush0_3 ⟨c'.val * 48 + 47, ht⟩).mpr (by show (c'.val * 48 + 47) % 48 = 47; omega)
  refine ((dat0 (F := Ideal) V c).arrAt_apply_of_mem 3 (cntsG V c) (fun t hf => flushed3_eq V c t hf) cfg0.N
    ⟨c'.val * 48 + 47, ht⟩ (ix3 c' (0 : Fin 1) j) ht hf (mem_blk3 c' j _ rfl)).trans ?_
  show ((scAt V c (c'.val * 48 + 47) _).2 (ix2 (0 : Fin 1) (⟨j.val, _⟩ : Fin 64)) : EReal) = _
  rw [acc_snd V c c'.val ⟨j.val, j.isLt⟩ 47 (by omega) ht, run_cnt V c c' j.val]

end Cert.Value

end
-- ==== Proof.Value.SumSplit.lean ====
import proofs.«416137_j84267258347944_3_alg».proof.Proof.Value.Spec
import Idealize.ShloMosaic.Lib.ValueIdx
import Idealize.ShloMosaic.Lib.Pipeline.Value

/-! The arrays' indices. A [2,192,256,256] array, its [196608,128] reshape and its flat [25165824] reshape hold
    the same entries in row-major order; a sum over all entries may be taken over any of the three index sets, and
    over the flat index split as (core, block of the core, row of the block, lane). -/

noncomputable section

namespace Cert.Value

open Idealize.ShloMosaic Idealize.ShloMosaic.ValueIdx Cert.Spec
open scoped BigOperators

abbrev S2d : Shape := ⟨2, ![196608, 128]⟩
abbrev S1d : Shape := ⟨1, ![25165824]⟩

/-- The entry of the 4-axis array at flat position e. -/
def unflat (e : Fin 25165824) : T4.Idx := fun a => match a with
  | ⟨0, _⟩ => ⟨e.val / 12582912, by have h0 := e.isLt; show e.val / 12582912 < 2; omega⟩
  | ⟨1, _⟩ => ⟨e.val / 65536 % 192, by show e.val / 65536 % 192 < 192; omega⟩
  | ⟨2, _⟩ => ⟨e.val / 256 % 256, by show e.val / 256 % 256 < 256; omega⟩
  | ⟨3, _⟩ => ⟨e.val % 256, by show e.val % 256 < 256; omega⟩

/-- The flat position of an entry. -/
def flat (j : T4.Idx) : Fin 25165824 :=
  ⟨(((j 0).val * 192 + (j 1).val) * 256 + (j 2).val) * 256 + (j 3).val, by
    have h0 : (j 0).val < 2 := (j 0).isLt; have h1 : (j 1).val < 192 := (j 1).isLt
    have h2 : (j 2).val < 256 := (j 2).isLt; have h3 : (j 3).val < 256 := (j 3).isLt; omega⟩

theorem unflat_flat (j : T4.Idx) : unflat (flat j) = j := by
  have h0 : (j 0).val < 2 := (j 0).isLt; have h1 : (j 1).val < 192 := (j 1).isLt
  have h2 : (j 2).val < 256 := (j 2).isLt; have h3 : (j 3).val < 256 := (j 3).isLt
  funext a
  match a with
  | ⟨0, _⟩ =>
    exact Fin.ext (by
      show ((((j 0).val * 192 + (j 1).val) * 256 + (j 2).val) * 256 + (j 3).val) / 12582912 = (j 0).val; omega)
  | ⟨1, _⟩ =>
    exact Fin.ext (by
      show ((((j 0).val * 192 + (j 1).val) * 256 + (j 2).val) * 256 + (j 3).val) / 65536 % 192 = (j 1).val; omega)
  | ⟨2, _⟩ =>
    exact Fin.ext (by
      show ((((j 0).val * 192 + (j 1).val) * 256 + (j 2).val) * 256 + (j 3).val) / 256 % 256 = (j 2).val; omega)
  | ⟨3, _⟩ =>
    exact Fin.ext (by
      show ((((j 0).val * 192 + (j 1).val) * 256 + (j 2).val) * 256 + (j 3).val) % 256 = (j 3).val; omega)
theorem flat_unflat (e : Fin 25165824) : flat (unflat e) = e := by
  have h0 := e.isLt
  apply Fin.ext
  show ((e.val / 12582912 * 192 + e.val / 65536 % 192) * 256 + e.val / 256 % 256) * 256 + e.val % 256 = e.val
  omega

/-- The entries and the flat positions correspond one to one. -/
private def flatEquiv : Fin 25165824 ≃ T4.Idx where
  toFun := unflat
  invFun := flat
  left_inv := flat_unflat
  right_inv := unflat_flat

/-- A sum over all entries, by flat position. -/
theorem sum_unflat (g : T4.Idx → EReal) : ∑ e : Fin 25165824, g (unflat e) = ∑ j : T4.Idx, g j :=
  Equiv.sum_comp flatEquiv g

/-- (core, block, row, lane) and the flat positions correspond one to one: the position is
    ((c * 48 + i) * 2048 + r) * 128 + q, and the four parts are its quotients and remainders. -/
private def blkEquiv : (Fin 2 × Fin 48 × Fin 2048 × Fin 128) ≃ Fin 25165824 where
  toFun p := ⟨((p.1.val * 48 + p.2.1.val) * 2048 + p.2.2.1.val) * 128 + p.2.2.2.val, by
    have := p.1.isLt; have := p.2.1.isLt; have := p.2.2.1.isLt; have := p.2.2.2.isLt; omega⟩
  invFun e :=
    (⟨e.val / 12582912, by have := e.isLt; omega⟩, ⟨e.val / 262144 % 48, by omega⟩,
      ⟨e.val / 128 % 2048, by omega⟩, ⟨e.val % 128, by omega⟩)
  left_inv p := by
    obtain ⟨a, b, c, d⟩ := p
    have := a.isLt; have := b.isLt; have := c.isLt; have := d.isLt
    refine Prod.ext (Fin.ext ?_) (Prod.ext (Fin.ext ?_) (Prod.ext (Fin.ext ?_) (Fin.ext ?_)))
    · show (((a.val * 48 + b.val) * 2048 + c.val) * 128 + d.val) / 12582912 = a.val; omega
    · show (((a.val * 48 + b.val) * 2048 + c.val) * 128 + d.val) / 262144 % 48 = b.val; omega
    · show (((a.val * 48 + b.val) * 2048 + c.val) * 128 + d.val) / 128 % 2048 = c.val; omega
    · show (((a.val * 48 + b.val) * 2048 + c.val) * 128 + d.val) % 128 = d.val; omega
  right_inv e := by
    have := e.isLt
    apply Fin.ext
    show ((e.val / 12582912 * 48 + e.val / 262144 % 48) * 2048 + e.val / 128 % 2048) * 128 + e.val % 128 = e.val
    omega

/-- The flat positions, split as (core, block, row, lane). -/
theorem sum_blocks (g : Fin 25165824 → EReal) :
    ∑ c' : Fin 2, ∑ i : Fin 48, ∑ r : Fin 2048, ∑ q : Fin 128,
        g ⟨((c'.val * 48 + i.val) * 2048 + r.val) * 128 + q.val, by
          have := c'.isLt; have := i.isLt; have := r.isLt; have := q.isLt; omega⟩
      = ∑ e : Fin 25165824, g e := by
  rw [← Equiv.sum_comp blkEquiv g, Fintype.sum_prod_type]
  refine Finset.sum_congr rfl fun c' _ => ?_
  rw [Fintype.sum_prod_type]
  refine Finset.sum_congr rfl fun i _ => ?_
  rw [Fintype.sum_prod_type]
  exact Finset.sum_congr rfl fun r _ => Finset.sum_congr rfl fun q _ => rfl

/-- The [196608,128] reshape read at (row, lane). -/
theorem shapeCast2_apply {α : Type} (x : T4.Idx → α) (h : T4.ShapeCasts S2d) (R : Fin 196608) (q : Fin 128) :
    shapeCast S2d x h (ix2 R q) = x (unflat ⟨R.val * 128 + q.val, by have := R.isLt; have := q.isLt; omega⟩) := by
  refine shapeCast_apply x h (ix2 R q) _ ?_
  rewrite [Shape.rowMajor_val_four, Shape.rowMajor_val_two]
  have hR := R.isLt; have hq := q.isLt
  show (((R.val * 128 + q.val) / 12582912 * 192 + (R.val * 128 + q.val) / 65536 % 192) * 256
      + (R.val * 128 + q.val) / 256 % 256) * 256 + (R.val * 128 + q.val) % 256 = R.val * 128 + q.val
  omega

/-- The flat reshape read at a position. -/
theorem shapeCast1_apply {α : Type} (x : T4.Idx → α) (h : T4.ShapeCasts S1d) (e : Fin 25165824) :
    shapeCast S1d x h (ix1 e) = x (unflat e) := by
  refine shapeCast_apply x h (ix1 e) _ ?_
  rewrite [Shape.rowMajor_val_four, Shape.rowMajor_val_one]
  have he := e.isLt
  show ((e.val / 12582912 * 192 + e.val / 65536 % 192) * 256 + e.val / 256 % 256) * 256 + e.val % 256 = e.val
  omega

/-- The reshape of a [196608,128] array back to 4 axes, read at an entry. -/
theorem shapeCast4_apply {α : Type} (y : S2d.Idx → α) (h : S2d.ShapeCasts T4) (j : T4.Idx) :
    shapeCast T4 y h j = y (ix2 (⟨(flat j).val / 128, by have := (flat j).isLt; omega⟩ : Fin 196608) (⟨(flat j).val % 128, Nat.mod_lt _ (by decide)⟩ : Fin 128)) := by
  refine shapeCast_apply y h j _ ?_
  rewrite [Shape.rowMajor_val_two, Shape.rowMajor_val_four]
  show (flat j).val / 128 * 128 + (flat j).val % 128
    = (((j 0).val * 192 + (j 1).val) * 256 + (j 2).val) * 256 + (j 3).val
  have hf : (flat j).val = (((j 0).val * 192 + (j 1).val) * 256 + (j 2).val) * 256 + (j 3).val := rfl
  omega

end Cert.Value

end
-- ==== Proof.Value.Assemble.lean ====
import proofs.«416137_j84267258347944_3_alg».proof.Proof.Value.HostGlue
import proofs.«416137_j84267258347944_3_alg».proof.Proof.Value.ApplyValue
import proofs.«416137_j84267258347944_3_alg».proof.Proof.Value.ReduceValue
import proofs.«416137_j84267258347944_3_alg».proof.Proof.Value.SumSplit

/-! The kernel's result is the specification's function.

    The result array is the apply region's output reshaped; at an entry it is the value there less the table's lane
    named by the entry's label. The table's lane v ≥ 1 is the two cores' sums over their 48 blocks each, divided by
    the two cores' counts or one, less the intensity: the 2 · 48 blocks of 2048 rows of 128 lanes are all the entries
    in row-major order, so the two cores' sums together are the sum over every entry labelled v. Only that addition
    of extended reals is commutative and associative is used: no finiteness. -/

noncomputable section

namespace Cert.Value

open Idealize.ShloMosaic Idealize.ShloMosaic.TcCoe Idealize.ShloMosaic.ValueIdx Idealize.SL.Sem
open Cert.KernelIdeal Cert.KernelIdeal.Gen Cert.KernelIdeal.Hand Cert.Spec
open scoped BigOperators

variable (m : (ℓ : Loc nD τ sig) → Buf (Elt Ideal) ℓ) (ρ : Dev nD → PrngReg)

/-- The labels the regions stage are the argument's, so they are in range when the argument's are. -/
theorem staged_labels_lt (c : Dev nD) (hlab : ∀ j, (m ((c : Thread nD τ).loc main_arg1) j).toNat < 64) :
    ∀ j, (V5 (F := Ideal) m ρ c main_v1 j).toNat < 64 := by
  intro j
  rw [V5_v1, V1_v1]
  obtain ⟨R, q, rfl⟩ : ∃ (R : Fin 196608) (q : Fin 128), j = ix2 R q := ⟨j 0, j 1, eq_ix2 j⟩
  rw [shapeCast2_apply]
  exact hlab _

/-- The two cores' sums over their blocks are the sum over every entry. -/
theorem cores_sum (c : Dev nD) (v : ℕ) :
    ∑ c' : Fin 2, coreSum (V1 (F := Ideal) m ρ c main_v0) (V1 (F := Ideal) m ρ c main_v1) c' v
      = lblSum (m ((c : Thread nD τ).loc main_arg0)) (m ((c : Thread nD τ).loc main_arg1)) v := by
  unfold coreSum lblSum
  rw [V1_v0, V1_v1]
  simp only [shapeCast2_apply]
  rw [← sum_unflat]
  exact sum_blocks (fun e => if (m ((c : Thread nD τ).loc main_arg1) (unflat e)).toNat = v
    then (m ((c : Thread nD τ).loc main_arg0) (unflat e) : EReal) else 0)

/-- The same for the counts. -/
theorem cores_cnt (c : Dev nD) (v : ℕ) :
    ∑ c' : Fin 2, coreCnt (V1 (F := Ideal) m ρ c main_v1) c' v
      = lblCnt (m ((c : Thread nD τ).loc main_arg1)) v := by
  unfold coreCnt lblCnt
  rw [V1_v1]
  simp only [shapeCast2_apply]
  rw [← sum_unflat]
  exact sum_blocks (fun e => if (m ((c : Thread nD τ).loc main_arg1) (unflat e)).toNat = v then (oneF : EReal) else 0)

/-- The zero word denotes zero. -/
theorem zeroF_eq : (zeroF : EReal) = 0 := Ideal.ofBits_zero_f32

/-- One entry, over abstract values: the value less the table's lane, where the table's lane v ≥ 1 is made of the sum and
    the count of the entries labelled v, is the specification's value there. -/
theorem entry_eq (a : EReal) (w : BitVec 32) (hw : w.toNat < 64) (S C : Fin 64 → EReal)
    (x0 : FVec Ideal T4 .f32) (x1 : IVec T4 32) (x2 : FVec Ideal L64 .f32)
    (hS : ∀ v : Fin 64, 1 ≤ v.val → (zeroF : EReal) + S v = lblSum x0 x1 v.val)
    (hC : ∀ v : Fin 64, 1 ≤ v.val → (zeroF : EReal) + C v = lblCnt x1 v.val) :
    FloatOps.subf (F := Ideal) (φ := .f32) a
        (if (⟨w.toNat, hw⟩ : Fin 64).val = 0 then zeroF else
          FloatOps.subf (F := Ideal)
            (FloatOps.hostDivf (F := Ideal) (φ := .f32) ((zeroF : EReal) + S ⟨w.toNat, hw⟩)
              (FloatOps.maximumf (F := Ideal) (φ := .f32) ((zeroF : EReal) + C ⟨w.toNat, hw⟩) oneF))
            (x2 (ix1 (⟨w.toNat, hw⟩ : Fin 64))))
      = FloatOps.subf (F := Ideal) (φ := .f32) a (if w.toNat = 0 then zeroF else delta x0 x1 x2 (lbl w)) := by
  have hl : lbl w = ⟨w.toNat, hw⟩ := Fin.ext (Nat.mod_eq_of_lt hw)
  by_cases h : w.toNat = 0
  · have h' : (⟨w.toNat, hw⟩ : Fin 64).val = 0 := h
    rw [if_pos h', if_pos h]
  · have h' : ¬ (⟨w.toNat, hw⟩ : Fin 64).val = 0 := h
    have hv : 1 ≤ (⟨w.toNat, hw⟩ : Fin 64).val := Nat.one_le_iff_ne_zero.mpr h
    rw [if_neg h', if_neg h, hS _ hv, hC _ hv, hl]
    rfl

/-- THE KERNEL'S RESULT, when every label is in [0, 64). -/
theorem kernel_eq (c : Dev nD) (hlab : ∀ j, (m ((c : Thread nD τ).loc main_arg1) j).toNat < 64) :
    W7 (F := Ideal) m ρ c (Proc.devRef .tc main_v16)
      = Cert.Spec.G (m ((c : Thread nD τ).loc main_arg0)) (m ((c : Thread nD τ).loc main_arg1)) (m ((c : Thread nD τ).loc main_arg2)) := by
  funext j
  rw [W7_v16, shapeCast4_apply]
  refine (arr1_final (V5 m ρ) c (staged_labels_lt m ρ c hlab) _ _).trans ?_
  -- the entry's row and lane in the 196608 × 128 layout are its flat position's quotient and remainder by 128
  have hpos : (⟨(flat j).val / 128 * 128 + (flat j).val % 128, by have := (flat j).isLt; omega⟩ : Fin 25165824) = flat j :=
    Fin.ext (Nat.div_add_mod' _ _)
  have h0 : V5 (F := Ideal) m ρ c main_v0 (ix2 (⟨(flat j).val / 128, by have := (flat j).isLt; omega⟩ : Fin 196608) (⟨(flat j).val % 128, Nat.mod_lt _ (by decide)⟩ : Fin 128))
      = m ((c : Thread nD τ).loc main_arg0) j := by
    rw [V5_v0, V1_v0, shapeCast2_apply]
    exact congrArg _ ((congrArg unflat hpos).trans (unflat_flat j))
  have h1 : V5 (F := Ideal) m ρ c main_v1 (ix2 (⟨(flat j).val / 128, by have := (flat j).isLt; omega⟩ : Fin 196608) (⟨(flat j).val % 128, Nat.mod_lt _ (by decide)⟩ : Fin 128))
      = m ((c : Thread nD τ).loc main_arg1) j := by
    rw [V5_v1, V1_v1, shapeCast2_apply]
    exact congrArg _ ((congrArg unflat hpos).trans (unflat_flat j))
  have hidx : ∀ (a b : Fin 128), a.val = b.val →
      V5 (F := Ideal) m ρ c main_v14 (ix2 (0 : Fin 1) a) = V5 (F := Ideal) m ρ c main_v14 (ix2 (0 : Fin 1) b) :=
    fun a b h => by rw [Fin.ext h]
  rw [h0, hidx _ (⟨(⟨(m ((c : Thread nD τ).loc main_arg1) j).toNat, hlab j⟩ : Fin 64).val, by have := hlab j; omega⟩ : Fin 128)
    (by show (V5 (F := Ideal) m ρ c main_v1 _).toNat = _; rw [h1])]
  rw [V5_v14_apply m ρ c ⟨(m ((c : Thread nD τ).loc main_arg1) j).toNat, hlab j⟩]
  refine entry_eq _ _ (hlab j) (fun v => ∑ c' : Fin 2, (sumsArr m ρ c (ix3 c' (0 : Fin 1) v) : EReal))
    (fun v => ∑ c' : Fin 2, (cntsArr m ρ c (ix3 c' (0 : Fin 1) v) : EReal)) _ _ _ (fun v hv => ?_) (fun v hv => ?_)
  · rw [zeroF_eq, zero_add, ← cores_sum m ρ c]
    refine Finset.sum_congr rfl fun c' _ => ?_
    unfold sumsArr
    exact (sums_final (V1 m ρ) c c' _).trans (if_pos hv)
  · rw [zeroF_eq, zero_add, ← cores_cnt m ρ c]
    refine Finset.sum_congr rfl fun c' _ => ?_
    unfold cntsArr
    exact (cnts_final (V1 m ρ) c c' _).trans (if_pos hv)

end Cert.Value

end
-- ==== Proof.LibScatter.lean ====
/-
  The host's scatter read at one index.

  A scatter whose body adds in a commutative monoid leaves, at each operand index, the operand's element plus the sum of
  the updates that land there, whatever the order of the fold (general lemma, any dimension numbers). For the
  two families of dimension numbers of a histogram (operand [N], indices [K,1], updates [K]) and of a row
  scatter-add (operand [R,C], indices [K,1], updates [K,C]) the landing index is computed in closed form: update
  e lands in row "the e-th index read signed", and is dropped when that is outside the operand.
-/
import Mathlib.Data.BitVec
import Mathlib.Algebra.BigOperators.Fin
import Idealize.ShloMosaic.Lib.ValueIdxRank1

open scoped BigOperators

namespace Cert.LibScatter

open Idealize.ShloMosaic Idealize.ShloMosaic.ValueIdx

/-! ## Any scatter whose body adds in a commutative monoid -/

section General
variable {α : Type} [AddCommMonoid α] {s si u : Shape} {w : Nat}

/-- The scatter's fold over ANY list of update positions, read at operand index i: the start value there plus the
    sum, over the list, of the updates whose landing index is i. -/
theorem foldl_add_apply (d : ScatterDims s si u) (idx : IVec si w) (upd : u.Idx → α) (i : s.Idx) :
    ∀ (l : List (Fin u.numel)) (x : s.Idx → α),
      (l.foldl (fun r n =>
          match d.resultIdx? (u.rowMajor.symm n) idx with
          | some k => fun i' => if i' = k then r k + upd (u.rowMajor.symm n) else r i'
          | none => r) x) i
        = x i + (l.map fun n => if d.resultIdx? (u.rowMajor.symm n) idx = some i then upd (u.rowMajor.symm n) else 0).sum := by
  intro l
  induction l with
  | nil => intro x; simp
  | cons n l ih =>
    intro x
    rw [List.foldl_cons, ih, List.map_cons, List.sum_cons, ← add_assoc]
    congr 1
    cases hk : d.resultIdx? (u.rowMajor.symm n) idx with
    | none => simp
    | some k =>
      by_cases hik : i = k
      · subst hik; simp
      · have : ¬ (some k = some i) := fun h => hik (Option.some.inj h).symm
        simp [hik, this]

/-- A scatter with an adding body, read at operand index i: the operand's element plus the sum of all updates
    whose landing index is i. -/
theorem scatter_add_apply (d : ScatterDims s si u) (x : s.Idx → α) (idx : IVec si w) (upd : u.Idx → α) (i : s.Idx) :
    Host.scatter d (fun a b => a + b) x idx upd i
      = x i + ∑ j : u.Idx, if d.resultIdx? j idx = some i then upd j else 0 := by
  unfold Host.scatter
  refine (foldl_add_apply d idx upd i (List.finRange u.numel) x).trans ?_
  rw [← Fin.sum_univ_def]
  congr 1
  exact Equiv.sum_comp u.rowMajor.symm (fun j => if d.resultIdx? j idx = some i then upd j else 0)

end General

/-! ## Row scatter: operand [R,C], indices [K,1], updates [K,C] -/

section Row

/-- The dimension numbers of a row scatter (every update row added to the operand row its index names): the updates' axis 1 is the window, it goes to
    the operand's axis 1; the operand's axis 0 is indexed by the one component of each index vector. -/
abbrev rowDims (R K C : Nat) (wf : ScatterDims.WF ⟨2, ![R, C]⟩ ⟨2, ![K, 1]⟩ ⟨2, ![K, C]⟩ [1] [0] [0] 1) :
    ScatterDims ⟨2, ![R, C]⟩ ⟨2, ![K, 1]⟩ ⟨2, ![K, C]⟩ where
  updateWindowDims := [1]
  insertedWindowDims := [0]
  scatterDimsToOperandDims := [0]
  indexVectorDim := 1
  wf := wf

variable {R K C w : Nat} (wf : ScatterDims.WF ⟨2, ![R, C]⟩ ⟨2, ![K, 1]⟩ ⟨2, ![K, C]⟩ [1] [0] [0] 1)

/-- On the operand's row axis the window starts at the update's row's index, read signed. -/
theorem rowDims_start0 (j : (⟨2, ![K, C]⟩ : Shape).Idx) (idx : IVec ⟨2, ![K, 1]⟩ w) :
    (rowDims R K C wf).start j idx 0 = (idx (ix2 (j 0) 0)).toInt := by
  unfold ScatterDims.start
  rw [dif_pos (show (0 : Fin 2) ∈ (rowDims R K C wf).scatterDimsToOperandDims from List.mem_singleton.mpr rfl)]
  have hsi : (rowDims R K C wf).siIdx j ⟨List.idxOf (0 : Fin 2) (rowDims R K C wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- On the operand's column axis the window starts at 0. -/
theorem rowDims_start1 (j : (⟨2, ![K, C]⟩ : Shape).Idx) (idx : IVec ⟨2, ![K, 1]⟩ w) :
    (rowDims R K C wf).start j idx 1 = 0 := by
  unfold ScatterDims.start
  rw [dif_neg (show (1 : Fin 2) ∉ (rowDims R K C wf).scatterDimsToOperandDims from
    fun h => Nat.one_ne_zero (congrArg Fin.val (List.mem_singleton.mp h)))]

/-- The operand's axes that are not inserted: the column axis alone. -/
theorem rowDims_sKept : (rowDims R K C wf).sKept = [1] := rfl

/-- The row axis is inserted: no window coordinate. -/
theorem rowDims_window0 (j : (⟨2, ![K, C]⟩ : Shape).Idx) : (rowDims R K C wf).window j 0 = 0 := by
  unfold ScatterDims.window
  rw [dif_neg (show (0 : Fin 2) ∉ (rowDims R K C wf).sKept from
    fun h => Nat.one_ne_zero (congrArg Fin.val (List.mem_singleton.mp (rowDims_sKept wf ▸ h))).symm)]

/-- The column axis carries the update's column. -/
theorem rowDims_window1 (j : (⟨2, ![K, C]⟩ : Shape).Idx) : (rowDims R K C wf).window j 1 = (j 1).val := by
  unfold ScatterDims.window
  rw [dif_pos (show (1 : Fin 2) ∈ (rowDims R K C wf).sKept from rowDims_sKept wf ▸ List.mem_singleton.mpr rfl)]
  rfl

/-- WHERE AN UPDATE LANDS: update (e, c) lands at (row, c), row the e-th index read signed, when that row is in
    the operand; it is dropped otherwise. -/
theorem rowDims_resultIdx? (e : Fin K) (c : Fin C) (idx : IVec ⟨2, ![K, 1]⟩ w) :
    (rowDims R K C wf).resultIdx? (ix2 e c) idx
      = if h : 0 ≤ (idx (ix2 e 0)).toInt ∧ (idx (ix2 e 0)).toInt < (R : ℤ) then
          some (ix2 ⟨(idx (ix2 e 0)).toInt.toNat, by omega⟩ c)
        else none := by
  have h0 : (rowDims R K C wf).start (ix2 e c) idx 0 + ((rowDims R K C wf).window (ix2 e c) 0 : ℤ)
      = (idx (ix2 e 0)).toInt := by
    rw [rowDims_start0, rowDims_window0]; simp; rfl
  have h1 : (rowDims R K C wf).start (ix2 e c) idx 1 + ((rowDims R K C wf).window (ix2 e c) 1 : ℤ) = (c.val : ℤ) := by
    rw [rowDims_start1, rowDims_window1]; simp; rfl
  unfold ScatterDims.resultIdx?
  by_cases h : 0 ≤ (idx (ix2 e 0)).toInt ∧ (idx (ix2 e 0)).toInt < (R : ℤ)
  · have hall : ∀ a : Fin 2, 0 ≤ (rowDims R K C wf).start (ix2 e c) idx a + ((rowDims R K C wf).window (ix2 e c) a : ℤ)
        ∧ (rowDims R K C wf).start (ix2 e c) idx a + ((rowDims R K C wf).window (ix2 e c) a : ℤ)
          < ((⟨2, ![R, C]⟩ : Shape).size a : ℤ) := by
      intro a
      match a with
      | ⟨0, _⟩ =>
        show 0 ≤ (rowDims R K C wf).start (ix2 e c) idx 0 + ((rowDims R K C wf).window (ix2 e c) 0 : ℤ)
          ∧ (rowDims R K C wf).start (ix2 e c) idx 0 + ((rowDims R K C wf).window (ix2 e c) 0 : ℤ) < (R : ℤ)
        rw [h0]; exact h
      | ⟨1, _⟩ =>
        show 0 ≤ (rowDims R K C wf).start (ix2 e c) idx 1 + ((rowDims R K C wf).window (ix2 e c) 1 : ℤ)
          ∧ (rowDims R K C wf).start (ix2 e c) idx 1 + ((rowDims R K C wf).window (ix2 e c) 1 : ℤ) < (C : ℤ)
        rw [h1]; exact ⟨Int.natCast_nonneg _, Int.ofNat_lt.mpr c.isLt⟩
    rw [dif_pos hall, dif_pos h]
    congr 1
    funext a
    refine Fin.ext ?_
    match a with
    | ⟨0, _⟩ => show ((rowDims R K C wf).start (ix2 e c) idx 0 + ((rowDims R K C wf).window (ix2 e c) 0 : ℤ)).toNat = _
                rw [h0]
    | ⟨1, _⟩ => show ((rowDims R K C wf).start (ix2 e c) idx 1 + ((rowDims R K C wf).window (ix2 e c) 1 : ℤ)).toNat = _
                rw [h1]; rfl
  · rw [dif_neg h, dif_neg]
    intro hall
    have := hall 0
    rw [h0] at this
    exact h this

/-- The form sums use: update (e, c) lands at (i, c') exactly when the e-th index reads i and the columns agree. -/
theorem rowDims_resultIdx?_eq_some_iff (e : Fin K) (c c' : Fin C) (i : Fin R) (idx : IVec ⟨2, ![K, 1]⟩ w) :
    (rowDims R K C wf).resultIdx? (ix2 e c) idx = some (ix2 i c')
      ↔ (idx (ix2 e 0)).toInt = (i.val : ℤ) ∧ c = c' := by
  rw [rowDims_resultIdx?]
  by_cases h : 0 ≤ (idx (ix2 e 0)).toInt ∧ (idx (ix2 e 0)).toInt < (R : ℤ)
  · rw [dif_pos h]
    constructor
    · intro heq
      have heq := Option.some.inj heq
      have e0 : (idx (ix2 e 0)).toInt.toNat = i.val := congrArg Fin.val (congrFun heq 0)
      have e1 : c = c' := congrFun heq 1
      exact ⟨by omega, e1⟩
    · rintro ⟨ht, rfl⟩
      congr 2
      exact Fin.ext (by show (idx (ix2 e 0)).toInt.toNat = i.val; omega)
  · rw [dif_neg h]
    constructor
    · intro heq; cases heq
    · rintro ⟨ht, -⟩
      exact absurd ⟨by omega, by have := i.isLt; omega⟩ h

end Row

/-! ## Histogram: operand [N], indices [K,1], updates [K] -/

section Hist

/-- The dimension numbers of a histogram (every update added to the operand element its index names): the updates
    have no window axis; the operand's one axis is inserted and indexed by the one component of each index vector. -/
abbrev histDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

variable {N K w : Nat} (wf : ScatterDims.WF ⟨1, ![N]⟩ ⟨2, ![K, 1]⟩ ⟨1, ![K]⟩ [] [0] [0] 1)

/-- The window starts at the update's index, read signed. -/
theorem histDims_start0 (j : (⟨1, ![K]⟩ : Shape).Idx) (idx : IVec ⟨2, ![K, 1]⟩ w) :
    (histDims N K wf).start j idx 0 = (idx (ix2 (j 0) 0)).toInt := by
  unfold ScatterDims.start
  rw [dif_pos (show (0 : Fin 1) ∈ (histDims N K wf).scatterDimsToOperandDims from List.mem_singleton.mpr rfl)]
  have hsi : (histDims N K wf).siIdx j ⟨List.idxOf (0 : Fin 1) (histDims N K wf).scatterDimsToOperandDims,
      List.idxOf_lt_length_iff.2 (List.mem_singleton.mpr rfl)⟩ = ix2 (j 0) 0 := by
    funext b; refine Fin.ext ?_
    match b with
    | ⟨0, _⟩ => rfl
    | ⟨1, _⟩ => rfl
  rw [hsi]
  rfl

/-- The operand's one axis is inserted: no axis is kept, … -/
theorem histDims_sKept : (histDims N K wf).sKept = [] := rfl

/-- … so there is no window coordinate. -/
theorem histDims_window0 (j : (⟨1, ![K]⟩ : Shape).Idx) : (histDims N K wf).window j 0 = 0 := by
  unfold ScatterDims.window
  rw [dif_neg (show (0 : Fin 1) ∉ (histDims N K wf).sKept from fun h => List.not_mem_nil (histDims_sKept wf ▸ h))]

/-- WHERE AN UPDATE LANDS: update e lands at the e-th index read signed, when that is in the operand; it is
    dropped otherwise. -/
theorem histDims_resultIdx? (e : Fin K) (idx : IVec ⟨2, ![K, 1]⟩ w) :
    (histDims N K wf).resultIdx? (ix1 e) idx
      = if h : 0 ≤ (idx (ix2 e 0)).toInt ∧ (idx (ix2 e 0)).toInt < (N : ℤ) then
          some (ix1 ⟨(idx (ix2 e 0)).toInt.toNat, by omega⟩)
        else none := by
  have h0 : (histDims N K wf).start (ix1 e) idx 0 + ((histDims N K wf).window (ix1 e) 0 : ℤ)
      = (idx (ix2 e 0)).toInt := by
    rw [histDims_start0, histDims_window0]; simp; rfl
  unfold ScatterDims.resultIdx?
  by_cases h : 0 ≤ (idx (ix2 e 0)).toInt ∧ (idx (ix2 e 0)).toInt < (N : ℤ)
  · have hall : ∀ a : Fin 1, 0 ≤ (histDims N K wf).start (ix1 e) idx a + ((histDims N K wf).window (ix1 e) a : ℤ)
        ∧ (histDims N K wf).start (ix1 e) idx a + ((histDims N K wf).window (ix1 e) a : ℤ)
          < ((⟨1, ![N]⟩ : Shape).size a : ℤ) := by
      intro a
      match a with
      | ⟨0, _⟩ =>
        show 0 ≤ (histDims N K wf).start (ix1 e) idx 0 + ((histDims N K wf).window (ix1 e) 0 : ℤ)
          ∧ (histDims N K wf).start (ix1 e) idx 0 + ((histDims N K wf).window (ix1 e) 0 : ℤ) < (N : ℤ)
        rw [h0]; exact h
    rw [dif_pos hall, dif_pos h]
    congr 1
    funext a
    refine Fin.ext ?_
    match a with
    | ⟨0, _⟩ => show ((histDims N K wf).start (ix1 e) idx 0 + ((histDims N K wf).window (ix1 e) 0 : ℤ)).toNat = _
                rw [h0]
  · rw [dif_neg h, dif_neg]
    intro hall
    have := hall 0
    rw [h0] at this
    exact h this

/-- The form sums use: update e lands at v exactly when the e-th index reads v. -/
theorem histDims_resultIdx?_eq_some_iff (e : Fin K) (v : Fin N) (idx : IVec ⟨2, ![K, 1]⟩ w) :
    (histDims N K wf).resultIdx? (ix1 e) idx = some (ix1 v) ↔ (idx (ix2 e 0)).toInt = (v.val : ℤ) := by
  rw [histDims_resultIdx?]
  by_cases h : 0 ≤ (idx (ix2 e 0)).toInt ∧ (idx (ix2 e 0)).toInt < (N : ℤ)
  · rw [dif_pos h]
    constructor
    · intro heq
      have heq := Option.some.inj heq
      have e0 : (idx (ix2 e 0)).toInt.toNat = v.val := congrArg Fin.val (congrFun heq 0)
      omega
    · intro ht
      congr 2
      exact Fin.ext (by show (idx (ix2 e 0)).toInt.toNat = v.val; omega)
  · rw [dif_neg h]
    constructor
    · intro heq; cases heq
    · intro ht
      exact absurd ⟨by omega, by have := v.isLt; omega⟩ h

end Hist

/-! ## The two scatters read at an index, as sums over the update rows -/

section Sums

/-- THE ROW SCATTER-ADD AT (i, c), exact arithmetic: the operand's element plus the sum, over the update rows whose
    index reads i, of the row's element in column c. -/
theorem rowDims_scatterAdd_apply {R K C w : Nat} {φ : FTy}
    (wf : ScatterDims.WF ⟨2, ![R, C]⟩ ⟨2, ![K, 1]⟩ ⟨2, ![K, C]⟩ [1] [0] [0] 1)
    (x : FVec Ideal ⟨2, ![R, C]⟩ φ) (idx : IVec ⟨2, ![K, 1]⟩ w) (upd : FVec Ideal ⟨2, ![K, C]⟩ φ) (i : Fin R) (c : Fin C) :
    Host.scatterAdd (rowDims R K C wf) x idx upd (ix2 i c)
      = x (ix2 i c) + ∑ e : Fin K, if (idx (ix2 e 0)).toInt = (i.val : ℤ) then upd (ix2 e c) else 0 := by
  show x (ix2 i c) + ∑ j ∈ Finset.univ.filter (fun j => (rowDims R K C wf).resultIdx? j idx = some (ix2 i c)), upd j = _
  congr 1
  rw [Finset.sum_filter, sum_idx2]
  refine Finset.sum_congr rfl fun e _ => ?_
  simp only [rowDims_resultIdx?_eq_some_iff]
  by_cases ht : (idx (ix2 e 0)).toInt = (i.val : ℤ)
  · simp [ht]
  · simp [ht]

/-- A sum of 32-bit words, each present or absent, is the word of the sum of their values. -/
theorem sum_ite_word {ι : Type} (S : Finset ι) (p : ι → Prop) [DecidablePred p] (f : ι → BitVec 32) :
    (∑ e ∈ S, if p e then f e else 0) = BitVec.ofNat 32 (∑ e ∈ S, if p e then (f e).toNat else 0) := by
  rw [← BitVec.natCast_eq_ofNat, Nat.cast_sum]
  refine Finset.sum_congr rfl fun e _ => ?_
  split_ifs
  · rw [BitVec.natCast_eq_ofNat, BitVec.ofNat_toNat, BitVec.setWidth_eq]
  · simp

/-- THE HISTOGRAM AT v, 32-bit words added with wrap-around: the operand's element plus the word of the sum, over the
    updates whose index reads v, of the update's value. -/
theorem histDims_scatter_apply {N K w : Nat}
    (wf : ScatterDims.WF ⟨1, ![N]⟩ ⟨2, ![K, 1]⟩ ⟨1, ![K]⟩ [] [0] [0] 1)
    (x : IVec ⟨1, ![N]⟩ 32) (idx : IVec ⟨2, ![K, 1]⟩ w) (upd : IVec ⟨1, ![K]⟩ 32) (v : Fin N) :
    Host.scatter (histDims N K wf) IntOp.addi x idx upd (ix1 v)
      = x (ix1 v) + BitVec.ofNat 32 (∑ e : Fin K, if (idx (ix2 e 0)).toInt = (v.val : ℤ) then (upd (ix1 e)).toNat else 0) := by
  have hadd : (IntOp.addi : BitVec 32 → BitVec 32 → BitVec 32) = fun a b => a + b := rfl
  rw [hadd, scatter_add_apply, ← sum_ite_word]
  congr 1
  rw [← Equiv.sum_comp (idxEquiv1 (n := K)).symm]
  refine Finset.sum_congr rfl fun e _ => ?_
  show (if (histDims N K wf).resultIdx? (ix1 e) idx = some (ix1 v) then upd (ix1 e) else 0) = _
  simp only [histDims_resultIdx?_eq_some_iff]

end Sums

end Cert.LibScatter
-- ==== Proof.Value.RefSide.lean ====
import proofs.«416137_j84267258347944_3_alg».proof.Proof.Gen.ReferenceIdeal.Read
import proofs.«416137_j84267258347944_3_alg».proof.Proof.LibScatter
import proofs.«416137_j84267258347944_3_alg».proof.Proof.Value.Spec
import proofs.«416137_j84267258347944_3_alg».proof.Proof.Value.SumSplit
import Idealize.ShloMosaic.Lib.ValueIdx
import Idealize.ShloMosaic.Lib.ValueIdxRank1
import Idealize.ShloMosaic.Lib.StableHlo.Predicate
import Idealize.ShloMosaic.PureOps.Ideal.Laws

/-! The reference's value at an entry. Its two scatter-adds over the flat arrays leave at label v the zero literal
    plus the sum over all entries labelled v of the values (of ones); the table of differences is read at the
    entry's label (a label in [0, 64) is read as it is: neither normalised nor clamped) where the label is positive,
    and zero is subtracted elsewhere. -/

noncomputable section

namespace Cert.ReferenceIdeal.RefValue

open Idealize.ShloMosaic Idealize.ShloMosaic.ValueIdx Cert.Spec
open scoped BigOperators

/-! ## The histogram scatter-add of floats, exact arithmetic, read at an index -/

section Hist
open Cert.LibScatter

/-- THE HISTOGRAM SCATTER-ADD AT v, exact arithmetic: the operand's element plus the sum, over the updates whose
    index reads v, of the update. -/
theorem histDims_scatterAdd_apply {N K w : Nat} {φ : FTy}
    (wf : ScatterDims.WF ⟨1, ![N]⟩ ⟨2, ![K, 1]⟩ ⟨1, ![K]⟩ [] [0] [0] 1)
    (x : FVec Ideal ⟨1, ![N]⟩ φ) (idx : IVec ⟨2, ![K, 1]⟩ w) (upd : FVec Ideal ⟨1, ![K]⟩ φ) (v : Fin N) :
    Host.scatterAdd (histDims N K wf) x idx upd (ix1 v)
      = x (ix1 v) + ∑ e : Fin K, if (idx (ix2 e 0)).toInt = (v.val : ℤ) then upd (ix1 e) else 0 := by
  show x (ix1 v) + ∑ j ∈ Finset.univ.filter (fun j => (histDims N K wf).resultIdx? j idx = some (ix1 v)), upd j = _
  congr 1
  rw [Finset.sum_filter, ← Equiv.sum_comp (idxEquiv1 (n := K)).symm]
  refine Finset.sum_congr rfl fun e _ => ?_
  show (if (histDims N K wf).resultIdx? (ix1 e) idx = some (ix1 v) then upd (ix1 e) else 0) = _
  simp only [histDims_resultIdx?_eq_some_iff]

end Hist

/-! ## Words: a label in [0, 64) -/

section Words

/-- A label below 64 reads the same signed and unsigned. -/
theorem toInt_lab {w : BitVec 32} (h : w.toNat < 64) : w.toInt = (w.toNat : ℤ) :=
  StableHlo.Predicate.toInt_eq_toNat_of_lt (by omega)

/-- The index normalisation (a negative index counts from the end) leaves a label as it is. -/
theorem normalise_lab {w : BitVec 32} (h : w.toNat < 64) :
    Scalar.select (IntOp.cmpi .slt w 0#32) (IntOp.addi w 64#32) w = w := by
  have hne : ¬ IntOp.cmpi .slt w 0#32 = 1#1 := by
    rw [StableHlo.Predicate.slt_iff_toNat (by omega) (by decide)]
    simp
  rw [eq_zero_of_ne_one hne, select_zero]

/-- The test "label is positive". -/
theorem positive_lab {w : BitVec 32} (h : w.toNat < 64) :
    IntOp.cmpi .sgt w 0#32 = 1#1 ↔ w.toNat ≠ 0 := by
  rw [StableHlo.Predicate.sgt_iff_toNat (by omega) (by decide)]
  simp; omega

end Words

variable [Cert.ReferenceIdeal.Facts]

open Cert.ReferenceIdeal.Read Cert.Value

/-! ## The flat arrays -/

theorem idx24_eq (j : T4.Idx) : idx_main_v24 j = ix1 (flat j) := by
  funext a; match a with | ⟨0, _⟩ => rfl

theorem idx0_eq (e : Fin 25165824) : idx_main_v0 (ix1 e) = unflat e := by
  funext a; match a with | ⟨0, _⟩ => rfl | ⟨1, _⟩ => rfl | ⟨2, _⟩ => rfl | ⟨3, _⟩ => rfl

theorem idx1_eq (e : Fin 25165824) : idx_main_v1 (ix1 e) = unflat e := by
  funext a; match a with | ⟨0, _⟩ => rfl | ⟨1, _⟩ => rfl | ⟨2, _⟩ => rfl | ⟨3, _⟩ => rfl

theorem idx3_eq (e : Fin 25165824) : idx_main_v3 (ix2 e (0 : Fin 1)) = ix1 e := by
  funext a; match a with | ⟨0, _⟩ => rfl

/-- The flat values at position e. -/
theorem v0_at (x0 : FVec Ideal T4 .f32) (e : Fin 25165824) : val_main_v0 (F := Ideal) x0 (ix1 e) = x0 (unflat e) := by
  rw [val_main_v0_apply, idx0_eq]

/-- The flat labels at position e. -/
theorem v1_at (x1 : IVec T4 32) (e : Fin 25165824) : val_main_v1 (F := Ideal) x1 (ix1 e) = x1 (unflat e) := by
  rw [val_main_v1_apply, idx1_eq]

/-- The labels as a column of scatter indices. -/
theorem v3_at (x1 : IVec T4 32) (e : Fin 25165824) : val_main_v3 (F := Ideal) x1 (ix2 e (0 : Fin 1)) = x1 (unflat e) := by
  rw [val_main_v3_apply, idx3_eq, v1_at]

theorem v7_at (x1 : IVec T4 32) (e : Fin 25165824) : val_main_v7 (F := Ideal) x1 (ix2 e (0 : Fin 1)) = x1 (unflat e) := by
  rw [val_main_v7_apply]
  exact (congrArg _ (idx3_eq e)).trans (v1_at x1 e)

/-! ## The two scatter-adds -/

/-- The program's scatter record is the histogram family's. -/
theorem scatter_eq_hist : scatter_S64_S25165824x1_S25165824_n_0_0_1
    = Cert.LibScatter.histDims 64 25165824 Facts₀.scatter_S64_S25165824x1_S25165824_n_0_0_1_wf := rfl

/-- The sums per label. -/
theorem v4_at (x0 : FVec Ideal T4 .f32) (x1 : IVec T4 32) (hlab : ∀ j, (x1 j).toNat < 64) (v : Fin 64) :
    val_main_v4 (F := Ideal) x0 x1 (ix1 v) = lblSum x0 x1 v.val := by
  unfold val_main_v4
  rw [scatter_eq_hist, histDims_scatterAdd_apply, val_main_v2_apply, val_main_cst_apply, Ideal.ofBits_def, Ideal.ofBits_zero_f32, zero_add]
  unfold lblSum
  rw [← sum_unflat]
  refine Finset.sum_congr rfl fun e _ => ?_
  rw [v3_at, v0_at, toInt_lab (hlab _)]
  simp only [Nat.cast_inj]

/-- The counts per label. -/
theorem v8_at (x1 : IVec T4 32) (hlab : ∀ j, (x1 j).toNat < 64) (v : Fin 64) :
    val_main_v8 (F := Ideal) x1 (ix1 v) = lblCnt x1 v.val := by
  unfold val_main_v8
  rw [scatter_eq_hist, histDims_scatterAdd_apply, val_main_v6_apply, val_main_cst_1_apply, Ideal.ofBits_def, Ideal.ofBits_zero_f32, zero_add]
  unfold lblCnt
  rw [← sum_unflat]
  refine Finset.sum_congr rfl fun e _ => ?_
  rw [v7_at, val_main_v5_apply, val_main_cst_0_apply, toInt_lab (hlab _)]
  simp only [Nat.cast_inj]

/-! ## The table of differences -/

theorem v12_at (x0 : FVec Ideal T4 .f32) (x1 : IVec T4 32) (x2 : FVec Ideal L64 .f32) (hlab : ∀ j, (x1 j).toNat < 64)
    (v : Fin 64) : val_main_v12 (F := Ideal) x0 x1 x2 (ix1 v) = delta x0 x1 x2 v := by
  rw [val_main_v12_apply, val_main_v11_apply, val_main_v10_apply, v4_at x0 x1 hlab, v8_at x1 hlab, val_main_v9_apply,
    val_main_cst_2_apply]
  rfl

/-! ## The gather -/

theorem idx20_eq (e : Fin 25165824) : idx_main_v20 (ix2 e (0 : Fin 1)) = ix1 e := by
  funext a; match a with | ⟨0, _⟩ => rfl

/-- The normalised labels. -/
theorem v19_at (x1 : IVec T4 32) (hlab : ∀ j, (x1 j).toNat < 64) (e : Fin 25165824) :
    val_main_v19 (F := Ideal) x1 (ix1 e) = x1 (unflat e) := by
  rw [val_main_v19_apply, val_main_v16_apply, val_main_v18_apply, v1_at, val_main_v15_apply, val_main_c_3_apply,
    val_main_v17_apply, val_main_c_4_apply]
  exact normalise_lab (hlab _)

theorem v20_at (x1 : IVec T4 32) (hlab : ∀ j, (x1 j).toNat < 64) (e : Fin 25165824) :
    val_main_v20 (F := Ideal) x1 (ix2 e (0 : Fin 1)) = x1 (unflat e) := by
  rw [val_main_v20_apply, idx20_eq, v19_at x1 hlab]

theorem ix1_eq_ofFin {n : Nat} (e : Fin n) : ix1 e = Shape.Idx.ofFin e := by
  funext a; match a with | ⟨0, _⟩ => exact Fin.ext rfl

theorem ixP_eq {n : Nat} (e : Fin n) : StableHlo.Predicate.ixP e = ix2 e (0 : Fin 1) := by
  funext a; match a with | ⟨0, _⟩ => rfl | ⟨1, _⟩ => rfl

/-- The gathered difference at position e: the table at the entry's label. -/
theorem v21_at (x0 : FVec Ideal T4 .f32) (x1 : IVec T4 32) (x2 : FVec Ideal L64 .f32) (hlab : ∀ j, (x1 j).toNat < 64)
    (e : Fin 25165824) : val_main_v21 (F := Ideal) x0 x1 x2 (ix1 e) = delta x0 x1 x2 (lbl (x1 (unflat e))) := by
  unfold val_main_v21
  rw [ix1_eq_ofFin e, StableHlo.Predicate.gather_take _ rfl rfl rfl rfl _ _ e (by decide), ← ix1_eq_ofFin,
    v12_at x0 x1 x2 hlab]
  have hidx : val_main_v20 (F := Ideal) x1 (StableHlo.Predicate.ixP e) = x1 (unflat e) := by
    rw [ixP_eq]; exact v20_at x1 hlab e
  congr 1
  refine Fin.ext ?_
  have h := hlab (unflat e)
  have hi := toInt_lab h
  show min (val_main_v20 (F := Ideal) x1 (StableHlo.Predicate.ixP e)).toInt.toNat (64 - 1) = (x1 (unflat e)).toNat % 64
  rw [hidx]
  omega

/-! ## The result -/

/-- The reference computes the specification's function, when every label is in [0, 64). -/
theorem ref_eq (x0 : FVec Ideal T4 .f32) (x1 : IVec T4 32) (x2 : FVec Ideal L64 .f32) (hlab : ∀ j, (x1 j).toNat < 64) :
    Cert.ReferenceIdeal.Read.val_main_v24 (F := Ideal) x0 x1 x2 = Cert.Spec.G x0 x1 x2 := by
  funext j
  rw [val_main_v24_apply, idx24_eq, val_main_v23_apply, val_main_v22_apply, v0_at, v21_at x0 x1 x2 hlab,
    val_main_v14_apply, v1_at, val_main_v13_apply, val_main_c_apply, val_main_call0_v1_apply, val_main_call0_v0_apply,
    val_main_cst_5_apply, unflat_flat]
  unfold G
  by_cases h0 : (x1 j).toNat = 0
  · have hne : ¬ IntOp.cmpi .sgt (x1 j) 0#32 = 1#1 := fun hc => (positive_lab (hlab j)).1 hc h0
    rw [eq_zero_of_ne_one hne, select_zero, if_pos h0]
  · rw [(positive_lab (hlab j)).2 h0, select_one, if_neg h0]

end Cert.ReferenceIdeal.RefValue

end
-- ==== Proof.Value.PreDecode.lean ====
import proofs.«416137_j84267258347944_3_alg».proof.Pre_finite_inputs
import Idealize.ShloMosaic.Lib.ReduceAll
import Idealize.ShloMosaic.Lib.StableHlo.Predicate

/-! The precondition read: its last two conjuncts say that every label word, read signed, is at least 0 and less
    than 64; as a natural number it is then less than 64. -/

noncomputable section

namespace Cert.Value

open Idealize.ShloMosaic

/-- A result of rank 0 has exactly one index. -/
private instance subsingleton_scalarIdx : Subsingleton Cert.Pre_finite_inputs.S_.Idx :=
  ⟨fun _ _ => funext fun d => d.elim0⟩

/-- A 32-bit word that reads signed as at least 0 and less than 64 reads unsigned as less than 64. -/
private theorem toNat_lt_of_signed_range (w : BitVec 32)
    (hge : IntOp.cmpi .sge w 0#32 = 1#1) (hlt : IntOp.cmpi .slt w 64#32 = 1#1) : w.toNat < 64 := by
  rw [IntOp.cmpi_sge] at hge
  rw [IntOp.cmpi_slt] at hlt
  have h0 : (0#32 : BitVec 32).toInt = 0 := by decide
  have h64 : (64#32 : BitVec 32).toInt = 64 := by decide
  rw [h0] at hge
  rw [h64] at hlt
  have hw := w.isLt
  rw [BitVec.toInt_eq_toNat_cond] at hge hlt
  split at hge <;> omega

theorem lab_of_pre [Cert.Pre_finite_inputs.Facts] {F : FTy → Type} [FloatOps F]
    (a0 : FVec F Cert.Pre_finite_inputs.S2x192x256x256 .f32) (a1 : IVec Cert.Pre_finite_inputs.S2x192x256x256 32)
    (a2 : FVec F Cert.Pre_finite_inputs.S64 .f32)
    (h : Cert.Pre_finite_inputs.fn (F := F) a0 a1 a2 = fun _ => 1#1) : ∀ j, (a1 j).toNat < 64 := by
  intro j
  -- the one element of the rank-0 result
  have h0 := congrFun h (fun a => a.elim0)
  dsimp only [Cert.Pre_finite_inputs.fn, Cert.Pre_finite_inputs.fn_part1, andi] at h0
  -- the outer two conjunctions: the last two reductions are 1
  obtain ⟨h12, hlt⟩ := IntOp.andi_eq_one.1 h0
  obtain ⟨_, hge⟩ := IntOp.andi_eq_one.1 h12
  -- a reduction by and over every axis that is 1 met a 1 at every index
  have hgej := Host.reduce_andi_all _ _ _ _ _ hge j
  have hltj := Host.reduce_andi_all _ _ _ _ _ hlt j
  -- the compared array is the broadcast of a constant: at j it is that constant
  exact toNat_lt_of_signed_range (a1 j) hgej hltj

end Cert.Value

end
-- ==== Proof.lean ====
/- The kernel computes, for every entry of a [2,192,256,256] array with labels in [0, 64), the value less the label's
   difference D v = S v / max (C v) 1 - intensity v (S v the sum, C v the number of the entries labelled v), leaving the
   entries labelled 0 as they are. A first pipelined region accumulates per core the per-label sums and counts of its 48
   blocks in two accumulators carried across the grid points; host operations add the two cores' rows, form the table of
   differences, zero its lane 0 and pad it to 128 lanes; a second region subtracts at every entry the table's lane the
   label names. The reference computes S and C by two scatter-adds over the flat arrays and reads D by a gather.
   Over the extended reals both are the specification's function (Proof/Value/Spec.lean): the kernel side by reading the
   run's last valuation (Proof/Value/Assemble.lean), the reference side by reading its run (Proof/Value/RefSide.lean). The
   frames hold without the precondition; the value claim uses of it only that the labels are in range. -/
import proofs.«416137_j84267258347944_3_alg».proof.Defs
import proofs.«416137_j84267258347944_3_alg».proof.Proof.Gen.Kernel
import proofs.«416137_j84267258347944_3_alg».proof.Proof.Gen.KernelIdeal
import proofs.«416137_j84267258347944_3_alg».proof.Proof.Gen.ReferenceIdeal
import proofs.«416137_j84267258347944_3_alg».proof.Proof.Gen.Pre_finite_inputs
import proofs.«416137_j84267258347944_3_alg».proof.Proof.Gen.ReferenceIdeal.Run
import proofs.«416137_j84267258347944_3_alg».proof.Proof.KernelHand.Run
import proofs.«416137_j84267258347944_3_alg».proof.Proof.KernelIdealHand.Run
import proofs.«416137_j84267258347944_3_alg».proof.Proof.Value.Assemble
import proofs.«416137_j84267258347944_3_alg».proof.Proof.Value.RefSide
import proofs.«416137_j84267258347944_3_alg».proof.Proof.Value.PreDecode
import Idealize.ShloMosaic.Adequacy
import Idealize.ShloMosaic.Init

noncomputable section

namespace Cert.Proof

open Idealize.ShloMosaic Idealize.ShloMosaic.TcCoe Idealize.SL.Sem

/-- The word-level program runs and leaves its arguments as launched. -/
theorem frame_k [Cert.Kernel.Facts] [Cert.Pre_finite_inputs.Facts] : Cert.frame_Kernel :=
  fun m ρ _ => Cert.Kernel.Hand.frame (F := Bits) m ρ

/-- So does its reading over the extended reals. -/
theorem frame_ki [Cert.KernelIdeal.Facts] [Cert.Pre_finite_inputs.Facts] : Cert.frame_KernelIdeal :=
  fun m ρ _ => Cert.KernelIdeal.Hand.frame (F := Ideal) m ρ

/-- The reference is host operations only: its run, the result dropped. -/
theorem frame_ri [Cert.ReferenceIdeal.Facts] [Cert.Pre_finite_inputs.Facts] : Cert.frame_ReferenceIdeal :=
  fun m ρ _ => (θ_run Cert.ReferenceIdeal.defs _ _).mono (fun _ h c => (h c).2) (Cert.ReferenceIdeal.Value.run (F := Ideal) m ρ)

/-- Both programs end with the specification's function of the arguments in their result arrays. -/
theorem algebraic [Cert.KernelIdeal.Facts] [Cert.ReferenceIdeal.Facts] [Cert.Pre_finite_inputs.Facts] :
    Cert.algebraic_KernelIdeal_ReferenceIdeal := by
  intro m ρ m' ρ' hpre hagree
  have hlab : ∀ c : Dev Cert.KernelIdeal.nD, ∀ j, (m ((c.tc : Thread Cert.KernelIdeal.nD Cert.KernelIdeal.τ).loc Cert.KernelIdeal.main_arg1) j).toNat < 64 :=
    fun c => Cert.Value.lab_of_pre _ _ _ (hpre c)
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.Hand.run_result (F := Ideal) m ρ)
    exact Cert.Value.kernel_eq m ρ c (hlab c)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, (hagree c).1, (hagree c).2.1, (hagree c).2.2]
    exact Cert.ReferenceIdeal.RefValue.ref_eq _ _ _ (hlab c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
